-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S1500000x1 : Shape := ⟨2, ![1500000, 1]⟩
abbrev S1 : Shape := ⟨1, ![1]⟩
abbrev S1500000x64 : Shape := ⟨2, ![1500000, 64]⟩
abbrev S_ : Shape := ⟨0, ![]⟩
abbrev S16384x1 : Shape := ⟨2, ![16384, 1]⟩
abbrev S16384 : Shape := ⟨1, ![16384]⟩

class Facts : Prop where
  bcast_S_S1500000x1 : S_.BroadcastsInDim S1500000x1 (![] : Fin 0 → Fin S1500000x1.rank)
  reducesTo_S1500000x1_S_d0_1 : S1500000x1.ReducesTo [0, 1] S_
  h_S_ : 0 < S_.numel
  bcast_S_S1 : S_.BroadcastsInDim S1 (![] : Fin 0 → Fin S1.rank)
  reducesTo_S1_S_d0 : S1.ReducesTo [0] S_
  bcast_S_S1500000x64 : S_.BroadcastsInDim S1500000x64 (![] : Fin 0 → Fin S1500000x64.rank)
  reducesTo_S1500000x64_S_d0_1 : S1500000x64.ReducesTo [0, 1] S_
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  slices_S16384x2_S16384x1_0_1 : S16384x2.Slices ![0, 1] S16384x1

variable [Facts]

def fn_part2 {F : FTy → Type} [FloatOps F] (main_v31 : IVec S_ 1) (main_v33 : IVec S16384 32) (main_v34 : IVec S16384 32) : IVec S_ 1 :=
  let main_v35 : IVec S16384 1 := cmpi .slt main_v33 main_v34
  let main_c_11 : IVec S_ 1 := constantI S_ 1 1#1
  let main_v36 : IVec S_ 1 := (fun x v => Host.reduce IntOp.andi x v reducesTo_S16384_S_d0 h_S_) main_v35 main_c_11
  let main_v37 : IVec S_ 1 := andi main_v31 main_v36
  main_v37

def fn_part1 {F : FTy → Type} [FloatOps F] (main_arg0 : IVec S16384x2 32) (main_v13 : IVec S_ 1) (main_v15 : IVec S16384 32) (main_v16 : IVec S16384 32) : IVec S_ 1 :=
  let main_v17 : IVec S16384 1 := cmpi .sge main_v15 main_v16
  let main_c_5 : IVec S_ 1 := constantI S_ 1 1#1
  let main_v18 : IVec S_ 1 := (fun x v => Host.reduce IntOp.andi x v reducesTo_S16384_S_d0 h_S_) main_v17 main_c_5
  let main_v19 : IVec S_ 1 := andi main_v13 main_v18
  let main_v20 : IVec S16384x1 32 := (extractStridedSlice S16384x1 ![0, 0] · slices_S16384x2_S16384x1_0_0) main_arg0
  let main_v21 : IVec S16384 32 := shapeCast S16384 main_v20 shapeCasts_S16384x1_S16384
  let main_c_6 : IVec S_ 32 := constantI S_ 32 1500000#32
  let main_v22 : IVec S16384 32 := broadcastInDim S16384 ![] bcast_S_S16384 main_c_6
  let main_v23 : IVec S16384 1 := cmpi .slt main_v21 main_v22
  let main_c_7 : IVec S_ 1 := constantI S_ 1 1#1
  let main_v24 : IVec S_ 1 := (fun x v => Host.reduce IntOp.andi x v reducesTo_S16384_S_d0 h_S_) main_v23 main_c_7
  let main_v25 : IVec S_ 1 := andi main_v19 main_v24
  let main_v26 : IVec S16384x1 32 := (extractStridedSlice S16384x1 ![0, 1] · slices_S16384x2_S16384x1_0_1) main_arg0
  let main_v27 : IVec S16384 32 := shapeCast S16384 main_v26 shapeCasts_S16384x1_S16384
  let main_c_8 : IVec S_ 32 := constantI S_ 32 4293967296#32
  let main_v28 : IVec S16384 32 := broadcastInDim S16384 ![] bcast_S_S16384 main_c_8
  let main_v29 : IVec S16384 1 := cmpi .sge main_v27 main_v28
  let main_c_9 : IVec S_ 1 := constantI S_ 1 1#1
  let main_v30 : IVec S_ 1 := (fun x v => Host.reduce IntOp.andi x v reducesTo_S16384_S_d0 h_S_) main_v29 main_c_9
  let main_v31 : IVec S_ 1 := andi main_v25 main_v30
  let main_v32 : IVec S16384x1 32 := (extractStridedSlice S16384x1 ![0, 1] · slices_S16384x2_S16384x1_0_1) main_arg0
  let main_v33 : IVec S16384 32 := shapeCast S16384 main_v32 shapeCasts_S16384x1_S16384
  let main_c_10 : IVec S_ 32 := constantI S_ 32 500000#32
  let main_v34 : IVec S16384 32 := broadcastInDim S16384 ![] bcast_S_S16384 main_c_10
  fn_part2 (F := F) main_v31 main_v33 main_v34

def fn {F : FTy → Type} [FloatOps F] (main_arg0 : IVec S16384x2 32) (main_arg1 : FVec F S1500000x1 .f32) (main_arg2 : FVec F S1 .f32) (main_arg3 : FVec F S1500000x64 .f32) : IVec S_ 1 :=
  let main_v0 : FVec F S1500000x1 .f32 := Host.absf main_arg1
  let main_cst : FVec F S_ .f32 := constant S_ .f32 0x7F800000#32
  let main_v1 : FVec F S1500000x1 .f32 := broadcastInDim S1500000x1 ![] bcast_S_S1500000x1 main_cst
  let main_v2 : IVec S1500000x1 1 := cmpf .olt main_v0 main_v1
  let main_c : IVec S_ 1 := constantI S_ 1 1#1
  let main_v3 : IVec S_ 1 := (fun x v => Host.reduce IntOp.andi x v reducesTo_S1500000x1_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1500000x64 .f32 := Host.absf main_arg3
  let main_cst_2 : FVec F S_ .f32 := constant S_ .f32 0x7F800000#32
  let main_v10 : FVec F S1500000x64 .f32 := broadcastInDim S1500000x64 ![] bcast_S_S1500000x64 main_cst_2
  let main_v11 : IVec S1500000x64 1 := cmpf .olt main_v9 main_v10
  let main_c_3 : IVec S_ 1 := constantI S_ 1 1#1
  let main_v12 : IVec S_ 1 := (fun x v => Host.reduce IntOp.andi x v reducesTo_S1500000x64_S_d0_1 h_S_) main_v11 main_c_3
  let main_v13 : IVec S_ 1 := andi main_v8 main_v12
  let main_v14 : IVec S16384x1 32 := (extractStridedSlice S16384x1 ![0, 0] · slices_S16384x2_S16384x1_0_0) main_arg0
  let main_v15 : IVec S16384 32 := shapeCast S16384 main_v14 shapeCasts_S16384x1_S16384
  let main_c_4 : IVec S_ 32 := constantI S_ 32 0#32
  let main_v16 : IVec S16384 32 := broadcastInDim S16384 ![] bcast_S_S16384 main_c_4
  fn_part1 (F := F) main_arg0 main_v13 main_v15 main_v16
-- ==== Kernel.lean ====
abbrev S16384x2 : Shape := ⟨2, ![16384, 2]⟩
abbrev S1500000x1 : Shape := ⟨2, ![1500000, 1]⟩
abbrev S1 : Shape := ⟨1, ![1]⟩
abbrev S1500000x64 : Shape := ⟨2, ![1500000, 64]⟩
abbrev S16384x1 : Shape := ⟨2, ![16384, 1]⟩
abbrev S16384 : Shape := ⟨1, ![16384]⟩
abbrev S_ : Shape := ⟨0, ![]⟩
abbrev S1500000x1x1 : Shape := ⟨3, ![1500000, 1, 1]⟩
abbrev S1500000x1x64 : Shape := ⟨3, ![1500000, 1, 64]⟩
abbrev S16384x1x1 : Shape := ⟨3, ![16384, 1, 1]⟩
abbrev S1x1x1 : Shape := ⟨3, ![1, 1, 1]⟩
abbrev S1x1x64 : Shape := ⟨3, ![1, 1, 64]⟩
abbrev S1x1 : Shape := ⟨2, ![1, 1]⟩

abbrev nBuf : Space → Nat
  | .hbm => 13
  | .vmem => 11
  | .smem => 2
  | _ => 0

abbrev bufTy : (tb : Table) → Fin (tcTables nBuf tb) → BufTy
  | .hbm, ⟨0, _⟩ => ⟨S16384x2, .i32⟩
  | .hbm, ⟨1, _⟩ => ⟨S1500000x1, .f32⟩
  | .hbm, ⟨2, _⟩ => ⟨S1, .f32⟩
  | .hbm, ⟨3, _⟩ => ⟨S1500000x64, .f32⟩
  | .hbm, ⟨4, _⟩ => ⟨S16384x1, .i32⟩
  | .hbm, ⟨5, _⟩ => ⟨S16384x1, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S1500000x1x1, .f32⟩
  | .hbm, ⟨10, _⟩ => ⟨S1500000x1x64, .f32⟩
  | .hbm, ⟨11, _⟩ => ⟨S16384x1x1, .f32⟩
  | .hbm, ⟨12, _⟩ => ⟨S16384x1, .f32⟩
  | .local _ .vmem, ⟨0, _⟩ => ⟨S1x1x1, .f32⟩
  | .local _ .vmem, ⟨1, _⟩ => ⟨S1x1x1, .f32⟩
  | .local _ .vmem, ⟨2, _⟩ => ⟨S1x1x1, .f32⟩
  | .local _ .vmem, ⟨3, _⟩ => ⟨S1x1x1, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1, .f32⟩
  | .local _ .vmem, ⟨9, _⟩ => ⟨S1x1x1, .f32⟩
  | .local _ .vmem, ⟨10, _⟩ => ⟨S1x1x1, .f32⟩
  | .local _ .smem, ⟨0, _⟩ => ⟨S16384, .i32⟩
  | .local _ .smem, ⟨1, _⟩ => ⟨S16384, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v1 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_v1.idx, main_v5.idx], fun | 0 => main_v1.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  shapeCasts_S1500000x1_S1500000x1x1 : S1500000x1.ShapeCasts S1500000x1x1
  shapeCasts_S1500000x64_S1500000x1x64 : S1500000x64.ShapeCasts S1500000x1x64
  numel1_S1 : S1.numel = 1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S1_S1_0 : ∀ a, (![0] : Fin 1 → Nat) a + S1.size a ≤ S1.size a
  h_S1 : 0 < S1.numel
  inpos_S1_p0 : ∀ a, (![0] : Fin 1 → Nat) a < S1.size a
  reduces_S1x1x64_S1x1 : S1x1x64.Reduces [2] S1x1
  shapeCasts_S1x1_S1x1x1 : S1x1.ShapeCasts S1x1x1
  shapeCasts_S16384x1x1_S16384x1 : S16384x1x1.ShapeCasts S16384x1
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S16384x1x1.size a
  hwx0_5 : ∀ i : grid0.Coords, EltTy.bits .f32 = 32 ∨ (Rect.block (s := S16384x1x1) S1x1x1.size (cc0_transform_5 i) (hinb0_5 i)).WholeWords (EltTy.packing .f32)

variable [Facts₀]

abbrev spec0_0 : Pipeline.WinSpec sig grid0.rank :=
  Pipeline.WinSpec.ofSpec (Memref.whole main_v6) S1x1x1.size reads0_0 false false 2 stage0_0 sem0_0 nbuf0_0 hstage0_0

abbrev spec0_1 : Pipeline.WinSpec sig grid0.rank :=
  Pipeline.WinSpec.ofSpec (Memref.whole main_v6) S1x1x1.size reads0_1 false false 2 stage0_1 sem0_1 nbuf0_1 hstage0_1

abbrev spec0_2 : Pipeline.WinSpec sig grid0.rank :=
  Pipeline.WinSpec.ofSpec (Memref.whole main_v7) S1x1x64.size reads0_2 false false 2 stage0_2 sem0_2 nbuf0_2 hstage0_2

abbrev spec0_3 : Pipeline.WinSpec sig grid0.rank :=
  Pipeline.WinSpec.ofSpec (Memref.whole main_v7) S1x1x64.size reads0_3 false false 2 stage0_3 sem0_3 nbuf0_3 hstage0_3

abbrev spec0_4 : Pipeline.WinSpec sig grid0.rank :=
  Pipeline.WinSpec.ofSpec (Memref.whole main_arg2) S1.size reads0_4 false true 1 stage0_4 sem0_4 nbuf0_4 hstage0_4

abbrev spec0_5 : Pipeline.WinSpec sig grid0.rank :=
  Pipeline.WinSpec.ofSpec (Memref.whole main_v8) S1x1x1.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x1.size a ≤ S1500000x1x1.size a), EltTy.bits .f32 = 32 ∨ (Rect.block (s := S1500000x1x1) S1x1x1.size (cc0_transform_0 k0_off1_inb numel1_S1 pf i) h).WholeWords (EltTy.packing .f32)) ∧
  (∀ i : grid0.Coords, ∃ h : (∀ a, (cc0_transform_1 k0_off1_inb numel1_S1 pf i a + 1) * S1x1x1.size a ≤ S1500000x1x1.size a), EltTy.bits .f32 = 32 ∨ (Rect.block (s := S1500000x1x1) S1x1x1.size (cc0_transform_1 k0_off1_inb numel1_S1 pf i) h).WholeWords (EltTy.packing .f32)) ∧
  (∀ i : grid0.Coords, ∃ h : (∀ a, (cc0_transform_2 k0_off1_inb numel1_S1 pf i a + 1) * S1x1x64.size a ≤ S1500000x1x64.size a), EltTy.bits .f32 = 32 ∨ (Rect.block (s := S1500000x1x64) S1x1x64.size (cc0_transform_2 k0_off1_inb numel1_S1 pf i) h).WholeWords (EltTy.packing .f32)) ∧
  (∀ i : grid0.Coords, ∃ h : (∀ a, (cc0_transform_3 k0_off1_inb numel1_S1 pf i a + 1) * S1x1x64.size a ≤ S1500000x1x64.size a), EltTy.bits .f32 = 32 ∨ (Rect.block (s := S1500000x1x64) S1x1x64.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S16384x2 : Shape := ⟨2, ![16384, 2]⟩
abbrev S1500000x1 : Shape := ⟨2, ![1500000, 1]⟩
abbrev S1 : Shape := ⟨1, ![1]⟩
abbrev S1500000x64 : Shape := ⟨2, ![1500000, 64]⟩
abbrev S16384x1 : Shape := ⟨2, ![16384, 1]⟩
abbrev S16384 : Shape := ⟨1, ![16384]⟩
abbrev S_ : Shape := ⟨0, ![]⟩
abbrev S16384x64 : Shape := ⟨2, ![16384, 64]⟩

abbrev nBuf : Space → Nat
  | .hbm => 66
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S1500000x1, .f32⟩
  | .hbm, ⟨2, _⟩ => ⟨S1, .f32⟩
  | .hbm, ⟨3, _⟩ => ⟨S1500000x64, .f32⟩
  | .hbm, ⟨4, _⟩ => ⟨S16384x1, .i32⟩
  | .hbm, ⟨5, _⟩ => ⟨S16384, .i32⟩
  | .hbm, ⟨6, _⟩ => ⟨S16384x1, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x1, .i32⟩
  | .hbm, ⟨23, _⟩ => ⟨S16384x2, .i32⟩
  | .hbm, ⟨24, _⟩ => ⟨S16384, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x64, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384x64, .f32⟩
  | .hbm, ⟨61, _⟩ => ⟨S16384x64, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384x1, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_c_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  shapeCasts_S1_S_ : S1.ShapeCasts S_
  reducesTo_S16384x64_S16384_d1 : S16384x64.ReducesTo [1] S16384
  h_S_ : 0 < S_.numel
  shapeCasts_S16384_S16384x1 : S16384.ShapeCasts S16384x1
  gather_S1500000x1_S16384x2_S16384_n_01_n_n_01_1_11_wf : GatherDims.WF S1500000x1 S16384x2 S16384 [] [0, 1] [] [0, 1] [] 1 ![1, 1]
  gather_S1500000x64_S16384x1_S16384x64_1_0_n_n_0_1_164_wf : GatherDims.WF S1500000x64 S16384x1 S16384x64 [1] [0] [] [0] [] 1 ![1, 64]

variable [Facts₀]

def gather_S1500000x1_S16384x2_S16384_n_01_n_n_01_1_11 : GatherDims S1500000x1 S16384x2 S16384 where
  offsetDims := []
  collapsedSliceDims := [0, 1]
  operandBatchingDims := []
  startIndicesBatchingDims := []
  startIndexMap := [0, 1]
  indexVectorDim := 1
  sliceSizes := ![1, 1]
  wf := gather_S1500000x1_S16384x2_S16384_n_01_n_n_01_1_11_wf
def gather_S1500000x64_S16384x1_S16384x64_1_0_n_n_0_1_164 : GatherDims S1500000x64 S16384x1 S16384x64 where
  offsetDims := [1]
  collapsedSliceDims := [0]
  operandBatchingDims := []
  startIndicesBatchingDims := []
  startIndexMap := [0]
  indexVectorDim := 1
  sliceSizes := ![1, 64]
  wf := gather_S1500000x64_S16384x1_S16384x64_1_0_n_n_0_1_164_wf

class Facts : Prop extends Facts₀ where

variable [Facts]
-- ==== Proof.KBody.lean ====
/- The kernel body's triple: on whole staging memrefs, the five inputs held at contents x0 … x4 and the output
   at any contents, the body runs to a continuation that holds the inputs unchanged and the output at
   `k0_pay1 x0 x1 x2 x3 x4`. The body loads each input through the whole-shape rectangle at zero offsets
   (which reads the contents), loads the output once (unused), and stores the payload once through the
   whole-shape rectangle of the output (which leaves exactly the payload). The prefetched tables are not read. -/
import proofs.«411096_j74337293959546_2_alg».proof.Proof.Gen.Kernel.Skeleton
import proofs.«411096_j74337293959546_2_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a rank-3 rectangle, however spelt. -/
theorem hz3 : (![0, 0, 0] : Fin 3 → Nat) = fun _ => 0 := funext fun a => by fin_cases a <;> rfl

/-- The all-zero offsets of a rank-1 rectangle. -/
theorem hz1 : (![0] : Fin 1 → Nat) = fun _ => 0 := funext fun a => by fin_cases a <;> rfl

/-- ONE unmasked store through the whole-shape rectangle at zero offsets, over any prior contents, read back through
    the same view, is the payload: the rectangle's embedding is the identity, and an element under the last write
    reads its payload. -/
theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb v f (Rect.whole S) w [] y
  rw [Rect.emb_whole_apply] at e
  exact e

/-- The body's triple at any float model `F`: the loads read `x0 … x4` (a whole memref held at the raw contents
    that read `X` reads `X` through the zero-offset whole-shape rectangle), and the one covering store leaves
    the payload over whatever the output held. -/
theorem kernel_run (c : Dev nD) (i : grid0.Coords)
    (arg1 : Memref sig .tc .smem S16384 .i32) (harg1 : arg1.IsWhole) (arg2 : Memref sig .tc .smem S16384 .i32) (harg2 : arg2.IsWhole)
    (arg3 : Memref sig .tc .vmem S1x1x1 .f32) (harg3 : arg3.IsWhole) (arg4 : Memref sig .tc .vmem S1x1x1 .f32) (harg4 : arg4.IsWhole)
    (arg5 : Memref sig .tc .vmem S1x1x64 .f32) (harg5 : arg5.IsWhole) (arg6 : Memref sig .tc .vmem S1x1x64 .f32) (harg6 : arg6.IsWhole)
    (arg7 : Memref sig .tc .vmem S1 .f32) (harg7 : arg7.IsWhole) (arg8 : Memref sig .tc .vmem S1x1x1 .f32) (harg8 : arg8.IsWhole)
    (x0 x1 : Vec F S1x1x1 .f32) (x2 x3 : Vec F S1x1x64 .f32) (x4 : Vec F S1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay1 x0 x1 x2 x3 x4)) -∗ K ⟨⟩))
      ⊢ wp frame (wpE (defs₀ (F := F)) Variants.none c none) E
          (cc0__gather_kernel i arg1 harg1 arg2 harg2 arg3 harg3 arg4 harg4 arg5 harg5 arg6 harg6 arg7 harg7 arg8 harg8) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0
  obtain rfl := harg4.eq_unread hf1
  obtain rfl := harg5.eq_unread hf2
  obtain rfl := harg6.eq_unread hf3
  obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  rotate_left
  · iexact H5
  · ipureintro
    rw [read_writes_unit_zero (S := S1x1x1) _ _ hz3]
    simp only [View.readAt_eq_ld, harg3.read_unread, harg4.read_unread, harg5.read_unread, harg6.read_unread,
      harg7.read_unread, View.ld_unit_zero (S := S1x1x1) hz3, View.ld_unit_zero (S := S1x1x64) hz3,
      View.ld_unit_zero (S := S1) hz1]

end Cert.Kernel.Hand

end
-- ==== Proof.KData.lean ====
/-
  The proof data of the one kernel region of `Kernel`, and its body obligation.

  The region runs over a grid of 16384 points. At point `t` the pipeline stages five input blocks — row `u t` of the
  reshaped `W` and row `it t` of it again (two windows on ONE array), row `u t` and row `it t` of the reshaped `V`
  (again two windows on one array), and the bias — where `u` and `it` are the two prefetched index tables; the body
  stores the payload of the five blocks into the output window's block `t`.  Every table-indexed block must lie
  inside its array (`Ok`): the region runs under that side condition.
-/
import proofs.«411096_j74337293959546_2_alg».proof.Proof.Gen.Kernel.Launch
import proofs.«411096_j74337293959546_2_alg».proof.Proof.Gen.Kernel.Skeleton
import proofs.«411096_j74337293959546_2_alg».proof.Proof.KBody
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered, and the two index tables -/

/-- Core `c`'s buffers at launch, as the host operations' valuation; -/
abbrev V₀ (c : Dev nD) : Valuation τ sig (Elt F) := fun b => m ((c : Dev nD), b)
/-- and when the region is entered: the nine operations before it have run. -/
abbrev V (c : Dev nD) (b : Ref sig .tc) : Buf (Elt F) ((c : Thread nD τ).loc b) := StableHlo.after hostOps0 (V₀ m c) b

/-- The two index tables (user rows, item rows) as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every table-indexed block lies inside its array: the side condition under which the region runs. -/
abbrev Ok : Prop := ok0 (F := F) (tbl m)
abbrev adm (hO : Ok m) : (p : Fin 1) → (pcfgs (F := F) p).Adm := fun _ => ⟨tbl m, hO⟩
abbrev cfgM (hO : Ok m) : Pipeline.Cfg sig Λ₀ := cfg0 (adm m hO 0)

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The five input blocks at a point, at their literal types. -/
abbrev wu (hO : Ok m) (c : Dev nD) (t : Fin (cfgM m hO).N) : Vec F S1x1x1 .f32 := iblk m hO c 0 t
abbrev wi (hO : Ok m) (c : Dev nD) (t : Fin (cfgM m hO).N) : Vec F S1x1x1 .f32 := iblk m hO c 1 t
abbrev vu (hO : Ok m) (c : Dev nD) (t : Fin (cfgM m hO).N) : Vec F S1x1x64 .f32 := iblk m hO c 2 t
abbrev vi (hO : Ok m) (c : Dev nD) (t : Fin (cfgM m hO).N) : Vec F S1x1x64 .f32 := iblk m hO c 3 t
abbrev bb (hO : Ok m) (c : Dev nD) (t : Fin (cfgM m hO).N) : Vec F S1 .f32 := iblk m hO c 4 t

/-- What the body stores at point `t`: the payload of the five input blocks. -/
def outAt (hO : Ok m) (c : Dev nD) (t : Fin (cfgM m hO).N) : Vec F S1x1x1 .f32 :=
  k0_pay1 (wu m hO c t) (wi m hO c t) (vu m hO c t) (vi m hO c t) (bb m hO c t)

/-! ## The pipeline's proof data -/

/-- The shares of the arrays: the two windows on the reshaped `W` hold a half each, and so the two on the reshaped `V`. -/
def qs : Fin 6 → PosShare TreeShare
  | ⟨0, _⟩ => fullShare.left
  | ⟨1, _⟩ => fullShare.right
  | ⟨2, _⟩ => fullShare.left
  | ⟨3, _⟩ => fullShare.right
  | _ => fullShare

/-- The proof data on core `c`: the arrays as the region finds them; after the body each input's buffer at its block and
    the output's at the payload; the invariant the scoped buffers no window stages and the two tables, whole; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) (tbl m))
  q := qs
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- An input window's buffer holds its block at every point, fetched there or not: a window not fetched at a point has
    not moved its block index since the last fetch. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

/-- Each window's current staging memref at point `t`, as the pipeline passes it to the body. -/
abbrev ms0 (hO : Ok m) (t : Fin (cfgM m hO).N) : Memref sig .tc .vmem S1x1x1 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x64 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x64 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1x1 .f32 := spec0_5.stage ((cfgM m hO).slots t 5)
abbrev hs5 (hO : Ok m) (t : Fin (cfgM m hO).N) : (ms5 m hO t).IsWhole := hstage0_5 (((cfgM m hO).slots t 5).cast nbuf0_5)

/-- The kernel body at point `t`, on what the pipeline calls it with. -/
abbrev bodyAt (hO : Ok m) (t : Fin (cfgM m hO).N) : Prog (TpuEff nD τ sig (Elt F) Λ₀ .tc) PUnit :=
  cc0__gather_kernel (grid0.coords t) (Memref.whole main_v1) (Memref.isWhole_whole _) (Memref.whole main_v5) (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t)

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The body at any point: the inputs' buffers hold their blocks, so the body's triple applies; the invariant passes
    through unread; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  unfold outAt
  iintro ⟨HΦ, Ho, ⟨%d0, H0⟩, ⟨%d1, H1⟩, ⟨%d2, H2⟩, ⟨%d3, H3⟩, ⟨%d4, H4⟩, ⟨%d5, H5⟩⟩
  iapply (kernel_run c (grid0.coords t) _ _ _ _ _ _ _ _ _ _ _ _ _ _ _ _ (iblk m hO c 0 t) (iblk m hO c 1 t) (iblk m hO c 2 t) (iblk m hO c 3 t) (iblk m hO c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.Kernel.Hand

end
-- ==== Proof.KTail.lean ====
/-
  `Kernel`: the host operations around its kernel region, as far as the buffers go — the nine operations before the
  region write none of the four arguments, and when the region is left the kernel's result buffer holds what the
  pipeline computed while every other buffer is as the region found it.
-/
import proofs.«411096_j74337293959546_2_alg».proof.Proof.KData
import Idealize.ShloMosaic.Lib.Pipeline.Regions
import Idealize.ShloMosaic.Lib.Pipeline.Kit
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region write no argument -/

theorem not_written (b : Ref sig .tc) (hb : b ≠ main_v0 ∧ b ≠ main_v1 ∧ b ≠ main_v2 ∧ b ≠ main_v3 ∧ b ≠ main_c ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V_arg0 (c : Dev nD) : V m c main_arg0 = m ((c : Thread nD τ).loc main_arg0) :=
  StableHlo.after_of_forall_not_mem (b := Proc.devRef .tc main_arg0) hostOps0 (V₀ m c) (not_written main_arg0 (by decide))
theorem V_arg1 (c : Dev nD) : V m c main_arg1 = m ((c : Thread nD τ).loc main_arg1) :=
  StableHlo.after_of_forall_not_mem (b := Proc.devRef .tc main_arg1) hostOps0 (V₀ m c) (not_written main_arg1 (by decide))
theorem V_arg2 (c : Dev nD) : V m c main_arg2 = m ((c : Thread nD τ).loc main_arg2) :=
  StableHlo.after_of_forall_not_mem (b := Proc.devRef .tc main_arg2) hostOps0 (V₀ m c) (not_written main_arg2 (by decide))
theorem V_arg3 (c : Dev nD) : V m c main_arg3 = m ((c : Thread nD τ).loc main_arg3) :=
  StableHlo.after_of_forall_not_mem (b := Proc.devRef .tc main_arg3) hostOps0 (V₀ m c) (not_written main_arg3 (by decide))

/-! ## The buffers when the region is left -/

/-- The two buffers the operation after the region touches: the kernel's result and its reshape. -/
def S₁ : Finset (DevRef τ sig) := {Proc.devRef .tc main_v8, Proc.devRef .tc main_v9}

/-- The buffers when the region is left: the kernel's result as the pipeline computes it, the rest as the region found them. -/
def V₁ (hO : Ok m) (c : Dev nD) : Valuation τ sig (Elt F) :=
  Function.update (StableHlo.after hostOps0 (V₀ m c)) (Proc.devRef .tc main_v8)
    (((dats m hO 0 c).arrAt 5 (cfgM m hO).N : Buf (Elt F) ((c.tc : Thread nD τ).loc main_v8)) : (Proc.devRef (τ := τ) .tc main_v8).ty.Contents (Elt F))

theorem V₁_v8 (hO : Ok m) (c : Dev nD) : V₁ m hO c (Proc.devRef .tc main_v8) = (dats m hO 0 c).arrAt 5 (cfgM m hO).N :=
  Function.update_self _ _ _
theorem V₁_v9 (hO : Ok m) (c : Dev nD) : V₁ m hO c (Proc.devRef .tc main_v9) = V m c main_v9 :=
  Function.update_of_ne (StableHlo.devRef_ne_of_ne (by decide)) _ _

end Cert.Kernel.Hand

end
-- ==== Proof.KRun.lean ====
/-
  The run of `Kernel`: @main as a stretch of nine host operations, the kernel region, and one more host operation (the
  reshape of the kernel's result), composed by the library's launch theorem for a list of segments.

  Two pairs of the region's input windows read ONE array each (the reshaped `W`, the reshaped `V`): each window of a
  pair holds half of its array's share, so the arrays are split when the region is entered; nothing reads them
  afterwards.  The tables the index maps read are handed to the region whole.  The result array comes back at what the
  pipeline computes from the stored blocks; the last host operation reshapes it.  Every argument is as launched at the end:
  three of them bypass the region, the bias is an input window's array, which the pipeline never writes.
-/
import proofs.«411096_j74337293959546_2_alg».proof.Proof.KTail
import Idealize.ShloMosaic.Lib.Pipeline.Regions
import Idealize.ShloMosaic.Lib.Pipeline.Kit
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000

/-- The distinct buffers behind the windows' arrays, one by one: the reshaped `W`, the reshaped `V`, the bias, the result. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v6) ↦{fullShare} Vc main_v6) ∗ (((c : Thread nD τ).loc main_v7) ↦{fullShare} Vc main_v7)
          ∗ (((c : Thread nD τ).loc main_arg2) ↦{fullShare} Vc main_arg2) ∗ (((c : Thread nD τ).loc main_v8) ↦{fullShare} Vc main_v8)) := by
  unfold Pipeline.arrBufs
  exact bigSep_eq_bigSepL_of_eq [main_v6, main_v7, main_arg2, main_v8] (by decide) (by decide) _

/-! ## The arrays' shares and entry contents, window by window -/

theorem isOut_eq (a : (pcfg0 (F := F)).Adm) (w : Fin 6) : ((cfg0 a).win w).isOut = (spec0 w).isOut := rfl

theorem share_eq (hO : Ok m) (c : Dev nD) (w : Fin 6) : (dats m hO 0 c).share w = if (spec0 w).isOut then fullShare else qs w := by
  unfold Dat.share
  rw [show ((cfgM m hO).win w).isOut = (spec0 w).isOut from isOut_eq (adm m hO 0) w]
  rfl

theorem arrAt_zero (hO : Ok m) (c : Dev nD) (w : Fin 6) : (dats m hO 0 c).arrAt w 0 = V m c (Pipeline.arrRef spec0 w) := A_eq m hO c w

/-- One window's array at the pipeline's share, as a points-to of its buffer at that share. -/
theorem arr_at (hO : Ok m) (c : Dev nD) (w : Fin 6) (f : Buf (Elt F) (((cfgM m hO).win w).arr.view.loc (c.tc : Thread nD τ))) :
    ((((cfgM m hO).win w).arr.view.loc (c.tc : Thread nD τ)) ↦[((cfgM m hO).win w).arr.view.set]{(dats m hO 0 c).share w} f : sProp 𝕄)
      = (((c.tc : Thread nD τ).loc (Pipeline.arrRef spec0 w)) ↦{if (spec0 w).isOut then fullShare else qs w} f) := by
  rw [(arr_whole0 w).set_eq_univ, share_eq]

theorem arr_at0 (hO : Ok m) (c : Dev nD) (f : Buf (Elt F) (((cfgM m hO).win (0 : Fin 6)).arr.view.loc (c.tc : Thread nD τ))) :
    ((((cfgM m hO).win (0 : Fin 6)).arr.view.loc (c.tc : Thread nD τ)) ↦[((cfgM m hO).win (0 : Fin 6)).arr.view.set]{(dats m hO 0 c).share (0 : Fin 6)} f : sProp 𝕄)
      = (((c.tc : Thread nD τ).loc main_v6) ↦{fullShare.left} f) := (arr_at m hO c 0 f).trans rfl
theorem arr_at1 (hO : Ok m) (c : Dev nD) (f : Buf (Elt F) (((cfgM m hO).win (1 : Fin 6)).arr.view.loc (c.tc : Thread nD τ))) :
    ((((cfgM m hO).win (1 : Fin 6)).arr.view.loc (c.tc : Thread nD τ)) ↦[((cfgM m hO).win (1 : Fin 6)).arr.view.set]{(dats m hO 0 c).share (1 : Fin 6)} f : sProp 𝕄)
      = (((c.tc : Thread nD τ).loc main_v6) ↦{fullShare.right} f) := (arr_at m hO c 1 f).trans rfl
theorem arr_at2 (hO : Ok m) (c : Dev nD) (f : Buf (Elt F) (((cfgM m hO).win (2 : Fin 6)).arr.view.loc (c.tc : Thread nD τ))) :
    ((((cfgM m hO).win (2 : Fin 6)).arr.view.loc (c.tc : Thread nD τ)) ↦[((cfgM m hO).win (2 : Fin 6)).arr.view.set]{(dats m hO 0 c).share (2 : Fin 6)} f : sProp 𝕄)
      = (((c.tc : Thread nD τ).loc main_v7) ↦{fullShare.left} f) := (arr_at m hO c 2 f).trans rfl
theorem arr_at3 (hO : Ok m) (c : Dev nD) (f : Buf (Elt F) (((cfgM m hO).win (3 : Fin 6)).arr.view.loc (c.tc : Thread nD τ))) :
    ((((cfgM m hO).win (3 : Fin 6)).arr.view.loc (c.tc : Thread nD τ)) ↦[((cfgM m hO).win (3 : Fin 6)).arr.view.set]{(dats m hO 0 c).share (3 : Fin 6)} f : sProp 𝕄)
      = (((c.tc : Thread nD τ).loc main_v7) ↦{fullShare.right} f) := (arr_at m hO c 3 f).trans rfl
theorem arr_at4 (hO : Ok m) (c : Dev nD) (f : Buf (Elt F) (((cfgM m hO).win (4 : Fin 6)).arr.view.loc (c.tc : Thread nD τ))) :
    ((((cfgM m hO).win (4 : Fin 6)).arr.view.loc (c.tc : Thread nD τ)) ↦[((cfgM m hO).win (4 : Fin 6)).arr.view.set]{(dats m hO 0 c).share (4 : Fin 6)} f : sProp 𝕄)
      = (((c.tc : Thread nD τ).loc main_arg2) ↦{fullShare} f) := (arr_at m hO c 4 f).trans rfl
theorem arr_at5 (hO : Ok m) (c : Dev nD) (f : Buf (Elt F) (((cfgM m hO).win (5 : Fin 6)).arr.view.loc (c.tc : Thread nD τ))) :
    ((((cfgM m hO).win (5 : Fin 6)).arr.view.loc (c.tc : Thread nD τ)) ↦[((cfgM m hO).win (5 : Fin 6)).arr.view.set]{(dats m hO 0 c).share (5 : Fin 6)} f : sProp 𝕄)
      = (((c.tc : Thread nD τ).loc main_v8) ↦{fullShare} f) := (arr_at m hO c 5 f).trans rfl

/-- The pipeline's arrays at contents `Fw`, window by window. -/
theorem arrays_eq6 (hO : Ok m) (c : Dev nD) (Fw : (w : Fin (cfgM m hO).W) → Buf (Elt F) (((cfgM m hO).win w).arr.view.loc (c.tc : Thread nD τ))) :
    ((dats m hO 0 c).arrays Fw : sProp 𝕄)
      = iprop((((c.tc : Thread nD τ).loc main_v6) ↦{fullShare.left} Fw (0 : Fin 6)) ∗ (((c.tc : Thread nD τ).loc main_v6) ↦{fullShare.right} Fw (1 : Fin 6))
          ∗ (((c.tc : Thread nD τ).loc main_v7) ↦{fullShare.left} Fw (2 : Fin 6)) ∗ (((c.tc : Thread nD τ).loc main_v7) ↦{fullShare.right} Fw (3 : Fin 6))
          ∗ (((c.tc : Thread nD τ).loc main_arg2) ↦{fullShare} Fw (4 : Fin 6)) ∗ (((c.tc : Thread nD τ).loc main_v8) ↦{fullShare} Fw (5 : Fin 6))) := by
  unfold Dat.arrays
  rw [bigSep_W0, arr_at0 m hO c (Fw (0 : Fin 6)), arr_at1 m hO c (Fw (1 : Fin 6)), arr_at2 m hO c (Fw (2 : Fin 6)),
    arr_at3 m hO c (Fw (3 : Fin 6)), arr_at4 m hO c (Fw (4 : Fin 6)), arr_at5 m hO c (Fw (5 : Fin 6))]

/-- The buffers behind the windows' arrays, whole at the contents the region finds, make the pipeline's arrays at
    their entry contents: the reshaped `W` split in halves between its two windows, the reshaped `V` likewise. -/
theorem arr_split (hO : Ok m) (c : Dev nD) :
    (Pipeline.arrBufs (Ix := Unit) (Name := ℕ) (U := UR sig nD τ) (Lvl := ℕ) spec0 c (V m c) : sProp 𝕄)
      ⊢ (dats m hO 0 c).arrays ((dats m hO 0 c).arrAt · 0) := by
  rw [arrBufs0_eq, arrays_eq6]
  simp only [arrAt_zero]
  iintro ⟨H6, H7, H2, H8⟩
  ihave H6' := (pointsTo_share (PosShare.mem_left_op_right fullShare)).1 $$ H6
  icases H6' with ⟨H6l, H6r⟩
  ihave H7' := (pointsTo_share (PosShare.mem_left_op_right fullShare)).1 $$ H7
  icases H7' with ⟨H7l, H7r⟩
  isplitl [H6l]; · iexact H6l
  isplitl [H6r]; · iexact H6r
  isplitl [H7l]; · iexact H7l
  isplitl [H7r]; · iexact H7r
  isplitl [H2]; · iexact H2
  iexact H8

/-! ## @main as a host stretch, the region, a host stretch -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through the host operations: the core owes nothing. -/
abbrev R (c : Dev nD) : sProp 𝕄 := iprop(∃ W, owes (c : Thread nD τ) (0 : CellTallies nD τ sig Unit) W)

/-- THE FIRST HOST STRETCH: the nine operations before the region, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- What rides beside those two: the four arguments — the bias as the pipeline leaves its array — and that the core owes nothing. -/
def R₁ (hO : Ok m) (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} (dats m hO 0 c).arrAt 4 (cfgM m hO).N) ∗ (((c : Thread nD τ).loc main_arg3) ↦{fullShare} V m c main_arg3)
    ∗ R c)

/-- THE LAST HOST STRETCH: the reshape of the kernel's result. -/
def seg1 (hO : Ok m) : Pipeline.HostSeg (Name := ℕ) (U := UR sig nD τ) (pcfgs (F := F)) defs₀ 𝒱₀ L lv :=
  Pipeline.HostSeg.ofOps _ _ _ _ _ S₁ hostOps1 (by intro op h; obtain rfl := List.mem_singleton.mp h; rw [StableHlo.reshape_bufs]; exact Finset.Subset.refl _)
    (by intro _ h; obtain rfl := List.mem_singleton.mp h; rfl) (V₁ m hO) (R₁ m hO)

attribute [local irreducible] tbl

/-- The invariant at either end of the region, spelled out. -/
theorem Phi_eq (hO : Ok m) (c : Dev nD) (t : Fin ((cfgM m hO).N + 1)) :
    (dats m hO 0 c).Φ t = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) (tbl m)) := rfl

/-- The core's unscoped buffers as the region finds them: the pipeline's arrays at their entry contents, the two tables
    whole, and the buffers that bypass the region. -/
theorem entry_split (hO : Ok m) (c : Dev nD) :
    (unscopedBufs (Ix := Unit) (Name := ℕ) (U := UR sig nD τ) (Lvl := ℕ) c (V m c) : sProp 𝕄)
      ⊢ iprop((dats m hO 0 c).arrays ((dats m hO 0 c).arrAt · 0)
          ∗ Pipeline.prefHeld (Ix := Unit) (Name := ℕ) (U := UR sig nD τ) (Lvl := ℕ) pre0 c (fun _ => fullShare) (tbl m)
          ∗ Pipeline.unscopedRestP (Ix := Unit) (Name := ℕ) (U := UR sig nD τ) (Lvl := ℕ) pre0 spec0 c (V m c)) := by
  rw [Pipeline.unscopedBufs_split₀ (Pipeline.pin pcfgs (adm m hO)) 0 winFacts₀0.arr_unscoped c (V m c), Pipeline.unscopedRest_split preFacts0 c (V m c)]
  rw [show (fun k => V m c (pre0.ref k)) = tbl m from funext (V_pre m c)]
  exact sep_mono (arr_split m hO c) .rfl

/-- The two buffers of the last stretch held at a valuation, one by one. -/
theorem held_S₁ (c : Dev nD) (W : Valuation τ sig (Elt F)) :
    (StableHlo.held (Ix := Unit) (Name := ℕ) (U := UR sig nD τ) (Lvl := ℕ) (c : Thread nD τ) S₁ W : sProp 𝕄)
      = iprop(((((c : Thread nD τ).1, Proc.devRef .tc main_v8) : Loc nD τ sig) ↦{fullShare} W (Proc.devRef .tc main_v8))
          ∗ ((((c : Thread nD τ).1, Proc.devRef .tc main_v9) : Loc nD τ sig) ↦{fullShare} W (Proc.devRef .tc main_v9))) := by
  unfold StableHlo.held S₁
  rw [bigSep_insert (by simp only [Finset.mem_singleton]; exact StableHlo.devRef_ne_of_ne (by decide)), bigSep_singleton]
  rfl

abbrev preR (c : Dev nD) : sProp 𝕄 := iprop(StableHlo.held (c : Thread nD τ) (Pipeline.ucRefs τ sig) (StableHlo.after hostOps0 (V₀ m c)) ∗ R c)
abbrev postR (hO : Ok m) (c : Dev nD) : sProp 𝕄 := iprop(StableHlo.held (c : Thread nD τ) S₁ (V₁ m hO c) ∗ R₁ m hO c)
abbrev tabs (c : Dev nD) : sProp 𝕄 := Pipeline.prefHeld (Ix := Unit) (Name := ℕ) (U := UR sig nD τ) (Lvl := ℕ) pre0 c (fun _ => fullShare) (tbl m)
abbrev bypass (c : Dev nD) : sProp 𝕄 := Pipeline.unscopedRestP (Ix := Unit) (Name := ℕ) (U := UR sig nD τ) (Lvl := ℕ) pre0 spec0 c (V m c)

/-- ENTRY: what the first stretch left, sorted into the pipeline's arrays, the tables, what the core owes (nothing), and
    the buffers that bypass the region. -/
theorem region_entry (hO : Ok m) (c : Dev nD) :
    iprop(preR m c ∗ (BI.emp : sProp 𝕄) ∗ levAts L lv)
      ⊢ |={Set.univ}=> iprop((dats m hO 0 c).arrays ((dats m hO 0 c).arrAt · 0) ∗ tabs m c
          ∗ (dats m hO 0 c).owesAt () 0 ∗ (iprop(emp) : sProp 𝕄) ∗ bypass m c) := by
  unfold preR tabs bypass
  rw [show StableHlo.held (c : Thread nD τ) (Pipeline.ucRefs τ sig) (StableHlo.after hostOps0 (V₀ m c)) = unscopedBufs c (V m c) from (Pipeline.unscopedBufs_held c _).symm]
  iintro ⟨⟨Hub, HO⟩, -, -⟩
  ihave H := (entry_split m hO c) $$ Hub
  icases H with ⟨Harr, Hpf, Hrest⟩
  imodintro
  isplitl [Harr]; · iexact Harr
  isplitl [Hpf]; · iexact Hpf
  isplitl [HO]
  · unfold Pipeline.Dat.owesAt Pipeline.owesWithin
    icases HO with ⟨%W, HO⟩; iexists W; isplitr; · ipureintro; exact fun _ _ => Or.inl trivial
    iexact HO
  isplitr; · iempintro
  iexact Hrest

/-- EXIT: the arrays at their final contents and the bypassing buffers make the state the last stretch runs from. -/
theorem region_exit (hO : Ok m) (c : Dev nD) :
    iprop((dats m hO 0 c).arrays ((dats m hO 0 c).arrAt · (cfgM m hO).N) ∗ (dats m hO 0 c).owesAt () (Fin.last (cfgM m hO).N) ∗ tabs m c ∗ bypass m c)
      ⊢ |={Set.univ}=> postR m hO c := by
  unfold postR tabs bypass
  rw [arrays_eq6, unscopedRestP0_eq]
  iintro ⟨⟨-, -, -, -, H4, H5⟩, HO, -, ⟨Ha0, Ha1, Ha3, -, -, -, -, -, H9⟩⟩
  imodintro
  isplitl [H5 H9]
  · rw [held_S₁, V₁_v8, V₁_v9]
    isplitl [H5]; · iexact H5
    iexact H9
  unfold R₁
  isplitl [Ha0]; · iexact Ha0
  isplitl [Ha1]; · iexact Ha1
  isplitl [H4]; · iexact H4
  isplitl [Ha3]; · iexact Ha3
  unfold Pipeline.Dat.owesAt Pipeline.owesWithin
  icases HO with ⟨%W, -, HO⟩; iexists W; iexact HO

theorem region_in (hO : Ok m) (c : Dev nD) :
    iprop((iprop(emp) : sProp 𝕄) ∗ tabs m c ∗ Pipeline.scopedRest (Ix := Unit) (Name := ℕ) (U := UR sig nD τ) (Lvl := ℕ) (Val := Elt F) spec0 c)
      ⊢ (dats m hO 0 c).Φ 0 := by
  rw [Phi_eq]
  iintro ⟨-, Hpf, Hr⟩
  isplitl [Hr]; · iexact Hr
  iexact Hpf

theorem region_out (hO : Ok m) (c : Dev nD) :
    (dats m hO 0 c).Φ (Fin.last (cfgM m hO).N)
      ⊢ iprop(tabs m c ∗ (BI.emp : sProp 𝕄) ∗ Pipeline.scopedRest (Ix := Unit) (Name := ℕ) (U := UR sig nD τ) (Lvl := ℕ) (Val := Elt F) spec0 c) := by
  rw [Phi_eq]
  iintro ⟨Hr, Hpf⟩
  isplitl [Hpf]; · iexact Hpf
  isplitr; · iempintro
  iexact Hr

-- entailments stated over the pipeline pinned at the tables unify only when unification may unfold plain definitions in a
-- metavariable's type
set_option backward.isDefEq.respectTransparency.types false in
/-- THE REGION: the decided layout, no semaphore of the kernel's own, the body obligation; entered from what the first
    stretch left — the windows' arrays into the pipeline (the two shared ones in halves), the two tables whole, the other
    buffers bypassing —, left with the result array at its final contents beside its reshape's buffer, and the arguments. -/
def reg0 (hO : Ok m) : Pipeline.RegionSeg (pcfgs (F := F)) (adm m hO) (dats m hO) () defs₀ 𝒱₀ L lv 0 where
  win := winFacts₀0
  block_pos := block_pos0
  stage_whole := stage_whole0
  K := PEmpty
  osem := fun k => k.elim
  ho := Pipeline.OwnSemFacts.none _
  hbody c := (body_obligation m hO c).loose
  hwaits := Pipeline.hwaits_of_owed_zero _ _ _ _ L lv 0 fun _ _ => rfl
  pre c := preR m c
  post c := postR m hO c
  X c := iprop(emp)
  Y c := tabs m c
  Z c := bypass m c
  hentry c := by rw [Pipeline.ownSems0_none]; exact region_entry m hO c
  hin c := region_in m hO c
  hout c := by rw [Pipeline.ownSems0_none]; exact region_out m hO c
  hexit c := region_exit m hO c

/-! ## The run -/

/-- The launch element: the pipeline library's at the staging cells. -/
def u₀ (hO : Ok m) : UR sig nD τ :=
  initOf (Pipeline.cells (Pipeline.pin pcfgs (adm m hO)) (cellOf_inj (adm m hO))) (Pipeline.launchToks (Pipeline.pin pcfgs (adm m hO)) (cellOf_inj (adm m hO)))

/-- @main as the list of the three. -/
abbrev segs (hO : Ok m) : List (Pipeline.Seg (pcfgs (F := F)) (adm m hO) (dats m hO) () defs₀ 𝒱₀ L lv) :=
  [.host (seg0 m), .region (reg0 m hO), .host (seg1 m hO)]

/-- What the run ends holding: the result's two buffers after the reshape, and the four arguments. -/
def Tₙ (hO : Ok m) (c : Dev nD) : sProp 𝕄 :=
  iprop(StableHlo.held (c : Thread nD τ) S₁ (StableHlo.after hostOps1 (V₁ m hO c))
    ∗ (((c : Thread nD τ).loc main_arg0) ↦{fullShare} V m c main_arg0) ∗ (((c : Thread nD τ).loc main_arg1) ↦{fullShare} V m c main_arg1)
    ∗ (((c : Thread nD τ).loc main_arg2) ↦{fullShare} (dats m hO 0 c).arrAt 4 (cfgM m hO).N) ∗ (((c : Thread nD τ).loc main_arg3) ↦{fullShare} V m c main_arg3))

/-- The final memory, read: the reshape's result and the four arguments. -/
def QC (hO : Ok m) : PUnit × MemSt nD τ sig (Elt F) → Prop := fun r =>
  ∀ c : Dev nD, r.2.mem ((c.tc : Thread nD τ).loc main_v9) = StableHlo.after hostOps1 (V₁ m hO c) (Proc.devRef .tc main_v9)
    ∧ r.2.mem ((c.tc : Thread nD τ).loc main_arg0) = V m c main_arg0
    ∧ r.2.mem ((c.tc : Thread nD τ).loc main_arg1) = V m c main_arg1
    ∧ r.2.mem ((c.tc : Thread nD τ).loc main_arg2) = (dats m hO 0 c).arrAt 4 (cfgM m hO).N
    ∧ r.2.mem ((c.tc : Thread nD τ).loc main_arg3) = V m c main_arg3

-- the launch theorem's implicit arguments are found by unifying its conclusion with this one, which takes unfolding
-- plain definitions in a metavariable's type
set_option backward.isDefEq.respectTransparency.types false in
/-- At the compiled mesh, for any float values, from any memory with zero counters whose tables pass the side condition:
    every weakly fair execution of @main on the TensorCores terminates, nothing faulting, and every final state holds
    the reshape of the result array the pipeline computes, and the arguments as the region found them. -/
theorem run_main (hO : Ok m) : θ_run defs (onTc (τ := τ) (main (F := F))) (s₀ m ρ) (QC m hO) :=
  Pipeline.θ_run_regions_kit (pcfgs (F := F)) (adm m hO) (dats m hO) () (cellOf_inj (adm m hO)) emb₁ defs₀ 𝒱₀ L lv m ρ main (segs m hO)
    (fun c Q => by rw [main_segs (adm m hO) (dats m hO) () 𝒱₀ L lv (seg0 m) (seg1 m hO) (reg0 m hO) rfl rfl c])
    (by simp only [Pipeline.Seg.pipes_host, Pipeline.Seg.pipes_region, Pipeline.Seg.pipes_nil]; decide) (O₀ := 0) (hL := fun _ _ => rfl) (G := fun _ => iprop(emp)) (u₀ := u₀ m hO)
    (hu₀ := by
      unfold u₀
      iintro Hu; imodintro
      isplitl [Hu]
      · iapply (show (ownU _ : sProp 𝕄) ⊢ BI.own (emb₁ (initOf (Pipeline.cells (Pipeline.pin pcfgs (adm m hO)) (cellOf_inj (adm m hO))) (Pipeline.launchToks (Pipeline.pin pcfgs (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m hO)
    (hch := ⟨fun _ => .rfl, fun _ => .rfl, fun _ => .rfl, fun c => by
      show iprop(StableHlo.held (c : Thread nD τ) S₁ (StableHlo.after hostOps1 (V₁ m hO c)) ∗ R₁ m hO c) ⊢ _
      unfold R₁ Tₙ
      iintro ⟨Hh, Ha0, Ha1, Ha2, Ha3, HR⟩
      isplitr [HR]
      · isplitl [Hh]; · iexact Hh
        isplitl [Ha0]; · iexact Ha0
        isplitl [Ha1]; · iexact Ha1
        isplitl [Ha2]; · iexact Ha2
        iexact Ha3
      · iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v9) = StableHlo.after hostOps1 (V₁ m hO c) (Proc.devRef .tc main_v9)
      ∧ s.mem ((c.tc : Thread nD τ).loc main_arg0) = V m c main_arg0
      ∧ s.mem ((c.tc : Thread nD τ).loc main_arg1) = V m c main_arg1
      ∧ s.mem ((c.tc : Thread nD τ).loc main_arg2) = (dats m hO 0 c).arrAt 4 (cfgM m hO).N
      ∧ s.mem ((c.tc : Thread nD τ).loc main_arg3) = V m c main_arg3)
    (hfin := fun c s' => by
      unfold Tₙ
      rw [held_S₁]
      iintro ⟨⟨⟨-, H9⟩, Ha0, Ha1, Ha2, Ha3⟩, HSI⟩
      icombine HSI H9 gives %h9
      icombine HSI Ha0 gives %h0
      icombine HSI Ha1 gives %h1
      icombine HSI Ha2 gives %h2
      icombine HSI Ha3 gives %h3
      imodintro
      isplitr; · ipureintro; exact ⟨Buf.eq_of_forall_mem_univ h9, Buf.eq_of_forall_mem_univ h0, Buf.eq_of_forall_mem_univ h1, Buf.eq_of_forall_mem_univ h2, Buf.eq_of_forall_mem_univ h3⟩
      iexact HSI)
    (hQ := fun _ h => h)

/-! ## The two readings of the run -/

/-- THE FRAME: the program runs to the end, faults nowhere, and leaves its four arguments as they were. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.1.trans (V_arg0 m c), (h c).2.2.1.trans (V_arg1 m c),
      (h c).2.2.2.1.trans (((dats m hO 0 c).arrAt_in 4 rfl _).trans ((A_eq m hO c 4).trans (V_arg2 m c))),
      (h c).2.2.2.2.trans (V_arg3 m c)⟩) (run_main m ρ hO)

/-- THE RESULT: beside the frame, the result buffer ends at the reshape of the array the pipeline computes. -/
theorem run_result (hO : Ok m) : θ_run defs (onTc (τ := τ) (main (F := F))) ⟨m, fun _ => 0, ρ⟩ (fun r => ∀ c : Dev nD,
      r.2.mem ((c.tc : Thread nD τ).loc main_v9) = StableHlo.after hostOps1 (V₁ m hO c) (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1.trans (V_arg0 m c), (h c).2.2.1.trans (V_arg1 m c),
      (h c).2.2.2.1.trans (((dats m hO 0 c).arrAt_in 4 rfl _).trans ((A_eq m hO c 4).trans (V_arg2 m c))),
      (h c).2.2.2.2.trans (V_arg3 m c)⟩) (run_main m ρ hO)

end Cert.Kernel.Hand

end
-- ==== Proof.KIBody.lean ====
/- The kernel body's triple: on whole staging memrefs, the five inputs held at contents x0 … x4 and the output
   at any contents, the body runs to a continuation that holds the inputs unchanged and the output at
   `k0_pay1 x0 x1 x2 x3 x4`. The body loads each input through the whole-shape rectangle at zero offsets
   (which reads the contents), loads the output once (unused), and stores the payload once through the
   whole-shape rectangle of the output (which leaves exactly the payload). The prefetched tables are not read. -/
import proofs.«411096_j74337293959546_2_alg».proof.Proof.Gen.KernelIdeal.Skeleton
import proofs.«411096_j74337293959546_2_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a rank-3 rectangle, however spelt. -/
theorem hz3 : (![0, 0, 0] : Fin 3 → Nat) = fun _ => 0 := funext fun a => by fin_cases a <;> rfl

/-- The all-zero offsets of a rank-1 rectangle. -/
theorem hz1 : (![0] : Fin 1 → Nat) = fun _ => 0 := funext fun a => by fin_cases a <;> rfl

/-- ONE unmasked store through the whole-shape rectangle at zero offsets, over any prior contents, read back through
    the same view, is the payload: the rectangle's embedding is the identity, and an element under the last write
    reads its payload. -/
theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb v f (Rect.whole S) w [] y
  rw [Rect.emb_whole_apply] at e
  exact e

/-- The body's triple at any float model `F`: the loads read `x0 … x4` (a whole memref held at the raw contents
    that read `X` reads `X` through the zero-offset whole-shape rectangle), and the one covering store leaves
    the payload over whatever the output held. -/
theorem kernel_run (c : Dev nD) (i : grid0.Coords)
    (arg1 : Memref sig .tc .smem S16384 .i32) (harg1 : arg1.IsWhole) (arg2 : Memref sig .tc .smem S16384 .i32) (harg2 : arg2.IsWhole)
    (arg3 : Memref sig .tc .vmem S1x1x1 .f32) (harg3 : arg3.IsWhole) (arg4 : Memref sig .tc .vmem S1x1x1 .f32) (harg4 : arg4.IsWhole)
    (arg5 : Memref sig .tc .vmem S1x1x64 .f32) (harg5 : arg5.IsWhole) (arg6 : Memref sig .tc .vmem S1x1x64 .f32) (harg6 : arg6.IsWhole)
    (arg7 : Memref sig .tc .vmem S1 .f32) (harg7 : arg7.IsWhole) (arg8 : Memref sig .tc .vmem S1x1x1 .f32) (harg8 : arg8.IsWhole)
    (x0 x1 : Vec F S1x1x1 .f32) (x2 x3 : Vec F S1x1x64 .f32) (x4 : Vec F S1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay1 x0 x1 x2 x3 x4)) -∗ K ⟨⟩))
      ⊢ wp frame (wpE (defs₀ (F := F)) Variants.none c none) E
          (cc0__gather_kernel i arg1 harg1 arg2 harg2 arg3 harg3 arg4 harg4 arg5 harg5 arg6 harg6 arg7 harg7 arg8 harg8) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0
  obtain rfl := harg4.eq_unread hf1
  obtain rfl := harg5.eq_unread hf2
  obtain rfl := harg6.eq_unread hf3
  obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  rotate_left
  · iexact H5
  · ipureintro
    rw [read_writes_unit_zero (S := S1x1x1) _ _ hz3]
    simp only [View.readAt_eq_ld, harg3.read_unread, harg4.read_unread, harg5.read_unread, harg6.read_unread,
      harg7.read_unread, View.ld_unit_zero (S := S1x1x1) hz3, View.ld_unit_zero (S := S1x1x64) hz3,
      View.ld_unit_zero (S := S1) hz1]

end Cert.KernelIdeal.Hand

end
-- ==== Proof.KIData.lean ====
/-
  The proof data of the one kernel region of `KernelIdeal`, and its body obligation.

  The region runs over a grid of 16384 points. At point `t` the pipeline stages five input blocks — row `u t` of the
  reshaped `W` and row `it t` of it again (two windows on ONE array), row `u t` and row `it t` of the reshaped `V`
  (again two windows on one array), and the bias — where `u` and `it` are the two prefetched index tables; the body
  stores the payload of the five blocks into the output window's block `t`.  Every table-indexed block must lie
  inside its array (`Ok`): the region runs under that side condition.
-/
import proofs.«411096_j74337293959546_2_alg».proof.Proof.Gen.KernelIdeal.Launch
import proofs.«411096_j74337293959546_2_alg».proof.Proof.Gen.KernelIdeal.Skeleton
import proofs.«411096_j74337293959546_2_alg».proof.Proof.KIBody
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered, and the two index tables -/

/-- Core `c`'s buffers at launch, as the host operations' valuation; -/
abbrev V₀ (c : Dev nD) : Valuation τ sig (Elt F) := fun b => m ((c : Dev nD), b)
/-- and when the region is entered: the nine operations before it have run. -/
abbrev V (c : Dev nD) (b : Ref sig .tc) : Buf (Elt F) ((c : Thread nD τ).loc b) := StableHlo.after hostOps0 (V₀ m c) b

/-- The two index tables (user rows, item rows) as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every table-indexed block lies inside its array: the side condition under which the region runs. -/
abbrev Ok : Prop := ok0 (F := F) (tbl m)
abbrev adm (hO : Ok m) : (p : Fin 1) → (pcfgs (F := F) p).Adm := fun _ => ⟨tbl m, hO⟩
abbrev cfgM (hO : Ok m) : Pipeline.Cfg sig Λ₀ := cfg0 (adm m hO 0)

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The five input blocks at a point, at their literal types. -/
abbrev wu (hO : Ok m) (c : Dev nD) (t : Fin (cfgM m hO).N) : Vec F S1x1x1 .f32 := iblk m hO c 0 t
abbrev wi (hO : Ok m) (c : Dev nD) (t : Fin (cfgM m hO).N) : Vec F S1x1x1 .f32 := iblk m hO c 1 t
abbrev vu (hO : Ok m) (c : Dev nD) (t : Fin (cfgM m hO).N) : Vec F S1x1x64 .f32 := iblk m hO c 2 t
abbrev vi (hO : Ok m) (c : Dev nD) (t : Fin (cfgM m hO).N) : Vec F S1x1x64 .f32 := iblk m hO c 3 t
abbrev bb (hO : Ok m) (c : Dev nD) (t : Fin (cfgM m hO).N) : Vec F S1 .f32 := iblk m hO c 4 t

/-- What the body stores at point `t`: the payload of the five input blocks. -/
def outAt (hO : Ok m) (c : Dev nD) (t : Fin (cfgM m hO).N) : Vec F S1x1x1 .f32 :=
  k0_pay1 (wu m hO c t) (wi m hO c t) (vu m hO c t) (vi m hO c t) (bb m hO c t)

/-! ## The pipeline's proof data -/

/-- The shares of the arrays: the two windows on the reshaped `W` hold a half each, and so the two on the reshaped `V`. -/
def qs : Fin 6 → PosShare TreeShare
  | ⟨0, _⟩ => fullShare.left
  | ⟨1, _⟩ => fullShare.right
  | ⟨2, _⟩ => fullShare.left
  | ⟨3, _⟩ => fullShare.right
  | _ => fullShare

/-- The proof data on core `c`: the arrays as the region finds them; after the body each input's buffer at its block and
    the output's at the payload; the invariant the scoped buffers no window stages and the two tables, whole; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) (tbl m))
  q := qs
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- An input window's buffer holds its block at every point, fetched there or not: a window not fetched at a point has
    not moved its block index since the last fetch. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

/-- Each window's current staging memref at point `t`, as the pipeline passes it to the body. -/
abbrev ms0 (hO : Ok m) (t : Fin (cfgM m hO).N) : Memref sig .tc .vmem S1x1x1 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x64 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x64 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1x1 .f32 := spec0_5.stage ((cfgM m hO).slots t 5)
abbrev hs5 (hO : Ok m) (t : Fin (cfgM m hO).N) : (ms5 m hO t).IsWhole := hstage0_5 (((cfgM m hO).slots t 5).cast nbuf0_5)

/-- The kernel body at point `t`, on what the pipeline calls it with. -/
abbrev bodyAt (hO : Ok m) (t : Fin (cfgM m hO).N) : Prog (TpuEff nD τ sig (Elt F) Λ₀ .tc) PUnit :=
  cc0__gather_kernel (grid0.coords t) (Memref.whole main_v1) (Memref.isWhole_whole _) (Memref.whole main_v5) (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t)

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The body at any point: the inputs' buffers hold their blocks, so the body's triple applies; the invariant passes
    through unread; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  unfold outAt
  iintro ⟨HΦ, Ho, ⟨%d0, H0⟩, ⟨%d1, H1⟩, ⟨%d2, H2⟩, ⟨%d3, H3⟩, ⟨%d4, H4⟩, ⟨%d5, H5⟩⟩
  iapply (kernel_run c (grid0.coords t) _ _ _ _ _ _ _ _ _ _ _ _ _ _ _ _ (iblk m hO c 0 t) (iblk m hO c 1 t) (iblk m hO c 2 t) (iblk m hO c 3 t) (iblk m hO c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.KernelIdeal.Hand

end
-- ==== Proof.KITail.lean ====
/-
  `KernelIdeal`: the host operations around its kernel region, as far as the buffers go — the nine operations before the
  region write none of the four arguments, and when the region is left the kernel's result buffer holds what the
  pipeline computed while every other buffer is as the region found it.
-/
import proofs.«411096_j74337293959546_2_alg».proof.Proof.KIData
import Idealize.ShloMosaic.Lib.Pipeline.Regions
import Idealize.ShloMosaic.Lib.Pipeline.Kit
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region write no argument -/

theorem not_written (b : Ref sig .tc) (hb : b ≠ main_v0 ∧ b ≠ main_v1 ∧ b ≠ main_v2 ∧ b ≠ main_v3 ∧ b ≠ main_c ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V_arg0 (c : Dev nD) : V m c main_arg0 = m ((c : Thread nD τ).loc main_arg0) :=
  StableHlo.after_of_forall_not_mem (b := Proc.devRef .tc main_arg0) hostOps0 (V₀ m c) (not_written main_arg0 (by decide))
theorem V_arg1 (c : Dev nD) : V m c main_arg1 = m ((c : Thread nD τ).loc main_arg1) :=
  StableHlo.after_of_forall_not_mem (b := Proc.devRef .tc main_arg1) hostOps0 (V₀ m c) (not_written main_arg1 (by decide))
theorem V_arg2 (c : Dev nD) : V m c main_arg2 = m ((c : Thread nD τ).loc main_arg2) :=
  StableHlo.after_of_forall_not_mem (b := Proc.devRef .tc main_arg2) hostOps0 (V₀ m c) (not_written main_arg2 (by decide))
theorem V_arg3 (c : Dev nD) : V m c main_arg3 = m ((c : Thread nD τ).loc main_arg3) :=
  StableHlo.after_of_forall_not_mem (b := Proc.devRef .tc main_arg3) hostOps0 (V₀ m c) (not_written main_arg3 (by decide))

/-! ## The buffers when the region is left -/

/-- The two buffers the operation after the region touches: the kernel's result and its reshape. -/
def S₁ : Finset (DevRef τ sig) := {Proc.devRef .tc main_v8, Proc.devRef .tc main_v9}

/-- The buffers when the region is left: the kernel's result as the pipeline computes it, the rest as the region found them. -/
def V₁ (hO : Ok m) (c : Dev nD) : Valuation τ sig (Elt F) :=
  Function.update (StableHlo.after hostOps0 (V₀ m c)) (Proc.devRef .tc main_v8)
    (((dats m hO 0 c).arrAt 5 (cfgM m hO).N : Buf (Elt F) ((c.tc : Thread nD τ).loc main_v8)) : (Proc.devRef (τ := τ) .tc main_v8).ty.Contents (Elt F))

theorem V₁_v8 (hO : Ok m) (c : Dev nD) : V₁ m hO c (Proc.devRef .tc main_v8) = (dats m hO 0 c).arrAt 5 (cfgM m hO).N :=
  Function.update_self _ _ _
theorem V₁_v9 (hO : Ok m) (c : Dev nD) : V₁ m hO c (Proc.devRef .tc main_v9) = V m c main_v9 :=
  Function.update_of_ne (StableHlo.devRef_ne_of_ne (by decide)) _ _

end Cert.KernelIdeal.Hand

end
-- ==== Proof.KIRun.lean ====
/-
  The run of `KernelIdeal`: @main as a stretch of nine host operations, the kernel region, and one more host operation (the
  reshape of the kernel's result), composed by the library's launch theorem for a list of segments.

  Two pairs of the region's input windows read ONE array each (the reshaped `W`, the reshaped `V`): each window of a
  pair holds half of its array's share, so the arrays are split when the region is entered; nothing reads them
  afterwards.  The tables the index maps read are handed to the region whole.  The result array comes back at what the
  pipeline computes from the stored blocks; the last host operation reshapes it.  Every argument is as launched at the end:
  three of them bypass the region, the bias is an input window's array, which the pipeline never writes.
-/
import proofs.«411096_j74337293959546_2_alg».proof.Proof.KITail
import Idealize.ShloMosaic.Lib.Pipeline.Regions
import Idealize.ShloMosaic.Lib.Pipeline.Kit
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000

/-- The distinct buffers behind the windows' arrays, one by one: the reshaped `W`, the reshaped `V`, the bias, the result. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v6) ↦{fullShare} Vc main_v6) ∗ (((c : Thread nD τ).loc main_v7) ↦{fullShare} Vc main_v7)
          ∗ (((c : Thread nD τ).loc main_arg2) ↦{fullShare} Vc main_arg2) ∗ (((c : Thread nD τ).loc main_v8) ↦{fullShare} Vc main_v8)) := by
  unfold Pipeline.arrBufs
  exact bigSep_eq_bigSepL_of_eq [main_v6, main_v7, main_arg2, main_v8] (by decide) (by decide) _

/-! ## The arrays' shares and entry contents, window by window -/

theorem isOut_eq (a : (pcfg0 (F := F)).Adm) (w : Fin 6) : ((cfg0 a).win w).isOut = (spec0 w).isOut := rfl

theorem share_eq (hO : Ok m) (c : Dev nD) (w : Fin 6) : (dats m hO 0 c).share w = if (spec0 w).isOut then fullShare else qs w := by
  unfold Dat.share
  rw [show ((cfgM m hO).win w).isOut = (spec0 w).isOut from isOut_eq (adm m hO 0) w]
  rfl

theorem arrAt_zero (hO : Ok m) (c : Dev nD) (w : Fin 6) : (dats m hO 0 c).arrAt w 0 = V m c (Pipeline.arrRef spec0 w) := A_eq m hO c w

/-- One window's array at the pipeline's share, as a points-to of its buffer at that share. -/
theorem arr_at (hO : Ok m) (c : Dev nD) (w : Fin 6) (f : Buf (Elt F) (((cfgM m hO).win w).arr.view.loc (c.tc : Thread nD τ))) :
    ((((cfgM m hO).win w).arr.view.loc (c.tc : Thread nD τ)) ↦[((cfgM m hO).win w).arr.view.set]{(dats m hO 0 c).share w} f : sProp 𝕄)
      = (((c.tc : Thread nD τ).loc (Pipeline.arrRef spec0 w)) ↦{if (spec0 w).isOut then fullShare else qs w} f) := by
  rw [(arr_whole0 w).set_eq_univ, share_eq]

theorem arr_at0 (hO : Ok m) (c : Dev nD) (f : Buf (Elt F) (((cfgM m hO).win (0 : Fin 6)).arr.view.loc (c.tc : Thread nD τ))) :
    ((((cfgM m hO).win (0 : Fin 6)).arr.view.loc (c.tc : Thread nD τ)) ↦[((cfgM m hO).win (0 : Fin 6)).arr.view.set]{(dats m hO 0 c).share (0 : Fin 6)} f : sProp 𝕄)
      = (((c.tc : Thread nD τ).loc main_v6) ↦{fullShare.left} f) := (arr_at m hO c 0 f).trans rfl
theorem arr_at1 (hO : Ok m) (c : Dev nD) (f : Buf (Elt F) (((cfgM m hO).win (1 : Fin 6)).arr.view.loc (c.tc : Thread nD τ))) :
    ((((cfgM m hO).win (1 : Fin 6)).arr.view.loc (c.tc : Thread nD τ)) ↦[((cfgM m hO).win (1 : Fin 6)).arr.view.set]{(dats m hO 0 c).share (1 : Fin 6)} f : sProp 𝕄)
      = (((c.tc : Thread nD τ).loc main_v6) ↦{fullShare.right} f) := (arr_at m hO c 1 f).trans rfl
theorem arr_at2 (hO : Ok m) (c : Dev nD) (f : Buf (Elt F) (((cfgM m hO).win (2 : Fin 6)).arr.view.loc (c.tc : Thread nD τ))) :
    ((((cfgM m hO).win (2 : Fin 6)).arr.view.loc (c.tc : Thread nD τ)) ↦[((cfgM m hO).win (2 : Fin 6)).arr.view.set]{(dats m hO 0 c).share (2 : Fin 6)} f : sProp 𝕄)
      = (((c.tc : Thread nD τ).loc main_v7) ↦{fullShare.left} f) := (arr_at m hO c 2 f).trans rfl
theorem arr_at3 (hO : Ok m) (c : Dev nD) (f : Buf (Elt F) (((cfgM m hO).win (3 : Fin 6)).arr.view.loc (c.tc : Thread nD τ))) :
    ((((cfgM m hO).win (3 : Fin 6)).arr.view.loc (c.tc : Thread nD τ)) ↦[((cfgM m hO).win (3 : Fin 6)).arr.view.set]{(dats m hO 0 c).share (3 : Fin 6)} f : sProp 𝕄)
      = (((c.tc : Thread nD τ).loc main_v7) ↦{fullShare.right} f) := (arr_at m hO c 3 f).trans rfl
theorem arr_at4 (hO : Ok m) (c : Dev nD) (f : Buf (Elt F) (((cfgM m hO).win (4 : Fin 6)).arr.view.loc (c.tc : Thread nD τ))) :
    ((((cfgM m hO).win (4 : Fin 6)).arr.view.loc (c.tc : Thread nD τ)) ↦[((cfgM m hO).win (4 : Fin 6)).arr.view.set]{(dats m hO 0 c).share (4 : Fin 6)} f : sProp 𝕄)
      = (((c.tc : Thread nD τ).loc main_arg2) ↦{fullShare} f) := (arr_at m hO c 4 f).trans rfl
theorem arr_at5 (hO : Ok m) (c : Dev nD) (f : Buf (Elt F) (((cfgM m hO).win (5 : Fin 6)).arr.view.loc (c.tc : Thread nD τ))) :
    ((((cfgM m hO).win (5 : Fin 6)).arr.view.loc (c.tc : Thread nD τ)) ↦[((cfgM m hO).win (5 : Fin 6)).arr.view.set]{(dats m hO 0 c).share (5 : Fin 6)} f : sProp 𝕄)
      = (((c.tc : Thread nD τ).loc main_v8) ↦{fullShare} f) := (arr_at m hO c 5 f).trans rfl

/-- The pipeline's arrays at contents `Fw`, window by window. -/
theorem arrays_eq6 (hO : Ok m) (c : Dev nD) (Fw : (w : Fin (cfgM m hO).W) → Buf (Elt F) (((cfgM m hO).win w).arr.view.loc (c.tc : Thread nD τ))) :
    ((dats m hO 0 c).arrays Fw : sProp 𝕄)
      = iprop((((c.tc : Thread nD τ).loc main_v6) ↦{fullShare.left} Fw (0 : Fin 6)) ∗ (((c.tc : Thread nD τ).loc main_v6) ↦{fullShare.right} Fw (1 : Fin 6))
          ∗ (((c.tc : Thread nD τ).loc main_v7) ↦{fullShare.left} Fw (2 : Fin 6)) ∗ (((c.tc : Thread nD τ).loc main_v7) ↦{fullShare.right} Fw (3 : Fin 6))
          ∗ (((c.tc : Thread nD τ).loc main_arg2) ↦{fullShare} Fw (4 : Fin 6)) ∗ (((c.tc : Thread nD τ).loc main_v8) ↦{fullShare} Fw (5 : Fin 6))) := by
  unfold Dat.arrays
  rw [bigSep_W0, arr_at0 m hO c (Fw (0 : Fin 6)), arr_at1 m hO c (Fw (1 : Fin 6)), arr_at2 m hO c (Fw (2 : Fin 6)),
    arr_at3 m hO c (Fw (3 : Fin 6)), arr_at4 m hO c (Fw (4 : Fin 6)), arr_at5 m hO c (Fw (5 : Fin 6))]

/-- The buffers behind the windows' arrays, whole at the contents the region finds, make the pipeline's arrays at
    their entry contents: the reshaped `W` split in halves between its two windows, the reshaped `V` likewise. -/
theorem arr_split (hO : Ok m) (c : Dev nD) :
    (Pipeline.arrBufs (Ix := Unit) (Name := ℕ) (U := UR sig nD τ) (Lvl := ℕ) spec0 c (V m c) : sProp 𝕄)
      ⊢ (dats m hO 0 c).arrays ((dats m hO 0 c).arrAt · 0) := by
  rw [arrBufs0_eq, arrays_eq6]
  simp only [arrAt_zero]
  iintro ⟨H6, H7, H2, H8⟩
  ihave H6' := (pointsTo_share (PosShare.mem_left_op_right fullShare)).1 $$ H6
  icases H6' with ⟨H6l, H6r⟩
  ihave H7' := (pointsTo_share (PosShare.mem_left_op_right fullShare)).1 $$ H7
  icases H7' with ⟨H7l, H7r⟩
  isplitl [H6l]; · iexact H6l
  isplitl [H6r]; · iexact H6r
  isplitl [H7l]; · iexact H7l
  isplitl [H7r]; · iexact H7r
  isplitl [H2]; · iexact H2
  iexact H8

/-! ## @main as a host stretch, the region, a host stretch -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through the host operations: the core owes nothing. -/
abbrev R (c : Dev nD) : sProp 𝕄 := iprop(∃ W, owes (c : Thread nD τ) (0 : CellTallies nD τ sig Unit) W)

/-- THE FIRST HOST STRETCH: the nine operations before the region, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- What rides beside those two: the four arguments — the bias as the pipeline leaves its array — and that the core owes nothing. -/
def R₁ (hO : Ok m) (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} (dats m hO 0 c).arrAt 4 (cfgM m hO).N) ∗ (((c : Thread nD τ).loc main_arg3) ↦{fullShare} V m c main_arg3)
    ∗ R c)

/-- THE LAST HOST STRETCH: the reshape of the kernel's result. -/
def seg1 (hO : Ok m) : Pipeline.HostSeg (Name := ℕ) (U := UR sig nD τ) (pcfgs (F := F)) defs₀ 𝒱₀ L lv :=
  Pipeline.HostSeg.ofOps _ _ _ _ _ S₁ hostOps1 (by intro op h; obtain rfl := List.mem_singleton.mp h; rw [StableHlo.reshape_bufs]; exact Finset.Subset.refl _)
    (by intro _ h; obtain rfl := List.mem_singleton.mp h; rfl) (V₁ m hO) (R₁ m hO)

attribute [local irreducible] tbl

/-- The invariant at either end of the region, spelled out. -/
theorem Phi_eq (hO : Ok m) (c : Dev nD) (t : Fin ((cfgM m hO).N + 1)) :
    (dats m hO 0 c).Φ t = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) (tbl m)) := rfl

/-- The core's unscoped buffers as the region finds them: the pipeline's arrays at their entry contents, the two tables
    whole, and the buffers that bypass the region. -/
theorem entry_split (hO : Ok m) (c : Dev nD) :
    (unscopedBufs (Ix := Unit) (Name := ℕ) (U := UR sig nD τ) (Lvl := ℕ) c (V m c) : sProp 𝕄)
      ⊢ iprop((dats m hO 0 c).arrays ((dats m hO 0 c).arrAt · 0)
          ∗ Pipeline.prefHeld (Ix := Unit) (Name := ℕ) (U := UR sig nD τ) (Lvl := ℕ) pre0 c (fun _ => fullShare) (tbl m)
          ∗ Pipeline.unscopedRestP (Ix := Unit) (Name := ℕ) (U := UR sig nD τ) (Lvl := ℕ) pre0 spec0 c (V m c)) := by
  rw [Pipeline.unscopedBufs_split₀ (Pipeline.pin pcfgs (adm m hO)) 0 winFacts₀0.arr_unscoped c (V m c), Pipeline.unscopedRest_split preFacts0 c (V m c)]
  rw [show (fun k => V m c (pre0.ref k)) = tbl m from funext (V_pre m c)]
  exact sep_mono (arr_split m hO c) .rfl

/-- The two buffers of the last stretch held at a valuation, one by one. -/
theorem held_S₁ (c : Dev nD) (W : Valuation τ sig (Elt F)) :
    (StableHlo.held (Ix := Unit) (Name := ℕ) (U := UR sig nD τ) (Lvl := ℕ) (c : Thread nD τ) S₁ W : sProp 𝕄)
      = iprop(((((c : Thread nD τ).1, Proc.devRef .tc main_v8) : Loc nD τ sig) ↦{fullShare} W (Proc.devRef .tc main_v8))
          ∗ ((((c : Thread nD τ).1, Proc.devRef .tc main_v9) : Loc nD τ sig) ↦{fullShare} W (Proc.devRef .tc main_v9))) := by
  unfold StableHlo.held S₁
  rw [bigSep_insert (by simp only [Finset.mem_singleton]; exact StableHlo.devRef_ne_of_ne (by decide)), bigSep_singleton]
  rfl

abbrev preR (c : Dev nD) : sProp 𝕄 := iprop(StableHlo.held (c : Thread nD τ) (Pipeline.ucRefs τ sig) (StableHlo.after hostOps0 (V₀ m c)) ∗ R c)
abbrev postR (hO : Ok m) (c : Dev nD) : sProp 𝕄 := iprop(StableHlo.held (c : Thread nD τ) S₁ (V₁ m hO c) ∗ R₁ m hO c)
abbrev tabs (c : Dev nD) : sProp 𝕄 := Pipeline.prefHeld (Ix := Unit) (Name := ℕ) (U := UR sig nD τ) (Lvl := ℕ) pre0 c (fun _ => fullShare) (tbl m)
abbrev bypass (c : Dev nD) : sProp 𝕄 := Pipeline.unscopedRestP (Ix := Unit) (Name := ℕ) (U := UR sig nD τ) (Lvl := ℕ) pre0 spec0 c (V m c)

/-- ENTRY: what the first stretch left, sorted into the pipeline's arrays, the tables, what the core owes (nothing), and
    the buffers that bypass the region. -/
theorem region_entry (hO : Ok m) (c : Dev nD) :
    iprop(preR m c ∗ (BI.emp : sProp 𝕄) ∗ levAts L lv)
      ⊢ |={Set.univ}=> iprop((dats m hO 0 c).arrays ((dats m hO 0 c).arrAt · 0) ∗ tabs m c
          ∗ (dats m hO 0 c).owesAt () 0 ∗ (iprop(emp) : sProp 𝕄) ∗ bypass m c) := by
  unfold preR tabs bypass
  rw [show StableHlo.held (c : Thread nD τ) (Pipeline.ucRefs τ sig) (StableHlo.after hostOps0 (V₀ m c)) = unscopedBufs c (V m c) from (Pipeline.unscopedBufs_held c _).symm]
  iintro ⟨⟨Hub, HO⟩, -, -⟩
  ihave H := (entry_split m hO c) $$ Hub
  icases H with ⟨Harr, Hpf, Hrest⟩
  imodintro
  isplitl [Harr]; · iexact Harr
  isplitl [Hpf]; · iexact Hpf
  isplitl [HO]
  · unfold Pipeline.Dat.owesAt Pipeline.owesWithin
    icases HO with ⟨%W, HO⟩; iexists W; isplitr; · ipureintro; exact fun _ _ => Or.inl trivial
    iexact HO
  isplitr; · iempintro
  iexact Hrest

/-- EXIT: the arrays at their final contents and the bypassing buffers make the state the last stretch runs from. -/
theorem region_exit (hO : Ok m) (c : Dev nD) :
    iprop((dats m hO 0 c).arrays ((dats m hO 0 c).arrAt · (cfgM m hO).N) ∗ (dats m hO 0 c).owesAt () (Fin.last (cfgM m hO).N) ∗ tabs m c ∗ bypass m c)
      ⊢ |={Set.univ}=> postR m hO c := by
  unfold postR tabs bypass
  rw [arrays_eq6, unscopedRestP0_eq]
  iintro ⟨⟨-, -, -, -, H4, H5⟩, HO, -, ⟨Ha0, Ha1, Ha3, -, -, -, -, -, H9⟩⟩
  imodintro
  isplitl [H5 H9]
  · rw [held_S₁, V₁_v8, V₁_v9]
    isplitl [H5]; · iexact H5
    iexact H9
  unfold R₁
  isplitl [Ha0]; · iexact Ha0
  isplitl [Ha1]; · iexact Ha1
  isplitl [H4]; · iexact H4
  isplitl [Ha3]; · iexact Ha3
  unfold Pipeline.Dat.owesAt Pipeline.owesWithin
  icases HO with ⟨%W, -, HO⟩; iexists W; iexact HO

theorem region_in (hO : Ok m) (c : Dev nD) :
    iprop((iprop(emp) : sProp 𝕄) ∗ tabs m c ∗ Pipeline.scopedRest (Ix := Unit) (Name := ℕ) (U := UR sig nD τ) (Lvl := ℕ) (Val := Elt F) spec0 c)
      ⊢ (dats m hO 0 c).Φ 0 := by
  rw [Phi_eq]
  iintro ⟨-, Hpf, Hr⟩
  isplitl [Hr]; · iexact Hr
  iexact Hpf

theorem region_out (hO : Ok m) (c : Dev nD) :
    (dats m hO 0 c).Φ (Fin.last (cfgM m hO).N)
      ⊢ iprop(tabs m c ∗ (BI.emp : sProp 𝕄) ∗ Pipeline.scopedRest (Ix := Unit) (Name := ℕ) (U := UR sig nD τ) (Lvl := ℕ) (Val := Elt F) spec0 c) := by
  rw [Phi_eq]
  iintro ⟨Hr, Hpf⟩
  isplitl [Hpf]; · iexact Hpf
  isplitr; · iempintro
  iexact Hr

-- entailments stated over the pipeline pinned at the tables unify only when unification may unfold plain definitions in a
-- metavariable's type
set_option backward.isDefEq.respectTransparency.types false in
/-- THE REGION: the decided layout, no semaphore of the kernel's own, the body obligation; entered from what the first
    stretch left — the windows' arrays into the pipeline (the two shared ones in halves), the two tables whole, the other
    buffers bypassing —, left with the result array at its final contents beside its reshape's buffer, and the arguments. -/
def reg0 (hO : Ok m) : Pipeline.RegionSeg (pcfgs (F := F)) (adm m hO) (dats m hO) () defs₀ 𝒱₀ L lv 0 where
  win := winFacts₀0
  block_pos := block_pos0
  stage_whole := stage_whole0
  K := PEmpty
  osem := fun k => k.elim
  ho := Pipeline.OwnSemFacts.none _
  hbody c := (body_obligation m hO c).loose
  hwaits := Pipeline.hwaits_of_owed_zero _ _ _ _ L lv 0 fun _ _ => rfl
  pre c := preR m c
  post c := postR m hO c
  X c := iprop(emp)
  Y c := tabs m c
  Z c := bypass m c
  hentry c := by rw [Pipeline.ownSems0_none]; exact region_entry m hO c
  hin c := region_in m hO c
  hout c := by rw [Pipeline.ownSems0_none]; exact region_out m hO c
  hexit c := region_exit m hO c

/-! ## The run -/

/-- The launch element: the pipeline library's at the staging cells. -/
def u₀ (hO : Ok m) : UR sig nD τ :=
  initOf (Pipeline.cells (Pipeline.pin pcfgs (adm m hO)) (cellOf_inj (adm m hO))) (Pipeline.launchToks (Pipeline.pin pcfgs (adm m hO)) (cellOf_inj (adm m hO)))

/-- @main as the list of the three. -/
abbrev segs (hO : Ok m) : List (Pipeline.Seg (pcfgs (F := F)) (adm m hO) (dats m hO) () defs₀ 𝒱₀ L lv) :=
  [.host (seg0 m), .region (reg0 m hO), .host (seg1 m hO)]

/-- What the run ends holding: the result's two buffers after the reshape, and the four arguments. -/
def Tₙ (hO : Ok m) (c : Dev nD) : sProp 𝕄 :=
  iprop(StableHlo.held (c : Thread nD τ) S₁ (StableHlo.after hostOps1 (V₁ m hO c))
    ∗ (((c : Thread nD τ).loc main_arg0) ↦{fullShare} V m c main_arg0) ∗ (((c : Thread nD τ).loc main_arg1) ↦{fullShare} V m c main_arg1)
    ∗ (((c : Thread nD τ).loc main_arg2) ↦{fullShare} (dats m hO 0 c).arrAt 4 (cfgM m hO).N) ∗ (((c : Thread nD τ).loc main_arg3) ↦{fullShare} V m c main_arg3))

/-- The final memory, read: the reshape's result and the four arguments. -/
def QC (hO : Ok m) : PUnit × MemSt nD τ sig (Elt F) → Prop := fun r =>
  ∀ c : Dev nD, r.2.mem ((c.tc : Thread nD τ).loc main_v9) = StableHlo.after hostOps1 (V₁ m hO c) (Proc.devRef .tc main_v9)
    ∧ r.2.mem ((c.tc : Thread nD τ).loc main_arg0) = V m c main_arg0
    ∧ r.2.mem ((c.tc : Thread nD τ).loc main_arg1) = V m c main_arg1
    ∧ r.2.mem ((c.tc : Thread nD τ).loc main_arg2) = (dats m hO 0 c).arrAt 4 (cfgM m hO).N
    ∧ r.2.mem ((c.tc : Thread nD τ).loc main_arg3) = V m c main_arg3

-- the launch theorem's implicit arguments are found by unifying its conclusion with this one, which takes unfolding
-- plain definitions in a metavariable's type
set_option backward.isDefEq.respectTransparency.types false in
/-- At the compiled mesh, for any float values, from any memory with zero counters whose tables pass the side condition:
    every weakly fair execution of @main on the TensorCores terminates, nothing faulting, and every final state holds
    the reshape of the result array the pipeline computes, and the arguments as the region found them. -/
theorem run_main (hO : Ok m) : θ_run defs (onTc (τ := τ) (main (F := F))) (s₀ m ρ) (QC m hO) :=
  Pipeline.θ_run_regions_kit (pcfgs (F := F)) (adm m hO) (dats m hO) () (cellOf_inj (adm m hO)) emb₁ defs₀ 𝒱₀ L lv m ρ main (segs m hO)
    (fun c Q => by rw [main_segs (adm m hO) (dats m hO) () 𝒱₀ L lv (seg0 m) (seg1 m hO) (reg0 m hO) rfl rfl c])
    (by simp only [Pipeline.Seg.pipes_host, Pipeline.Seg.pipes_region, Pipeline.Seg.pipes_nil]; decide) (O₀ := 0) (hL := fun _ _ => rfl) (G := fun _ => iprop(emp)) (u₀ := u₀ m hO)
    (hu₀ := by
      unfold u₀
      iintro Hu; imodintro
      isplitl [Hu]
      · iapply (show (ownU _ : sProp 𝕄) ⊢ BI.own (emb₁ (initOf (Pipeline.cells (Pipeline.pin pcfgs (adm m hO)) (cellOf_inj (adm m hO))) (Pipeline.launchToks (Pipeline.pin pcfgs (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m hO)
    (hch := ⟨fun _ => .rfl, fun _ => .rfl, fun _ => .rfl, fun c => by
      show iprop(StableHlo.held (c : Thread nD τ) S₁ (StableHlo.after hostOps1 (V₁ m hO c)) ∗ R₁ m hO c) ⊢ _
      unfold R₁ Tₙ
      iintro ⟨Hh, Ha0, Ha1, Ha2, Ha3, HR⟩
      isplitr [HR]
      · isplitl [Hh]; · iexact Hh
        isplitl [Ha0]; · iexact Ha0
        isplitl [Ha1]; · iexact Ha1
        isplitl [Ha2]; · iexact Ha2
        iexact Ha3
      · iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v9) = StableHlo.after hostOps1 (V₁ m hO c) (Proc.devRef .tc main_v9)
      ∧ s.mem ((c.tc : Thread nD τ).loc main_arg0) = V m c main_arg0
      ∧ s.mem ((c.tc : Thread nD τ).loc main_arg1) = V m c main_arg1
      ∧ s.mem ((c.tc : Thread nD τ).loc main_arg2) = (dats m hO 0 c).arrAt 4 (cfgM m hO).N
      ∧ s.mem ((c.tc : Thread nD τ).loc main_arg3) = V m c main_arg3)
    (hfin := fun c s' => by
      unfold Tₙ
      rw [held_S₁]
      iintro ⟨⟨⟨-, H9⟩, Ha0, Ha1, Ha2, Ha3⟩, HSI⟩
      icombine HSI H9 gives %h9
      icombine HSI Ha0 gives %h0
      icombine HSI Ha1 gives %h1
      icombine HSI Ha2 gives %h2
      icombine HSI Ha3 gives %h3
      imodintro
      isplitr; · ipureintro; exact ⟨Buf.eq_of_forall_mem_univ h9, Buf.eq_of_forall_mem_univ h0, Buf.eq_of_forall_mem_univ h1, Buf.eq_of_forall_mem_univ h2, Buf.eq_of_forall_mem_univ h3⟩
      iexact HSI)
    (hQ := fun _ h => h)

/-! ## The two readings of the run -/

/-- THE FRAME: the program runs to the end, faults nowhere, and leaves its four arguments as they were. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.1.trans (V_arg0 m c), (h c).2.2.1.trans (V_arg1 m c),
      (h c).2.2.2.1.trans (((dats m hO 0 c).arrAt_in 4 rfl _).trans ((A_eq m hO c 4).trans (V_arg2 m c))),
      (h c).2.2.2.2.trans (V_arg3 m c)⟩) (run_main m ρ hO)

/-- THE RESULT: beside the frame, the result buffer ends at the reshape of the array the pipeline computes. -/
theorem run_result (hO : Ok m) : θ_run defs (onTc (τ := τ) (main (F := F))) ⟨m, fun _ => 0, ρ⟩ (fun r => ∀ c : Dev nD,
      r.2.mem ((c.tc : Thread nD τ).loc main_v9) = StableHlo.after hostOps1 (V₁ m hO c) (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1.trans (V_arg0 m c), (h c).2.2.1.trans (V_arg1 m c),
      (h c).2.2.2.1.trans (((dats m hO 0 c).arrAt_in 4 rfl _).trans ((A_eq m hO c 4).trans (V_arg2 m c))),
      (h c).2.2.2.2.trans (V_arg3 m c)⟩) (run_main m ρ hO)

end Cert.KernelIdeal.Hand

end
-- ==== Proof.Spec.lean ====
/-
  The function both programs compute, index by index, at the extended reals.

  Sample `r` of the batch names a user row `u r` (the first input column) and an item row `it r` (the second input
  column plus 1000000, in 32-bit arithmetic) of the two tables `W` (1500000 × 1) and `V` (1500000 × 64).  The result at
  sample `r` is

      (W[u r] + W[it r] + b) + Σ_k V[u r, k] · V[it r, k].

  The rows are read as natural numbers; `InRange` says that every one of them is a row of the tables.
-/
import Idealize.ShloMosaic.PureOps.Ideal
import Idealize.ShloMosaic.Lib.ValueIdx

noncomputable section

namespace Cert.Spec

open Idealize.ShloMosaic Idealize.ShloMosaic.ValueIdx

abbrev SIn : Shape := ⟨2, ![16384, 2]⟩
abbrev SW : Shape := ⟨2, ![1500000, 1]⟩
abbrev SB : Shape := ⟨1, ![1]⟩
abbrev SV : Shape := ⟨2, ![1500000, 64]⟩
abbrev SOut : Shape := ⟨2, ![16384, 1]⟩

/-- The user row of sample `r`: the first input column, read as a natural number. -/
def uRow (inp : IVec SIn 32) (r : Fin 16384) : Nat := (inp (ix2 r (0 : Fin 2))).toNat

/-- The item row of sample `r`: the second input column plus 1000000 (32-bit addition), read as a natural number. -/
def iRow (inp : IVec SIn 32) (r : Fin 16384) : Nat := (inp (ix2 r (1 : Fin 2)) + 1000000#32).toNat

/-- Every row the samples name is a row of the tables. -/
def InRange (inp : IVec SIn 32) : Prop := ∀ r : Fin 16384, uRow inp r < 1500000 ∧ iRow inp r < 1500000

/-- A natural number as a table row (reduced modulo the row count, so that it is total; on rows in range it is the
    number itself). -/
def row (n : Nat) : Fin 1500000 := ⟨n % 1500000, Nat.mod_lt _ (by norm_num)⟩

theorem row_val_of_lt {n : Nat} (h : n < 1500000) : (row n).val = n := Nat.mod_eq_of_lt h

/-- The result at sample `r`. -/
def G (inp : IVec SIn 32) (W : FVec Ideal SW .f32) (b : FVec Ideal SB .f32) (V : FVec Ideal SV .f32) : FVec Ideal SOut .f32 :=
  fun i =>
    ((W (ix2 (row (uRow inp (i 0))) (0 : Fin 1)) + W (ix2 (row (iRow inp (i 0))) (0 : Fin 1))) + b (ix1 (0 : Fin 1)))
      + ∑ k : Fin 64, V (ix2 (row (uRow inp (i 0))) k) * V (ix2 (row (iRow inp (i 0))) k)

end Cert.Spec

end
-- ==== Proof.KEntry.lean ====
/-
  What the region finds, in terms of the launch memory.

  Nine host operations run before the region: two slices and flattenings of the input's columns and the addition of
  1000000 to the second (the two prefetched index tables), and the reshapes of the two float tables to rank 3. This
  module reads their results index by index: the tables' words, the pipeline's side condition from the rows being in
  range, the reshaped arrays, and the five input blocks the pipeline stages at a grid point. Nothing here involves a
  float operation, so everything holds at any float model.
-/
import proofs.«411096_j74337293959546_2_alg».proof.Proof.KData
import proofs.«411096_j74337293959546_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.StableHlo

variable {F : FTy → Type} [FloatOps F]

variable (m : (ℓ : Loc nD τ sig) → Buf (Elt F) ℓ)

/-! ## The arguments, as launched -/

/-- The batch of (user, item) pairs on core `c`; -/
abbrev arrIn (c : Dev nD) : IVec S16384x2 32 := m ((c : Thread nD τ).loc main_arg0)
/-- the weight table, -/
abbrev arrW (c : Dev nD) : Vec F S1500000x1 .f32 := m ((c : Thread nD τ).loc main_arg1)
/-- the bias, -/
abbrev arrB (c : Dev nD) : Vec F S1 .f32 := m ((c : Thread nD τ).loc main_arg2)
/-- and the factor table. -/
abbrev arrV (c : Dev nD) : Vec F S1500000x64 .f32 := m ((c : Thread nD τ).loc main_arg3)

/-! ## The tables' words -/

/-- The user table as the host operations' term: the first input column, sliced and flattened. -/
theorem V_v1 (c : Dev nD) : (V m c main_v1 : S16384.Idx → BitVec 32)
    = shapeCast S16384 (extractStridedSlice S16384x1 ![0, 0] (arrIn m c) slices_S16384x2_S16384x1_0_0) shapeCasts_S16384x1_S16384 := by
  dsimp only [V, hostOps0]; after_results; rfl

/-- The item table as the host operations' term: the second input column, sliced and flattened, plus the broadcast constant. -/
theorem V_v5 (c : Dev nD) : (V m c main_v5 : S16384.Idx → BitVec 32)
    = addi (shapeCast S16384 (extractStridedSlice S16384x1 ![0, 1] (arrIn m c) slices_S16384x2_S16384x1_0_1) shapeCasts_S16384x1_S16384)
        (broadcastInDim S16384 ![] bcast_S_S16384 (constantI S_ 32 1000000#32)) := by
  dsimp only [V, hostOps0]; after_results; rfl

/-- A column of a two-column matrix, flattened, reads the matrix at that column: the flattening of an `[n, 1]` array
    is the identity on the row coordinate (row-major position `r * 1 + 0 = r`). -/
theorem flat_col_apply (X : IVec S16384x2 32) (o : Nat) (h : S16384x2.Slices ![0, o] S16384x1) (k : Fin 2) (hk : k.val = o + 0)
    (r : Fin 16384) :
    shapeCast S16384 (extractStridedSlice S16384x1 ![0, o] X h) shapeCasts_S16384x1_S16384 (ix1 r) = X (ix2 r k) := by
  rw [shapeCast_apply _ shapeCasts_S16384x1_S16384 (ix1 r) (ix2 r (0 : Fin 1))
    (by rw [Shape.rowMajor_val_two, Shape.rowMajor_val_one]; show r.val * 1 + 0 = r.val; omega)]
  exact slice2_axis1_apply o X h r (0 : Fin 1) k hk

theorem V_v1_apply (c : Dev nD) (r : Fin 16384) :
    (V m c main_v1 : S16384.Idx → BitVec 32) (ix1 r) = arrIn m c (ix2 r (0 : Fin 2)) := by
  rw [V_v1]; exact flat_col_apply _ 0 _ 0 rfl r

theorem V_v5_apply (c : Dev nD) (r : Fin 16384) :
    (V m c main_v5 : S16384.Idx → BitVec 32) (ix1 r) = arrIn m c (ix2 r (1 : Fin 2)) + 1000000#32 := by
  rw [V_v5]
  show IntOp.addi _ _ = _
  rw [flat_col_apply _ 1 _ 1 rfl r,
    broadcastInDim_apply _ bcast_S_S16384 (constantI S_ 32 1000000#32) (ix1 r) (fun a => a.elim0) (fun a => a.elim0)]
  rfl

/-- (E1) The user table's word at sample `r` is the first input column there; -/
theorem tbl0_apply (r : Fin 16384) : (tbl m 0 : S16384.Idx → BitVec 32) (ix1 r) = arrIn m 0 (ix2 r (0 : Fin 2)) :=
  V_v1_apply m 0 r

/-- and the item table's is the second input column there plus 1000000, in 32-bit arithmetic. -/
theorem tbl1_apply (r : Fin 16384) : (tbl m 1 : S16384.Idx → BitVec 32) (ix1 r) = arrIn m 0 (ix2 r (1 : Fin 2)) + 1000000#32 :=
  V_v5_apply m 0 r

/-! ## The side condition -/

/-- The sample a grid point names. -/
abbrev smp (i : grid0.Coords) : Fin 16384 := ⟨(i 0).val, (i 0).isLt⟩

/-- The index at which an index map reads a table at point `i` is the sample's: the grid coordinate, below 2³², survives
    the round trip through a 32-bit word, and the unit rectangle's one index sits at its offset. -/
theorem tix_eq (i : grid0.Coords) (inb : ∀ a, (![(Scalar.indexCast (BitVec.ofNat 32 (i 0).val)).toNat] : Fin 1 → Nat) a + S1.size a ≤ S16384.size a)
    (h1 : 0 < S1.numel) :
    (Rect.unit (s := S16384) ![(Scalar.indexCast (BitVec.ofNat 32 (i 0).val)).toNat] S1.size inb).emb (Shape.Idx.first h1) = ix1 (smp i) := by
  funext a
  apply Fin.ext
  fin_cases a
  show (BitVec.ofNat 32 (i 0).val).toNat + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := rfl
    omega
  have hi : (i 0).val < 16384 := (i 0).isLt
  rw [h0, BitVec.toNat_ofNat, Nat.mod_eq_of_lt (by omega)]
  omega

/-- What an index map reads of table 0 (of table 1) at point `i`: the table at the sample. -/
theorem at0_eq (pf : pre0.Contents (Elt F)) (i : grid0.Coords)
    (inb : ∀ a, (![(Scalar.indexCast (BitVec.ofNat 32 (i 0).val)).toNat] : Fin 1 → Nat) a + S1.size a ≤ S16384.size a) :
    pf.at 0 (Rect.unit (s := S16384) ![(Scalar.indexCast (BitVec.ofNat 32 (i 0).val)).toNat] S1.size inb) numel1_S1
      = (pf 0 : S16384.Idx → BitVec 32) (ix1 (smp i)) :=
  congrArg (pf 0 : S16384.Idx → BitVec 32) (tix_eq i inb _)
theorem at1_eq (pf : pre0.Contents (Elt F)) (i : grid0.Coords)
    (inb : ∀ a, (![(Scalar.indexCast (BitVec.ofNat 32 (i 0).val)).toNat] : Fin 1 → Nat) a + S1.size a ≤ S16384.size a) :
    pf.at 1 (Rect.unit (s := S16384) ![(Scalar.indexCast (BitVec.ofNat 32 (i 0).val)).toNat] S1.size inb) numel1_S1
      = (pf 1 : S16384.Idx → BitVec 32) (ix1 (smp i)) :=
  congrArg (pf 1 : S16384.Idx → BitVec 32) (tix_eq i inb _)

/-- The index maps of the four table-indexed windows, at ANY contents of the tables: the table's word at the sample, then zeros. -/
theorem transform0_eq (pf : pre0.Contents (Elt F)) (i : grid0.Coords) :
    cc0_transform_0 k0_off1_inb numel1_S1 pf i = ![((pf 0 : S16384.Idx → BitVec 32) (ix1 (smp i))).toNat, 0, 0] :=
  congrArg (fun w : BitVec 32 => (![w.toNat, 0, 0] : Fin 3 → Nat)) (at0_eq pf i (k0_off1_inb i))
theorem transform1_eq (pf : pre0.Contents (Elt F)) (i : grid0.Coords) :
    cc0_transform_1 k0_off1_inb numel1_S1 pf i = ![((pf 1 : S16384.Idx → BitVec 32) (ix1 (smp i))).toNat, 0, 0] :=
  congrArg (fun w : BitVec 32 => (![w.toNat, 0, 0] : Fin 3 → Nat)) (at1_eq pf i (k0_off1_inb i))
theorem transform2_eq (pf : pre0.Contents (Elt F)) (i : grid0.Coords) :
    cc0_transform_2 k0_off1_inb numel1_S1 pf i = ![((pf 0 : S16384.Idx → BitVec 32) (ix1 (smp i))).toNat, 0, 0] :=
  congrArg (fun w : BitVec 32 => (![w.toNat, 0, 0] : Fin 3 → Nat)) (at0_eq pf i (k0_off1_inb i))
theorem transform3_eq (pf : pre0.Contents (Elt F)) (i : grid0.Coords) :
    cc0_transform_3 k0_off1_inb numel1_S1 pf i = ![((pf 1 : S16384.Idx → BitVec 32) (ix1 (smp i))).toNat, 0, 0] :=
  congrArg (fun w : BitVec 32 => (![w.toNat, 0, 0] : Fin 3 → Nat)) (at1_eq pf i (k0_off1_inb i))

/-- A one-row block at row `w < 1500000` lies inside a 1500000-row array. -/
theorem blk_inb_1 (w : Nat) (hw : w < 1500000) (a : Fin 3) : ((![w, 0, 0] : Fin 3 → Nat) a + 1) * S1x1x1.size a ≤ S1500000x1x1.size a := by
  fin_cases a
  · show (w + 1) * 1 ≤ 1500000; omega
  · show (0 + 1) * 1 ≤ 1; omega
  · show (0 + 1) * 1 ≤ 1; omega
theorem blk_inb_64 (w : Nat) (hw : w < 1500000) (a : Fin 3) : ((![w, 0, 0] : Fin 3 → Nat) a + 1) * S1x1x64.size a ≤ S1500000x1x64.size a := by
  fin_cases a
  · show (w + 1) * 1 ≤ 1500000; omega
  · show (0 + 1) * 1 ≤ 1; omega
  · show (0 + 1) * 64 ≤ 64; omega

/-- (E2) When every row the samples name is a row of the tables, every table-indexed block lies inside its array. -/
theorem ok_of_inRange (h : Cert.Spec.InRange (arrIn m 0)) : Ok m := by
  have hu : ∀ i : grid0.Coords, ((tbl m 0 : S16384.Idx → BitVec 32) (ix1 (smp i))).toNat < 1500000 := fun i => by
    rw [tbl0_apply]; exact (h (smp i)).1
  have hi : ∀ i : grid0.Coords, ((tbl m 1 : S16384.Idx → BitVec 32) (ix1 (smp i))).toNat < 1500000 := fun i => by
    rw [tbl1_apply]; exact (h (smp i)).2
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [transform0_eq]; exact blk_inb_1 _ (hu i) a
  · rw [transform1_eq]; exact blk_inb_1 _ (hi i) a
  · rw [transform2_eq]; exact blk_inb_64 _ (hu i) a
  · rw [transform3_eq]; exact blk_inb_64 _ (hi i) a

/-! ## The reshaped arrays, and the bias -/

/-- The weight table reshaped to rank 3, as the host operations' term; -/
theorem V_v6 (c : Dev nD) : (V m c main_v6 : S1500000x1x1.Idx → Elt F .f32)
    = shapeCast S1500000x1x1 (arrW m c) shapeCasts_S1500000x1_S1500000x1x1 := by
  dsimp only [V, hostOps0]; after_results; rfl

/-- and the factor table. -/
theorem V_v7 (c : Dev nD) : (V m c main_v7 : S1500000x1x64.Idx → Elt F .f32)
    = shapeCast S1500000x1x64 (arrV m c) shapeCasts_S1500000x64_S1500000x1x64 := by
  dsimp only [V, hostOps0]; after_results; rfl

/-- (E3) Row `a` of the reshaped weight table is row `a` of the weight table (row-major positions `(a·1+0)·1+0 = a·1+0`); -/
theorem V_v6_apply (c : Dev nD) (a : Fin 1500000) :
    (V m c main_v6 : S1500000x1x1.Idx → Elt F .f32) (ix3 a (0 : Fin 1) (0 : Fin 1)) = arrW m c (ix2 a (0 : Fin 1)) := by
  rw [V_v6]
  exact shapeCast_apply _ shapeCasts_S1500000x1_S1500000x1x1 _ _
    (by rw [Shape.rowMajor_val_two, Shape.rowMajor_val_three]; show a.val * 1 + 0 = (a.val * 1 + 0) * 1 + 0; omega)

/-- row `a`, column `k` of the reshaped factor table is that entry of the factor table (`(a·1+0)·64+k = a·64+k`); -/
theorem V_v7_apply (c : Dev nD) (a : Fin 1500000) (k : Fin 64) :
    (V m c main_v7 : S1500000x1x64.Idx → Elt F .f32) (ix3 a (0 : Fin 1) k) = arrV m c (ix2 a k) := by
  rw [V_v7]
  exact shapeCast_apply _ shapeCasts_S1500000x64_S1500000x1x64 _ _
    (by rw [Shape.rowMajor_val_two, Shape.rowMajor_val_three]; show a.val * 64 + k.val = (a.val * 1 + 0) * 64 + k.val; omega)

/-- and no host operation writes the bias. -/
theorem V_arg2_arrB (c : Dev nD) : (V m c main_arg2 : S1.Idx → Elt F .f32) = arrB m c := by
  dsimp only [V, hostOps0]; after_results

/-! ## The five input blocks at a point -/

/-- The grid is one axis of 16384 points: a point's coordinate is its number. -/
theorem coords_val_pt (t : Fin grid0.N) : (grid0.coords t 0).val = t.val := by
  have ht : t.val < 16384 := lt_of_lt_of_eq t.isLt N_0
  show t.val / grid0.stride 0 % grid0.bound 0 = t.val
  rw [show grid0.stride 0 = 1 from rfl, show grid0.bound 0 = 16384 from rfl, Nat.div_one, Nat.mod_eq_of_lt ht]

/-- So the sample a point names is the point's number (at ANY contents of the tables: the grid does not depend on them). -/
theorem smp_coords (a : (pcfg0 (F := F)).Adm) (t : Fin (cfg0 a).N) (r : Fin 16384) (hr : r.val = t.val) :
    smp (grid0.coords t) = r := by
  apply Fin.ext
  show (grid0.coords t 0).val = r.val
  rw [hr]; exact coords_val_pt t

/-- Window 0's block at point `t`, read off any contents `A` of its array, at ANY contents of the tables: when the user
    table's word at the point's sample is row `w`, the block's one element is the array's at row `w` (a block's coordinate
    is index × size + the coordinate inside the block). -/
theorem blk0_row (a : (pcfg0 (F := F)).Adm) (t : Fin (cfg0 a).N) (A : (((cfg0 a).win 0).blk t).view.ty.Contents (Elt F))
    (w : Fin 1500000) (hw : ((a.1 0 : S16384.Idx → BitVec 32) (ix1 (smp (grid0.coords t)))).toNat = w.val) :
    (((cfg0 a).win 0).blk t).view.read (Elt F) A (ix3 (0 : Fin 1) (0 : Fin 1) (0 : Fin 1)) = A (ix3 w (0 : Fin 1) (0 : Fin 1)) := by
  show A ((((cfg0 a).win 0).blk t).view.emb (ix3 (0 : Fin 1) (0 : Fin 1) (0 : Fin 1))) = A (ix3 w (0 : Fin 1) (0 : Fin 1))
  refine congrArg A (funext fun ax => Fin.ext ?_)
  show cc0_transform_0 k0_off1_inb numel1_S1 a.1 (grid0.coords t) ax * S1x1x1.size ax
      + 1 * ((ix3 (0 : Fin 1) (0 : Fin 1) (0 : Fin 1) : S1x1x1.Idx) ax).val = ((ix3 w (0 : Fin 1) (0 : Fin 1) : S1500000x1x1.Idx) ax).val
  rw [transform0_eq, hw]
  match ax with
  | ⟨0, _⟩ => show w.val * 1 + 1 * 0 = w.val; omega
  | ⟨1, _⟩ => rfl
  | ⟨2, _⟩ => rfl

/-- Window 1's, with the item table. -/
theorem blk1_row (a : (pcfg0 (F := F)).Adm) (t : Fin (cfg0 a).N) (A : (((cfg0 a).win 1).blk t).view.ty.Contents (Elt F))
    (w : Fin 1500000) (hw : ((a.1 1 : S16384.Idx → BitVec 32) (ix1 (smp (grid0.coords t)))).toNat = w.val) :
    (((cfg0 a).win 1).blk t).view.read (Elt F) A (ix3 (0 : Fin 1) (0 : Fin 1) (0 : Fin 1)) = A (ix3 w (0 : Fin 1) (0 : Fin 1)) := by
  show A ((((cfg0 a).win 1).blk t).view.emb (ix3 (0 : Fin 1) (0 : Fin 1) (0 : Fin 1))) = A (ix3 w (0 : Fin 1) (0 : Fin 1))
  refine congrArg A (funext fun ax => Fin.ext ?_)
  show cc0_transform_1 k0_off1_inb numel1_S1 a.1 (grid0.coords t) ax * S1x1x1.size ax
      + 1 * ((ix3 (0 : Fin 1) (0 : Fin 1) (0 : Fin 1) : S1x1x1.Idx) ax).val = ((ix3 w (0 : Fin 1) (0 : Fin 1) : S1500000x1x1.Idx) ax).val
  rw [transform1_eq, hw]
  match ax with
  | ⟨0, _⟩ => show w.val * 1 + 1 * 0 = w.val; omega
  | ⟨1, _⟩ => rfl
  | ⟨2, _⟩ => rfl

/-- Window 2's block is a 64-wide row: its element `k` is the array's at row `w`, column `k`. -/
theorem blk2_row (a : (pcfg0 (F := F)).Adm) (t : Fin (cfg0 a).N) (A : (((cfg0 a).win 2).blk t).view.ty.Contents (Elt F))
    (w : Fin 1500000) (hw : ((a.1 0 : S16384.Idx → BitVec 32) (ix1 (smp (grid0.coords t)))).toNat = w.val) (k : Fin 64) :
    (((cfg0 a).win 2).blk t).view.read (Elt F) A (ix3 (0 : Fin 1) (0 : Fin 1) k) = A (ix3 w (0 : Fin 1) k) := by
  show A ((((cfg0 a).win 2).blk t).view.emb (ix3 (0 : Fin 1) (0 : Fin 1) k)) = A (ix3 w (0 : Fin 1) k)
  refine congrArg A (funext fun ax => Fin.ext ?_)
  show cc0_transform_2 k0_off1_inb numel1_S1 a.1 (grid0.coords t) ax * S1x1x64.size ax
      + 1 * ((ix3 (0 : Fin 1) (0 : Fin 1) k : S1x1x64.Idx) ax).val = ((ix3 w (0 : Fin 1) k : S1500000x1x64.Idx) ax).val
  rw [transform2_eq, hw]
  match ax with
  | ⟨0, _⟩ => show w.val * 1 + 1 * 0 = w.val; omega
  | ⟨1, _⟩ => rfl
  | ⟨2, _⟩ => show 0 * 64 + 1 * k.val = k.val; omega

/-- Window 3's, with the item table. -/
theorem blk3_row (a : (pcfg0 (F := F)).Adm) (t : Fin (cfg0 a).N) (A : (((cfg0 a).win 3).blk t).view.ty.Contents (Elt F))
    (w : Fin 1500000) (hw : ((a.1 1 : S16384.Idx → BitVec 32) (ix1 (smp (grid0.coords t)))).toNat = w.val) (k : Fin 64) :
    (((cfg0 a).win 3).blk t).view.read (Elt F) A (ix3 (0 : Fin 1) (0 : Fin 1) k) = A (ix3 w (0 : Fin 1) k) := by
  show A ((((cfg0 a).win 3).blk t).view.emb (ix3 (0 : Fin 1) (0 : Fin 1) k)) = A (ix3 w (0 : Fin 1) k)
  refine congrArg A (funext fun ax => Fin.ext ?_)
  show cc0_transform_3 k0_off1_inb numel1_S1 a.1 (grid0.coords t) ax * S1x1x64.size ax
      + 1 * ((ix3 (0 : Fin 1) (0 : Fin 1) k : S1x1x64.Idx) ax).val = ((ix3 w (0 : Fin 1) k : S1500000x1x64.Idx) ax).val
  rw [transform3_eq, hw]
  match ax with
  | ⟨0, _⟩ => show w.val * 1 + 1 * 0 = w.val; omega
  | ⟨1, _⟩ => rfl
  | ⟨2, _⟩ => show 0 * 64 + 1 * k.val = k.val; omega

/-- Window 4's block is the whole one-element bias at every point. -/
theorem blk4_all (a : (pcfg0 (F := F)).Adm) (t : Fin (cfg0 a).N) (A : (((cfg0 a).win 4).blk t).view.ty.Contents (Elt F)) :
    (((cfg0 a).win 4).blk t).view.read (Elt F) A (ix1 (0 : Fin 1)) = A (ix1 (0 : Fin 1)) := by
  show A ((((cfg0 a).win 4).blk t).view.emb (ix1 (0 : Fin 1))) = A (ix1 (0 : Fin 1))
  refine congrArg A (funext fun ax => Fin.ext ?_)
  show cc0_transform_4 (grid0.coords t) ax * S1.size ax + 1 * ((ix1 (0 : Fin 1) : S1.Idx) ax).val = ((ix1 (0 : Fin 1) : S1.Idx) ax).val
  match ax with
  | ⟨0, _⟩ => rfl

/-- The tables' words at point `t` are the rows of sample `r = t`. -/
theorem word0_at (hO : Ok m) (t : Fin (cfgM m hO).N) (r : Fin 16384) (hr : r.val = t.val) :
    ((tbl m 0 : S16384.Idx → BitVec 32) (ix1 (smp (grid0.coords t)))).toNat = Cert.Spec.uRow (arrIn m 0) r := by
  rw [smp_coords (adm m hO 0) t r hr, tbl0_apply]; rfl
theorem word1_at (hO : Ok m) (t : Fin (cfgM m hO).N) (r : Fin 16384) (hr : r.val = t.val) :
    ((tbl m 1 : S16384.Idx → BitVec 32) (ix1 (smp (grid0.coords t)))).toNat = Cert.Spec.iRow (arrIn m 0) r := by
  rw [smp_coords (adm m hO 0) t r hr, tbl1_apply]; rfl

/-- (E4) At point `t`, sample `r = t`: the first staged block is the weight of the user row, -/
theorem wu_apply (hO : Ok m) (hin : Cert.Spec.InRange (arrIn m 0)) (c : Dev nD) (t : Fin (cfgM m hO).N) (r : Fin 16384) (hr : r.val = t.val) :
    wu m hO c t (ix3 (0 : Fin 1) (0 : Fin 1) (0 : Fin 1)) = arrW m c (ix2 (Cert.Spec.row (Cert.Spec.uRow (arrIn m 0) r)) (0 : Fin 1)) :=
  (blk0_row (adm m hO 0) t (V m c (Pipeline.arrRef spec0 0)) (Cert.Spec.row (Cert.Spec.uRow (arrIn m 0) r))
    ((word0_at m hO t r hr).trans (Cert.Spec.row_val_of_lt (hin r).1).symm)).trans (V_v6_apply m c _)

/-- the second the weight of the item row, -/
theorem wi_apply (hO : Ok m) (hin : Cert.Spec.InRange (arrIn m 0)) (c : Dev nD) (t : Fin (cfgM m hO).N) (r : Fin 16384) (hr : r.val = t.val) :
    wi m hO c t (ix3 (0 : Fin 1) (0 : Fin 1) (0 : Fin 1)) = arrW m c (ix2 (Cert.Spec.row (Cert.Spec.iRow (arrIn m 0) r)) (0 : Fin 1)) :=
  (blk1_row (adm m hO 0) t (V m c (Pipeline.arrRef spec0 1)) (Cert.Spec.row (Cert.Spec.iRow (arrIn m 0) r))
    ((word1_at m hO t r hr).trans (Cert.Spec.row_val_of_lt (hin r).2).symm)).trans (V_v6_apply m c _)

/-- the third the user row of the factor table, -/
theorem vu_apply (hO : Ok m) (hin : Cert.Spec.InRange (arrIn m 0)) (c : Dev nD) (t : Fin (cfgM m hO).N) (r : Fin 16384) (hr : r.val = t.val) (k : Fin 64) :
    vu m hO c t (ix3 (0 : Fin 1) (0 : Fin 1) k) = arrV m c (ix2 (Cert.Spec.row (Cert.Spec.uRow (arrIn m 0) r)) k) :=
  (blk2_row (adm m hO 0) t (V m c (Pipeline.arrRef spec0 2)) (Cert.Spec.row (Cert.Spec.uRow (arrIn m 0) r))
    ((word0_at m hO t r hr).trans (Cert.Spec.row_val_of_lt (hin r).1).symm) k).trans (V_v7_apply m c _ k)

/-- the fourth the item row of the factor table, -/
theorem vi_apply (hO : Ok m) (hin : Cert.Spec.InRange (arrIn m 0)) (c : Dev nD) (t : Fin (cfgM m hO).N) (r : Fin 16384) (hr : r.val = t.val) (k : Fin 64) :
    vi m hO c t (ix3 (0 : Fin 1) (0 : Fin 1) k) = arrV m c (ix2 (Cert.Spec.row (Cert.Spec.iRow (arrIn m 0) r)) k) :=
  (blk3_row (adm m hO 0) t (V m c (Pipeline.arrRef spec0 3)) (Cert.Spec.row (Cert.Spec.iRow (arrIn m 0) r))
    ((word1_at m hO t r hr).trans (Cert.Spec.row_val_of_lt (hin r).2).symm) k).trans (V_v7_apply m c _ k)

/-- and the fifth the bias. -/
theorem bb_apply (hO : Ok m) (c : Dev nD) (t : Fin (cfgM m hO).N) :
    bb m hO c t (ix1 (0 : Fin 1)) = arrB m c (ix1 (0 : Fin 1)) :=
  (blk4_all (adm m hO 0) t (V m c (Pipeline.arrRef spec0 4))).trans (congrFun (V_arg2_arrB m c) _)

end Cert.Kernel.Hand

end
-- ==== Proof.KIEntry.lean ====
/-
  What the region finds, in terms of the launch memory.

  Nine host operations run before the region: two slices and flattenings of the input's columns and the addition of
  1000000 to the second (the two prefetched index tables), and the reshapes of the two float tables to rank 3. This
  module reads their results index by index: the tables' words, the pipeline's side condition from the rows being in
  range, the reshaped arrays, and the five input blocks the pipeline stages at a grid point. Nothing here involves a
  float operation, so everything holds at any float model.
-/
import proofs.«411096_j74337293959546_2_alg».proof.Proof.KIData
import proofs.«411096_j74337293959546_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo

variable {F : FTy → Type} [FloatOps F]

variable (m : (ℓ : Loc nD τ sig) → Buf (Elt F) ℓ)

/-! ## The arguments, as launched -/

/-- The batch of (user, item) pairs on core `c`; -/
abbrev arrIn (c : Dev nD) : IVec S16384x2 32 := m ((c : Thread nD τ).loc main_arg0)
/-- the weight table, -/
abbrev arrW (c : Dev nD) : Vec F S1500000x1 .f32 := m ((c : Thread nD τ).loc main_arg1)
/-- the bias, -/
abbrev arrB (c : Dev nD) : Vec F S1 .f32 := m ((c : Thread nD τ).loc main_arg2)
/-- and the factor table. -/
abbrev arrV (c : Dev nD) : Vec F S1500000x64 .f32 := m ((c : Thread nD τ).loc main_arg3)

/-! ## The tables' words -/

/-- The user table as the host operations' term: the first input column, sliced and flattened. -/
theorem V_v1 (c : Dev nD) : (V m c main_v1 : S16384.Idx → BitVec 32)
    = shapeCast S16384 (extractStridedSlice S16384x1 ![0, 0] (arrIn m c) slices_S16384x2_S16384x1_0_0) shapeCasts_S16384x1_S16384 := by
  dsimp only [V, hostOps0]; after_results; rfl

/-- The item table as the host operations' term: the second input column, sliced and flattened, plus the broadcast constant. -/
theorem V_v5 (c : Dev nD) : (V m c main_v5 : S16384.Idx → BitVec 32)
    = addi (shapeCast S16384 (extractStridedSlice S16384x1 ![0, 1] (arrIn m c) slices_S16384x2_S16384x1_0_1) shapeCasts_S16384x1_S16384)
        (broadcastInDim S16384 ![] bcast_S_S16384 (constantI S_ 32 1000000#32)) := by
  dsimp only [V, hostOps0]; after_results; rfl

/-- A column of a two-column matrix, flattened, reads the matrix at that column: the flattening of an `[n, 1]` array
    is the identity on the row coordinate (row-major position `r * 1 + 0 = r`). -/
theorem flat_col_apply (X : IVec S16384x2 32) (o : Nat) (h : S16384x2.Slices ![0, o] S16384x1) (k : Fin 2) (hk : k.val = o + 0)
    (r : Fin 16384) :
    shapeCast S16384 (extractStridedSlice S16384x1 ![0, o] X h) shapeCasts_S16384x1_S16384 (ix1 r) = X (ix2 r k) := by
  rw [shapeCast_apply _ shapeCasts_S16384x1_S16384 (ix1 r) (ix2 r (0 : Fin 1))
    (by rw [Shape.rowMajor_val_two, Shape.rowMajor_val_one]; show r.val * 1 + 0 = r.val; omega)]
  exact slice2_axis1_apply o X h r (0 : Fin 1) k hk

theorem V_v1_apply (c : Dev nD) (r : Fin 16384) :
    (V m c main_v1 : S16384.Idx → BitVec 32) (ix1 r) = arrIn m c (ix2 r (0 : Fin 2)) := by
  rw [V_v1]; exact flat_col_apply _ 0 _ 0 rfl r

theorem V_v5_apply (c : Dev nD) (r : Fin 16384) :
    (V m c main_v5 : S16384.Idx → BitVec 32) (ix1 r) = arrIn m c (ix2 r (1 : Fin 2)) + 1000000#32 := by
  rw [V_v5]
  show IntOp.addi _ _ = _
  rw [flat_col_apply _ 1 _ 1 rfl r,
    broadcastInDim_apply _ bcast_S_S16384 (constantI S_ 32 1000000#32) (ix1 r) (fun a => a.elim0) (fun a => a.elim0)]
  rfl

/-- (E1) The user table's word at sample `r` is the first input column there; -/
theorem tbl0_apply (r : Fin 16384) : (tbl m 0 : S16384.Idx → BitVec 32) (ix1 r) = arrIn m 0 (ix2 r (0 : Fin 2)) :=
  V_v1_apply m 0 r

/-- and the item table's is the second input column there plus 1000000, in 32-bit arithmetic. -/
theorem tbl1_apply (r : Fin 16384) : (tbl m 1 : S16384.Idx → BitVec 32) (ix1 r) = arrIn m 0 (ix2 r (1 : Fin 2)) + 1000000#32 :=
  V_v5_apply m 0 r

/-! ## The side condition -/

/-- The sample a grid point names. -/
abbrev smp (i : grid0.Coords) : Fin 16384 := ⟨(i 0).val, (i 0).isLt⟩

/-- The index at which an index map reads a table at point `i` is the sample's: the grid coordinate, below 2³², survives
    the round trip through a 32-bit word, and the unit rectangle's one index sits at its offset. -/
theorem tix_eq (i : grid0.Coords) (inb : ∀ a, (![(Scalar.indexCast (BitVec.ofNat 32 (i 0).val)).toNat] : Fin 1 → Nat) a + S1.size a ≤ S16384.size a)
    (h1 : 0 < S1.numel) :
    (Rect.unit (s := S16384) ![(Scalar.indexCast (BitVec.ofNat 32 (i 0).val)).toNat] S1.size inb).emb (Shape.Idx.first h1) = ix1 (smp i) := by
  funext a
  apply Fin.ext
  fin_cases a
  show (BitVec.ofNat 32 (i 0).val).toNat + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := rfl
    omega
  have hi : (i 0).val < 16384 := (i 0).isLt
  rw [h0, BitVec.toNat_ofNat, Nat.mod_eq_of_lt (by omega)]
  omega

/-- What an index map reads of table 0 (of table 1) at point `i`: the table at the sample. -/
theorem at0_eq (pf : pre0.Contents (Elt F)) (i : grid0.Coords)
    (inb : ∀ a, (![(Scalar.indexCast (BitVec.ofNat 32 (i 0).val)).toNat] : Fin 1 → Nat) a + S1.size a ≤ S16384.size a) :
    pf.at 0 (Rect.unit (s := S16384) ![(Scalar.indexCast (BitVec.ofNat 32 (i 0).val)).toNat] S1.size inb) numel1_S1
      = (pf 0 : S16384.Idx → BitVec 32) (ix1 (smp i)) :=
  congrArg (pf 0 : S16384.Idx → BitVec 32) (tix_eq i inb _)
theorem at1_eq (pf : pre0.Contents (Elt F)) (i : grid0.Coords)
    (inb : ∀ a, (![(Scalar.indexCast (BitVec.ofNat 32 (i 0).val)).toNat] : Fin 1 → Nat) a + S1.size a ≤ S16384.size a) :
    pf.at 1 (Rect.unit (s := S16384) ![(Scalar.indexCast (BitVec.ofNat 32 (i 0).val)).toNat] S1.size inb) numel1_S1
      = (pf 1 : S16384.Idx → BitVec 32) (ix1 (smp i)) :=
  congrArg (pf 1 : S16384.Idx → BitVec 32) (tix_eq i inb _)

/-- The index maps of the four table-indexed windows, at ANY contents of the tables: the table's word at the sample, then zeros. -/
theorem transform0_eq (pf : pre0.Contents (Elt F)) (i : grid0.Coords) :
    cc0_transform_0 k0_off1_inb numel1_S1 pf i = ![((pf 0 : S16384.Idx → BitVec 32) (ix1 (smp i))).toNat, 0, 0] :=
  congrArg (fun w : BitVec 32 => (![w.toNat, 0, 0] : Fin 3 → Nat)) (at0_eq pf i (k0_off1_inb i))
theorem transform1_eq (pf : pre0.Contents (Elt F)) (i : grid0.Coords) :
    cc0_transform_1 k0_off1_inb numel1_S1 pf i = ![((pf 1 : S16384.Idx → BitVec 32) (ix1 (smp i))).toNat, 0, 0] :=
  congrArg (fun w : BitVec 32 => (![w.toNat, 0, 0] : Fin 3 → Nat)) (at1_eq pf i (k0_off1_inb i))
theorem transform2_eq (pf : pre0.Contents (Elt F)) (i : grid0.Coords) :
    cc0_transform_2 k0_off1_inb numel1_S1 pf i = ![((pf 0 : S16384.Idx → BitVec 32) (ix1 (smp i))).toNat, 0, 0] :=
  congrArg (fun w : BitVec 32 => (![w.toNat, 0, 0] : Fin 3 → Nat)) (at0_eq pf i (k0_off1_inb i))
theorem transform3_eq (pf : pre0.Contents (Elt F)) (i : grid0.Coords) :
    cc0_transform_3 k0_off1_inb numel1_S1 pf i = ![((pf 1 : S16384.Idx → BitVec 32) (ix1 (smp i))).toNat, 0, 0] :=
  congrArg (fun w : BitVec 32 => (![w.toNat, 0, 0] : Fin 3 → Nat)) (at1_eq pf i (k0_off1_inb i))

/-- A one-row block at row `w < 1500000` lies inside a 1500000-row array. -/
theorem blk_inb_1 (w : Nat) (hw : w < 1500000) (a : Fin 3) : ((![w, 0, 0] : Fin 3 → Nat) a + 1) * S1x1x1.size a ≤ S1500000x1x1.size a := by
  fin_cases a
  · show (w + 1) * 1 ≤ 1500000; omega
  · show (0 + 1) * 1 ≤ 1; omega
  · show (0 + 1) * 1 ≤ 1; omega
theorem blk_inb_64 (w : Nat) (hw : w < 1500000) (a : Fin 3) : ((![w, 0, 0] : Fin 3 → Nat) a + 1) * S1x1x64.size a ≤ S1500000x1x64.size a := by
  fin_cases a
  · show (w + 1) * 1 ≤ 1500000; omega
  · show (0 + 1) * 1 ≤ 1; omega
  · show (0 + 1) * 64 ≤ 64; omega

/-- (E2) When every row the samples name is a row of the tables, every table-indexed block lies inside its array. -/
theorem ok_of_inRange (h : Cert.Spec.InRange (arrIn m 0)) : Ok m := by
  have hu : ∀ i : grid0.Coords, ((tbl m 0 : S16384.Idx → BitVec 32) (ix1 (smp i))).toNat < 1500000 := fun i => by
    rw [tbl0_apply]; exact (h (smp i)).1
  have hi : ∀ i : grid0.Coords, ((tbl m 1 : S16384.Idx → BitVec 32) (ix1 (smp i))).toNat < 1500000 := fun i => by
    rw [tbl1_apply]; exact (h (smp i)).2
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [transform0_eq]; exact blk_inb_1 _ (hu i) a
  · rw [transform1_eq]; exact blk_inb_1 _ (hi i) a
  · rw [transform2_eq]; exact blk_inb_64 _ (hu i) a
  · rw [transform3_eq]; exact blk_inb_64 _ (hi i) a

/-! ## The reshaped arrays, and the bias -/

/-- The weight table reshaped to rank 3, as the host operations' term; -/
theorem V_v6 (c : Dev nD) : (V m c main_v6 : S1500000x1x1.Idx → Elt F .f32)
    = shapeCast S1500000x1x1 (arrW m c) shapeCasts_S1500000x1_S1500000x1x1 := by
  dsimp only [V, hostOps0]; after_results; rfl

/-- and the factor table. -/
theorem V_v7 (c : Dev nD) : (V m c main_v7 : S1500000x1x64.Idx → Elt F .f32)
    = shapeCast S1500000x1x64 (arrV m c) shapeCasts_S1500000x64_S1500000x1x64 := by
  dsimp only [V, hostOps0]; after_results; rfl

/-- (E3) Row `a` of the reshaped weight table is row `a` of the weight table (row-major positions `(a·1+0)·1+0 = a·1+0`); -/
theorem V_v6_apply (c : Dev nD) (a : Fin 1500000) :
    (V m c main_v6 : S1500000x1x1.Idx → Elt F .f32) (ix3 a (0 : Fin 1) (0 : Fin 1)) = arrW m c (ix2 a (0 : Fin 1)) := by
  rw [V_v6]
  exact shapeCast_apply _ shapeCasts_S1500000x1_S1500000x1x1 _ _
    (by rw [Shape.rowMajor_val_two, Shape.rowMajor_val_three]; show a.val * 1 + 0 = (a.val * 1 + 0) * 1 + 0; omega)

/-- row `a`, column `k` of the reshaped factor table is that entry of the factor table (`(a·1+0)·64+k = a·64+k`); -/
theorem V_v7_apply (c : Dev nD) (a : Fin 1500000) (k : Fin 64) :
    (V m c main_v7 : S1500000x1x64.Idx → Elt F .f32) (ix3 a (0 : Fin 1) k) = arrV m c (ix2 a k) := by
  rw [V_v7]
  exact shapeCast_apply _ shapeCasts_S1500000x64_S1500000x1x64 _ _
    (by rw [Shape.rowMajor_val_two, Shape.rowMajor_val_three]; show a.val * 64 + k.val = (a.val * 1 + 0) * 64 + k.val; omega)

/-- and no host operation writes the bias. -/
theorem V_arg2_arrB (c : Dev nD) : (V m c main_arg2 : S1.Idx → Elt F .f32) = arrB m c := by
  dsimp only [V, hostOps0]; after_results

/-! ## The five input blocks at a point -/

/-- The grid is one axis of 16384 points: a point's coordinate is its number. -/
theorem coords_val_pt (t : Fin grid0.N) : (grid0.coords t 0).val = t.val := by
  have ht : t.val < 16384 := lt_of_lt_of_eq t.isLt N_0
  show t.val / grid0.stride 0 % grid0.bound 0 = t.val
  rw [show grid0.stride 0 = 1 from rfl, show grid0.bound 0 = 16384 from rfl, Nat.div_one, Nat.mod_eq_of_lt ht]

/-- So the sample a point names is the point's number (at ANY contents of the tables: the grid does not depend on them). -/
theorem smp_coords (a : (pcfg0 (F := F)).Adm) (t : Fin (cfg0 a).N) (r : Fin 16384) (hr : r.val = t.val) :
    smp (grid0.coords t) = r := by
  apply Fin.ext
  show (grid0.coords t 0).val = r.val
  rw [hr]; exact coords_val_pt t

/-- Window 0's block at point `t`, read off any contents `A` of its array, at ANY contents of the tables: when the user
    table's word at the point's sample is row `w`, the block's one element is the array's at row `w` (a block's coordinate
    is index × size + the coordinate inside the block). -/
theorem blk0_row (a : (pcfg0 (F := F)).Adm) (t : Fin (cfg0 a).N) (A : (((cfg0 a).win 0).blk t).view.ty.Contents (Elt F))
    (w : Fin 1500000) (hw : ((a.1 0 : S16384.Idx → BitVec 32) (ix1 (smp (grid0.coords t)))).toNat = w.val) :
    (((cfg0 a).win 0).blk t).view.read (Elt F) A (ix3 (0 : Fin 1) (0 : Fin 1) (0 : Fin 1)) = A (ix3 w (0 : Fin 1) (0 : Fin 1)) := by
  show A ((((cfg0 a).win 0).blk t).view.emb (ix3 (0 : Fin 1) (0 : Fin 1) (0 : Fin 1))) = A (ix3 w (0 : Fin 1) (0 : Fin 1))
  refine congrArg A (funext fun ax => Fin.ext ?_)
  show cc0_transform_0 k0_off1_inb numel1_S1 a.1 (grid0.coords t) ax * S1x1x1.size ax
      + 1 * ((ix3 (0 : Fin 1) (0 : Fin 1) (0 : Fin 1) : S1x1x1.Idx) ax).val = ((ix3 w (0 : Fin 1) (0 : Fin 1) : S1500000x1x1.Idx) ax).val
  rw [transform0_eq, hw]
  match ax with
  | ⟨0, _⟩ => show w.val * 1 + 1 * 0 = w.val; omega
  | ⟨1, _⟩ => rfl
  | ⟨2, _⟩ => rfl

/-- Window 1's, with the item table. -/
theorem blk1_row (a : (pcfg0 (F := F)).Adm) (t : Fin (cfg0 a).N) (A : (((cfg0 a).win 1).blk t).view.ty.Contents (Elt F))
    (w : Fin 1500000) (hw : ((a.1 1 : S16384.Idx → BitVec 32) (ix1 (smp (grid0.coords t)))).toNat = w.val) :
    (((cfg0 a).win 1).blk t).view.read (Elt F) A (ix3 (0 : Fin 1) (0 : Fin 1) (0 : Fin 1)) = A (ix3 w (0 : Fin 1) (0 : Fin 1)) := by
  show A ((((cfg0 a).win 1).blk t).view.emb (ix3 (0 : Fin 1) (0 : Fin 1) (0 : Fin 1))) = A (ix3 w (0 : Fin 1) (0 : Fin 1))
  refine congrArg A (funext fun ax => Fin.ext ?_)
  show cc0_transform_1 k0_off1_inb numel1_S1 a.1 (grid0.coords t) ax * S1x1x1.size ax
      + 1 * ((ix3 (0 : Fin 1) (0 : Fin 1) (0 : Fin 1) : S1x1x1.Idx) ax).val = ((ix3 w (0 : Fin 1) (0 : Fin 1) : S1500000x1x1.Idx) ax).val
  rw [transform1_eq, hw]
  match ax with
  | ⟨0, _⟩ => show w.val * 1 + 1 * 0 = w.val; omega
  | ⟨1, _⟩ => rfl
  | ⟨2, _⟩ => rfl

/-- Window 2's block is a 64-wide row: its element `k` is the array's at row `w`, column `k`. -/
theorem blk2_row (a : (pcfg0 (F := F)).Adm) (t : Fin (cfg0 a).N) (A : (((cfg0 a).win 2).blk t).view.ty.Contents (Elt F))
    (w : Fin 1500000) (hw : ((a.1 0 : S16384.Idx → BitVec 32) (ix1 (smp (grid0.coords t)))).toNat = w.val) (k : Fin 64) :
    (((cfg0 a).win 2).blk t).view.read (Elt F) A (ix3 (0 : Fin 1) (0 : Fin 1) k) = A (ix3 w (0 : Fin 1) k) := by
  show A ((((cfg0 a).win 2).blk t).view.emb (ix3 (0 : Fin 1) (0 : Fin 1) k)) = A (ix3 w (0 : Fin 1) k)
  refine congrArg A (funext fun ax => Fin.ext ?_)
  show cc0_transform_2 k0_off1_inb numel1_S1 a.1 (grid0.coords t) ax * S1x1x64.size ax
      + 1 * ((ix3 (0 : Fin 1) (0 : Fin 1) k : S1x1x64.Idx) ax).val = ((ix3 w (0 : Fin 1) k : S1500000x1x64.Idx) ax).val
  rw [transform2_eq, hw]
  match ax with
  | ⟨0, _⟩ => show w.val * 1 + 1 * 0 = w.val; omega
  | ⟨1, _⟩ => rfl
  | ⟨2, _⟩ => show 0 * 64 + 1 * k.val = k.val; omega

/-- Window 3's, with the item table. -/
theorem blk3_row (a : (pcfg0 (F := F)).Adm) (t : Fin (cfg0 a).N) (A : (((cfg0 a).win 3).blk t).view.ty.Contents (Elt F))
    (w : Fin 1500000) (hw : ((a.1 1 : S16384.Idx → BitVec 32) (ix1 (smp (grid0.coords t)))).toNat = w.val) (k : Fin 64) :
    (((cfg0 a).win 3).blk t).view.read (Elt F) A (ix3 (0 : Fin 1) (0 : Fin 1) k) = A (ix3 w (0 : Fin 1) k) := by
  show A ((((cfg0 a).win 3).blk t).view.emb (ix3 (0 : Fin 1) (0 : Fin 1) k)) = A (ix3 w (0 : Fin 1) k)
  refine congrArg A (funext fun ax => Fin.ext ?_)
  show cc0_transform_3 k0_off1_inb numel1_S1 a.1 (grid0.coords t) ax * S1x1x64.size ax
      + 1 * ((ix3 (0 : Fin 1) (0 : Fin 1) k : S1x1x64.Idx) ax).val = ((ix3 w (0 : Fin 1) k : S1500000x1x64.Idx) ax).val
  rw [transform3_eq, hw]
  match ax with
  | ⟨0, _⟩ => show w.val * 1 + 1 * 0 = w.val; omega
  | ⟨1, _⟩ => rfl
  | ⟨2, _⟩ => show 0 * 64 + 1 * k.val = k.val; omega

/-- Window 4's block is the whole one-element bias at every point. -/
theorem blk4_all (a : (pcfg0 (F := F)).Adm) (t : Fin (cfg0 a).N) (A : (((cfg0 a).win 4).blk t).view.ty.Contents (Elt F)) :
    (((cfg0 a).win 4).blk t).view.read (Elt F) A (ix1 (0 : Fin 1)) = A (ix1 (0 : Fin 1)) := by
  show A ((((cfg0 a).win 4).blk t).view.emb (ix1 (0 : Fin 1))) = A (ix1 (0 : Fin 1))
  refine congrArg A (funext fun ax => Fin.ext ?_)
  show cc0_transform_4 (grid0.coords t) ax * S1.size ax + 1 * ((ix1 (0 : Fin 1) : S1.Idx) ax).val = ((ix1 (0 : Fin 1) : S1.Idx) ax).val
  match ax with
  | ⟨0, _⟩ => rfl

/-- The tables' words at point `t` are the rows of sample `r = t`. -/
theorem word0_at (hO : Ok m) (t : Fin (cfgM m hO).N) (r : Fin 16384) (hr : r.val = t.val) :
    ((tbl m 0 : S16384.Idx → BitVec 32) (ix1 (smp (grid0.coords t)))).toNat = Cert.Spec.uRow (arrIn m 0) r := by
  rw [smp_coords (adm m hO 0) t r hr, tbl0_apply]; rfl
theorem word1_at (hO : Ok m) (t : Fin (cfgM m hO).N) (r : Fin 16384) (hr : r.val = t.val) :
    ((tbl m 1 : S16384.Idx → BitVec 32) (ix1 (smp (grid0.coords t)))).toNat = Cert.Spec.iRow (arrIn m 0) r := by
  rw [smp_coords (adm m hO 0) t r hr, tbl1_apply]; rfl

/-- (E4) At point `t`, sample `r = t`: the first staged block is the weight of the user row, -/
theorem wu_apply (hO : Ok m) (hin : Cert.Spec.InRange (arrIn m 0)) (c : Dev nD) (t : Fin (cfgM m hO).N) (r : Fin 16384) (hr : r.val = t.val) :
    wu m hO c t (ix3 (0 : Fin 1) (0 : Fin 1) (0 : Fin 1)) = arrW m c (ix2 (Cert.Spec.row (Cert.Spec.uRow (arrIn m 0) r)) (0 : Fin 1)) :=
  (blk0_row (adm m hO 0) t (V m c (Pipeline.arrRef spec0 0)) (Cert.Spec.row (Cert.Spec.uRow (arrIn m 0) r))
    ((word0_at m hO t r hr).trans (Cert.Spec.row_val_of_lt (hin r).1).symm)).trans (V_v6_apply m c _)

/-- the second the weight of the item row, -/
theorem wi_apply (hO : Ok m) (hin : Cert.Spec.InRange (arrIn m 0)) (c : Dev nD) (t : Fin (cfgM m hO).N) (r : Fin 16384) (hr : r.val = t.val) :
    wi m hO c t (ix3 (0 : Fin 1) (0 : Fin 1) (0 : Fin 1)) = arrW m c (ix2 (Cert.Spec.row (Cert.Spec.iRow (arrIn m 0) r)) (0 : Fin 1)) :=
  (blk1_row (adm m hO 0) t (V m c (Pipeline.arrRef spec0 1)) (Cert.Spec.row (Cert.Spec.iRow (arrIn m 0) r))
    ((word1_at m hO t r hr).trans (Cert.Spec.row_val_of_lt (hin r).2).symm)).trans (V_v6_apply m c _)

/-- the third the user row of the factor table, -/
theorem vu_apply (hO : Ok m) (hin : Cert.Spec.InRange (arrIn m 0)) (c : Dev nD) (t : Fin (cfgM m hO).N) (r : Fin 16384) (hr : r.val = t.val) (k : Fin 64) :
    vu m hO c t (ix3 (0 : Fin 1) (0 : Fin 1) k) = arrV m c (ix2 (Cert.Spec.row (Cert.Spec.uRow (arrIn m 0) r)) k) :=
  (blk2_row (adm m hO 0) t (V m c (Pipeline.arrRef spec0 2)) (Cert.Spec.row (Cert.Spec.uRow (arrIn m 0) r))
    ((word0_at m hO t r hr).trans (Cert.Spec.row_val_of_lt (hin r).1).symm) k).trans (V_v7_apply m c _ k)

/-- the fourth the item row of the factor table, -/
theorem vi_apply (hO : Ok m) (hin : Cert.Spec.InRange (arrIn m 0)) (c : Dev nD) (t : Fin (cfgM m hO).N) (r : Fin 16384) (hr : r.val = t.val) (k : Fin 64) :
    vi m hO c t (ix3 (0 : Fin 1) (0 : Fin 1) k) = arrV m c (ix2 (Cert.Spec.row (Cert.Spec.iRow (arrIn m 0) r)) k) :=
  (blk3_row (adm m hO 0) t (V m c (Pipeline.arrRef spec0 3)) (Cert.Spec.row (Cert.Spec.iRow (arrIn m 0) r))
    ((word1_at m hO t r hr).trans (Cert.Spec.row_val_of_lt (hin r).2).symm) k).trans (V_v7_apply m c _ k)

/-- and the fifth the bias. -/
theorem bb_apply (hO : Ok m) (c : Dev nD) (t : Fin (cfgM m hO).N) :
    bb m hO c t (ix1 (0 : Fin 1)) = arrB m c (ix1 (0 : Fin 1)) :=
  (blk4_all (adm m hO 0) t (V m c (Pipeline.arrRef spec0 4))).trans (congrFun (V_arg2_arrB m c) _)

end Cert.KernelIdeal.Hand

end
-- ==== Proof.KIOut.lean ====
/-
  From blocks to the array: the kernel region's result array after the run.

  The output window walks the [16384,1,1] result array one [1,1,1] block per grid point: at point t its block index
  is (t, 0, 0), so the block is row t, and because the index moves at every step the block is written back at every
  point. What point t writes back is block t of ONE whole-array function, "row j holds what the body stored at point j";
  row r lies in point r's block, so after the run row r holds what the body stored at point r, whatever else covers it.
  None of this reads the two index tables: the schedule and the index map of the output window are stated at any
  admissible contents of the tables.
-/
import proofs.«411096_j74337293959546_2_alg».proof.Proof.KIData
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx (ix3 ix1 eq_ix3)
open Idealize.ShloMosaic.Pipeline (Dat)

variable {F : FTy → Type} [FloatOps F]

/-! ## The output window's schedule and index map, at any admissible contents of the tables -/

section Schedule
variable (a : (pcfg0 (F := F)).Adm)

/-- The grid has 16384 points. -/
theorem N_adm : (cfg0 a).N = 16384 := N_0

/-- The one coordinate of point t is t. -/
theorem coords_val (t : Fin (cfg0 a).N) : ((grid0.coords t) (0 : Fin 1)).val = t.val := by
  have ht : t.val < 16384 := (N_adm a) ▸ t.isLt
  show t.val / grid0.stride 0 % 16384 = t.val
  rw [show grid0.stride 0 = 1 from by decide]
  omega

/-- The output window's block index at point t is (t, 0, 0). -/
theorem index5_0 (t : Fin (cfg0 a).N) : ((cfg0 a).win 5).index t (0 : Fin 3) = t.val := by
  have ht : t.val < 16384 := (N_adm a) ▸ t.isLt
  show (BitVec.ofNat 32 ((grid0.coords t) (0 : Fin 1)).val).toNat = t.val
  rw [coords_val a t, BitVec.toNat_ofNat]
  omega
theorem index5_1 (t : Fin (cfg0 a).N) : ((cfg0 a).win 5).index t (1 : Fin 3) = 0 := rfl
theorem index5_2 (t : Fin (cfg0 a).N) : ((cfg0 a).win 5).index t (2 : Fin 3) = 0 := rfl

/-- The output window is written back at every point: the block index moves with the point. -/
theorem flush5 (t : Fin (cfg0 a).N) : ((cfg0 a).win 5).flush t = true := by
  have ht : t.val < 16384 := (N_adm a) ▸ t.isLt
  have hN : ((pcfg0 (F := F)).gridAt a.1).N = 16384 := N_0
  unfold Pipeline.Window.flush
  simp only [Bool.and_eq_true, Bool.or_eq_true, decide_eq_true_eq]
  refine ⟨rfl, ?_⟩
  by_cases hl : t.val + 1 = ((pcfg0 (F := F)).gridAt a.1).N
  · exact Or.inl hl
  · refine Or.inr ⟨by omega, fun e => ?_⟩
    have e0 := congrFun e (0 : Fin 3)
    rw [index5_0, index5_0] at e0
    exact absurd e0 (Nat.succ_ne_self _)

/-- An index of the result array is in point t's block iff each coordinate is in the block's range on its axis. -/
theorem mem_blk5 (t : Fin (cfg0 a).N) (i : S16384x1x1.Idx) :
    i ∈ (((cfg0 a).win 5).blk t).view.set ↔ ∀ b : Fin 3, ((cfg0 a).win 5).index t b * S1x1x1.size b ≤ (i b).val
      ∧ (i b).val < ((cfg0 a).win 5).index t b * S1x1x1.size b + S1x1x1.size b := by
  show i ∈ ((View.whole main_v8).slice (((cfg0 a).win 5).rect t)).set ↔ _
  exact (Finset.ext_iff.1 (View.set_slice_whole main_v8 (((cfg0 a).win 5).rect t)) i).trans Rect.mem_set_unit

/-- Row r of the result array lies in the block of point r. -/
theorem row_mem_blk5 (t : Fin (cfg0 a).N) (r : Fin 16384) (hr : r.val = t.val) :
    (ix3 r (0 : Fin 1) (0 : Fin 1) : S16384x1x1.Idx) ∈ (((cfg0 a).win 5).blk t).view.set := by
  refine (mem_blk5 a t _).2 fun b => ?_
  match b with
  | ⟨0, _⟩ =>
    show ((cfg0 a).win 5).index t (0 : Fin 3) * 1 ≤ r.val ∧ r.val < ((cfg0 a).win 5).index t (0 : Fin 3) * 1 + 1
    rw [index5_0]; omega
  | ⟨1, _⟩ =>
    show ((cfg0 a).win 5).index t (1 : Fin 3) * 1 ≤ 0 ∧ 0 < ((cfg0 a).win 5).index t (1 : Fin 3) * 1 + 1
    rw [index5_1]; omega
  | ⟨2, _⟩ =>
    show ((cfg0 a).win 5).index t (2 : Fin 3) * 1 ≤ 0 ∧ 0 < ((cfg0 a).win 5).index t (2 : Fin 3) * 1 + 1
    rw [index5_2]; omega

/-- An element of point t's block sits at row t of the result array. -/
theorem emb_blk5 (t : Fin (cfg0 a).N) (y : (((cfg0 a).win 5).xblock (grid0.coords t)).Idx) :
    ((((cfg0 a).win 5).blk t).view.emb y : S16384x1x1.Idx)
      = ix3 (⟨t.val, (N_adm a) ▸ t.isLt⟩ : Fin 16384) (0 : Fin 1) (0 : Fin 1) := by
  funext b
  apply Fin.ext
  match b with
  | ⟨0, _⟩ =>
    have hy : (y (0 : Fin 3)).val < 1 := (((cfg0 a).win 5).xinj (grid0.coords t) y (0 : Fin 3)).isLt
    show ((cfg0 a).win 5).index t (0 : Fin 3) * 1 + 1 * (y (0 : Fin 3)).val = t.val
    rw [index5_0]; omega
  | ⟨1, _⟩ =>
    have hy : (y (1 : Fin 3)).val < 1 := (((cfg0 a).win 5).xinj (grid0.coords t) y (1 : Fin 3)).isLt
    show ((cfg0 a).win 5).index t (1 : Fin 3) * 1 + 1 * (y (1 : Fin 3)).val = 0
    rw [index5_1]; omega
  | ⟨2, _⟩ =>
    have hy : (y (2 : Fin 3)).val < 1 := (((cfg0 a).win 5).xinj (grid0.coords t) y (2 : Fin 3)).isLt
    show ((cfg0 a).win 5).index t (2 : Fin 3) * 1 + 1 * (y (2 : Fin 3)).val = 0
    rw [index5_2]; omega

end Schedule

/-- The [1,1,1] block has one index, (0,0,0). -/
theorem idx_S1x1x1 (j : S1x1x1.Idx) : j = ix3 (0 : Fin 1) (0 : Fin 1) (0 : Fin 1) := by
  funext b
  match b with
  | ⟨0, _⟩ => exact Fin.ext (Nat.lt_one_iff.1 (j ⟨0, _⟩).isLt)
  | ⟨1, _⟩ => exact Fin.ext (Nat.lt_one_iff.1 (j ⟨1, _⟩).isLt)
  | ⟨2, _⟩ => exact Fin.ext (Nat.lt_one_iff.1 (j ⟨2, _⟩).isLt)

/-! ## The result array after the run -/

variable (m : (ℓ : Loc nD τ sig) → Buf (Elt F) ℓ)

theorem N_eq (hO : Ok m) : (cfgM m hO).N = 16384 := N_adm (adm m hO 0)

/-- The whole result array: row j holds what point j stored. -/
def G5 (hO : Ok m) (c : Dev nD) : S16384x1x1.Idx → Elt F .f32 := fun j =>
  outAt m hO c ⟨(j 0).val, lt_of_lt_of_eq (j 0).isLt (N_eq m hO).symm⟩ (ix3 (0 : Fin 1) (0 : Fin 1) (0 : Fin 1))

/-- What point t writes back is block t of that array. -/
theorem flushed5_eq (hO : Ok m) (c : Dev nD) (t : Fin (cfgM m hO).N) :
    (dats m hO 0 c).flushed 5 t = (((cfgM m hO).win 5).blk t).view.read (Elt F) (G5 m hO c) := by
  show ((cfgM m hO).win 5).cut (grid0.coords t) ((dats m hO 0 c).after 5 t) = _
  rw [after0_5]
  funext j
  show outAt m hO c t (((cfgM m hO).win 5).xinj (grid0.coords t) j) = G5 m hO c ((((cfgM m hO).win 5).blk t).view.emb j)
  refine (congrArg (outAt m hO c t) (idx_S1x1x1 _)).trans (Eq.symm ((congrArg (G5 m hO c) (emb_blk5 (adm m hO 0) t j)).trans ?_))
  rfl

/-- Row r of the result array is what point r stored. -/
theorem out_array (hO : Ok m) (c : Dev nD) (t : Fin (cfgM m hO).N) (r : Fin 16384) (hr : r.val = t.val) :
    (dats m hO 0 c).arrAt 5 (cfgM m hO).N (ix3 r (0 : Fin 1) (0 : Fin 1)) = outAt m hO c t (ix3 (0 : Fin 1) (0 : Fin 1) (0 : Fin 1)) := by
  refine ((dats m hO 0 c).arrAt_apply_of_mem 5 (G5 m hO c) (fun t _ => flushed5_eq m hO c t) (cfgM m hO).N t
    (ix3 r (0 : Fin 1) (0 : Fin 1)) t.isLt (flush5 (adm m hO 0) t) (row_mem_blk5 (adm m hO 0) t r hr)).trans ?_
  show outAt m hO c ⟨r.val, _⟩ (ix3 (0 : Fin 1) (0 : Fin 1) (0 : Fin 1)) = _
  rw [show (⟨r.val, lt_of_lt_of_eq r.isLt (N_eq m hO).symm⟩ : Fin (cfgM m hO).N) = t from Fin.ext hr]

end Cert.KernelIdeal.Hand

end
-- ==== Proof.KIPayload.lean ====
/-
  The kernel body's stored value, read at its one index, at the extended reals.

  One grid step handles one sample. The body loads the sample's two bias entries (two [1,1,1] blocks), its two
  embedding rows (two [1,1,64] blocks) and the global bias (a [1] block), and stores

      (w_u + w_i + b) + Σ_k v_u[k] · v_i[k]

  into a [1,1,1] block. The casts of a shape to itself are the identity, the cast [1,1] → [1,1,1] keeps the one element,
  and the lane reduction from the zero word is the sum over the 64 lanes.
-/
import proofs.«411096_j74337293959546_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The [1,1,1] block has one index, (0,0,0). -/
theorem idx111 (j : S1x1x1.Idx) : j = ix3 (0 : Fin 1) (0 : Fin 1) (0 : Fin 1) := by
  funext a
  match a with
  | ⟨0, _⟩ => exact Fin.ext (Nat.lt_one_iff.1 (j ⟨0, _⟩).isLt)
  | ⟨1, _⟩ => exact Fin.ext (Nat.lt_one_iff.1 (j ⟨1, _⟩).isLt)
  | ⟨2, _⟩ => exact Fin.ext (Nat.lt_one_iff.1 (j ⟨2, _⟩).isLt)

theorem pay_apply (x0 x1 : Vec Ideal S1x1x1 .f32) (x2 x3 : Vec Ideal S1x1x64 .f32) (x4 : Vec Ideal S1 .f32) (j : S1x1x1.Idx) :
    k0_pay1 (F := Ideal) x0 x1 x2 x3 x4 j
      = ((x0 (ix3 (0 : Fin 1) (0 : Fin 1) (0 : Fin 1)) + x1 (ix3 (0 : Fin 1) (0 : Fin 1) (0 : Fin 1))) + x4 (ix1 (0 : Fin 1)))
        + ∑ k : Fin 64, x2 (ix3 (0 : Fin 1) (0 : Fin 1) k) * x3 (ix3 (0 : Fin 1) (0 : Fin 1) k) := by
  rw [idx111 j]
  unfold k0_pay1
  dsimp only
  simp only [addf_apply, broadcast_apply, shapeCast_self]
  refine congrArg₂ (· + ·) (congrArg₂ (· + ·) rfl ?_) ?_
  · unfold extractAt
    exact congrArg x4 (funext fun a => match a with | ⟨0, _⟩ => rfl)
  · refine (shapeCast_apply _ _ (ix3 (0 : Fin 1) (0 : Fin 1) (0 : Fin 1)) (ix2 (0 : Fin 1) (0 : Fin 1)) ?_).trans ?_
    · rw [Shape.rowMajor_val_two, Shape.rowMajor_val_three]; rfl
    · refine (Ideal.multiReduction_add_single _ _ _ _ _ _).trans ?_
      refine Finset.sum_congr rfl fun k _ => ?_
      have e : reduces_S1x1x64_S1x1.lift (ix2 (0 : Fin 1) (0 : Fin 1)) k = ix3 (0 : Fin 1) (0 : Fin 1) k :=
        funext fun a => match a with
          | ⟨0, _⟩ => Fin.ext rfl
          | ⟨1, _⟩ => Fin.ext rfl
          | ⟨2, _⟩ => Fin.ext rfl
      rw [mulf_apply, e]
      rfl

end Cert.KernelIdeal.Hand

end
-- ==== Proof.KIValue.lean ====
/-
  The kernel program's result as the specification, index by index, at the extended reals.

  After the region one host operation reshapes the kernel's [16384,1,1] result array to [16384,1]. Row r of the
  reshaped array is row r of the result array, which is what the body stored at grid point r: the payload of the five
  blocks staged there, (w_u + w_i + b) + Σ_k v_u[k] · v_i[k]. On an input whose rows are all in range the five blocks
  are the entries of the bias table, the bias and the factor table at the user row and the item row of sample r, so
  the result is the specification's function of the four arguments.
-/
import proofs.«411096_j74337293959546_2_alg».proof.Proof.KITail
import proofs.«411096_j74337293959546_2_alg».proof.Proof.KIEntry
import proofs.«411096_j74337293959546_2_alg».proof.Proof.KIOut
import proofs.«411096_j74337293959546_2_alg».proof.Proof.KIPayload
import proofs.«411096_j74337293959546_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo

/-! ## The reshape after the region, at any float model -/

section Reshape
variable {F : FTy → Type} [FloatOps F]
variable (m : (ℓ : Loc nD τ sig) → Buf (Elt F) ℓ)

/-- The result buffer after the reshape: the kernel's result array with its two unit axes merged. -/
theorem after_v9 (hO : Ok m) (c : Dev nD) :
    (StableHlo.after hostOps1 (V₁ m hO c) (Proc.devRef .tc main_v9) : S16384x1.Idx → Elt F .f32)
      = shapeCast S16384x1 ((dats m hO 0 c).arrAt 5 (cfgM m hO).N : S16384x1x1.Idx → Elt F .f32) shapeCasts_S16384x1x1_S16384x1 := by
  dsimp only [hostOps1]
  after_results
  rw [V₁_v8]
  rfl

/-- Row `r` of the reshaped result is row `r` of the kernel's result array. -/
theorem after_v9_apply (hO : Ok m) (c : Dev nD) (r : Fin 16384) :
    (StableHlo.after hostOps1 (V₁ m hO c) (Proc.devRef .tc main_v9) : S16384x1.Idx → Elt F .f32) (ix2 r (0 : Fin 1))
      = (dats m hO 0 c).arrAt 5 (cfgM m hO).N (ix3 r (0 : Fin 1) (0 : Fin 1)) := by
  rw [after_v9]
  exact shapeCast_apply _ shapeCasts_S16384x1x1_S16384x1 (ix2 r (0 : Fin 1)) (ix3 r (0 : Fin 1) (0 : Fin 1)) (by
    rw [Shape.rowMajor_val_three, Shape.rowMajor_val_two]
    show (r.val * 1 + 0) * 1 + 0 = r.val * 1 + 0
    omega)

end Reshape

/-! ## The kernel's result -/

variable (m : (ℓ : Loc nD τ sig) → Buf (Elt Ideal) ℓ)

theorem kernel_value (hO : Ok m) (hin : Cert.Spec.InRange (arrIn m 0)) (c : Dev nD) :
    (StableHlo.after hostOps1 (V₁ m hO c) (Proc.devRef .tc main_v9) : S16384x1.Idx → EReal)
      = Cert.Spec.G (arrIn m c) (arrW m c) (arrB m c) (arrV m c) := by
  obtain rfl : c = 0 := Subsingleton.elim _ _
  funext i
  obtain ⟨r, q, rfl⟩ : ∃ (r : Fin 16384) (q : Fin 1), i = ix2 r q := ⟨i 0, i 1, eq_ix2 i⟩
  obtain rfl : q = 0 := Subsingleton.elim _ _
  have hr : r.val = (⟨r.val, by rw [N_eq]; exact r.isLt⟩ : Fin (cfgM m hO).N).val := rfl
  refine (after_v9_apply m hO 0 r).trans ?_
  rw [out_array m hO 0 ⟨r.val, by rw [N_eq]; exact r.isLt⟩ r hr]
  unfold outAt
  rw [pay_apply, wu_apply m hO hin 0 _ r hr, wi_apply m hO hin 0 _ r hr, bb_apply m hO 0 _]
  have hs : ∑ k : Fin 64, vu m hO 0 ⟨r.val, by rw [N_eq]; exact r.isLt⟩ (ix3 (0 : Fin 1) (0 : Fin 1) k)
        * vi m hO 0 ⟨r.val, by rw [N_eq]; exact r.isLt⟩ (ix3 (0 : Fin 1) (0 : Fin 1) k)
      = ∑ k : Fin 64, arrV m 0 (ix2 (Cert.Spec.row (Cert.Spec.uRow (arrIn m 0) r)) k)
        * arrV m 0 (ix2 (Cert.Spec.row (Cert.Spec.iRow (arrIn m 0) r)) k) :=
    Finset.sum_congr rfl fun k _ => by rw [vu_apply m hO hin 0 _ r hr k, vi_apply m hO hin 0 _ r hr k]
  rw [hs]
  rfl

end Cert.KernelIdeal.Hand

end
-- ==== Proof.PreRange.lean ====
/-
  The precondition, decoded into index ranges.

  The printed precondition is a conjunction of seven all-reductions: three finiteness tests of the float inputs and four
  signed integer tests of the sample array's two columns. Read at a sample r, the integer tests say

      0 ≤ x,  x < 1500000          (x the first column's word, signed)
      -1000000 ≤ y,  y < 500000    (y the second column's word, signed).

  From the first pair the word x has natural value below 1500000. From the second pair y + 1000000 does not wrap and has
  natural value below 1500000. These are the two row bounds of the specification's InRange. Both rows are then also
  non-negative as signed words.
-/
import proofs.«411096_j74337293959546_2_alg».proof.Pre_finite_inputs
import proofs.«411096_j74337293959546_2_alg».proof.Proof.Gen.Pre_finite_inputs
import proofs.«411096_j74337293959546_2_alg».proof.Proof.Spec
import Idealize.ShloMosaic.Lib.ReduceAll
import Idealize.ShloMosaic.Lib.StableHlo.Predicate
import Idealize.ShloMosaic.Lib.ValueIdx

namespace Cert.PreRange

open Idealize.ShloMosaic Idealize.ShloMosaic.ValueIdx Cert.Pre_finite_inputs

/-- The scalar shape has one index. -/
instance : Subsingleton S_.Idx := ⟨fun _ _ => funext fun d => d.elim0⟩

/-! ## Words -/

/-- A word that is signed-nonnegative and signed-below 1500000 has natural value below 1500000. -/
theorem toNat_lt_of_sge_slt {x : BitVec 32} (h0 : IntOp.cmpi .sge x 0#32 = 1#1) (h1 : IntOp.cmpi .slt x 1500000#32 = 1#1) :
    x.toNat < 1500000 := by
  have hxi := BitVec.toInt_eq_toNat_cond x
  have hc0 : (0#32 : BitVec 32).toInt = 0 := by decide
  have hc1 : (1500000#32 : BitVec 32).toInt = 1500000 := by decide
  simp only [IntOp.cmpi, StableHlo.Predicate.ofBool_eq_one_iff, BitVec.sle, BitVec.slt, decide_eq_true_eq, hc0, hc1] at h0 h1
  have hx := x.isLt
  split at hxi <;> omega

/-- A word that is signed at least -1000000 and signed below 500000: adding 1000000 does not wrap and lands below 1500000. -/
theorem toNat_add_lt_of_sge_slt {y : BitVec 32} (h0 : IntOp.cmpi .sge y 4293967296#32 = 1#1) (h1 : IntOp.cmpi .slt y 500000#32 = 1#1) :
    (y + 1000000#32).toNat < 1500000 := by
  have hyi := BitVec.toInt_eq_toNat_cond y
  have hc0 : (4293967296#32 : BitVec 32).toInt = -1000000 := by decide
  have hc1 : (500000#32 : BitVec 32).toInt = 500000 := by decide
  have hc2 : (1000000#32 : BitVec 32).toNat = 1000000 := by decide
  simp only [IntOp.cmpi, StableHlo.Predicate.ofBool_eq_one_iff, BitVec.sle, BitVec.slt, decide_eq_true_eq, hc0, hc1] at h0 h1
  have hy := y.isLt
  rw [BitVec.toNat_add, hc2]
  split at hyi <;> omega

/-! ## A column of the sample array, read at a sample -/

/-- The [16384 × 1] column, flattened, matches the column's row r with the vector's entry r. -/
theorem reshape_col (h : S16384.numel = S16384x1.numel) (r : Fin 16384) :
    Shape.reshapeEquiv h (ix1 r) = ix2 r (0 : Fin 1) :=
  Shape.reshapeEquiv_eq_of_rowMajor h (by
    rw [Shape.rowMajor_val_two, Shape.rowMajor_val_one]
    show r.val * 1 + 0 = r.val
    omega)

/-- Column 0 of the samples, sliced and flattened, read at sample r. -/
theorem col0_apply [Facts] (a0 : IVec S16384x2 32) (r : Fin 16384) :
    shapeCast S16384 (extractStridedSlice S16384x1 ![0, 0] a0 Facts.slices_S16384x2_S16384x1_0_0)
      Facts.shapeCasts_S16384x1_S16384 (ix1 r) = a0 (ix2 r (0 : Fin 2)) := by
  unfold shapeCast extractStridedSlice
  rw [reshape_col]
  refine congrArg a0 (funext fun a => Fin.ext ?_)
  match a with
  | ⟨0, _⟩ => exact Nat.zero_add _
  | ⟨1, _⟩ => rfl

/-- Column 1 of the samples, sliced and flattened, read at sample r. -/
theorem col1_apply [Facts] (a0 : IVec S16384x2 32) (r : Fin 16384) :
    shapeCast S16384 (extractStridedSlice S16384x1 ![0, 1] a0 Facts.slices_S16384x2_S16384x1_0_1)
      Facts.shapeCasts_S16384x1_S16384 (ix1 r) = a0 (ix2 r (1 : Fin 2)) := by
  unfold shapeCast extractStridedSlice
  rw [reshape_col]
  refine congrArg a0 (funext fun a => Fin.ext ?_)
  match a with
  | ⟨0, _⟩ => exact Nat.zero_add _
  | ⟨1, _⟩ => rfl

/-! ## The precondition's four integer tests, at a sample -/

theorem words_of_pre {F : FTy → Type} [FloatOps F] [Facts]
    (a0 : IVec S16384x2 32) (a1 : FVec F S1500000x1 .f32) (a2 : FVec F S1 .f32) (a3 : FVec F S1500000x64 .f32)
    (h : fn (F := F) a0 a1 a2 a3 = fun _ => 1#1) (r : Fin 16384) :
    (IntOp.cmpi .sge (a0 (ix2 r (0 : Fin 2))) 0#32 = 1#1 ∧ IntOp.cmpi .slt (a0 (ix2 r (0 : Fin 2))) 1500000#32 = 1#1) ∧
    (IntOp.cmpi .sge (a0 (ix2 r (1 : Fin 2))) 4293967296#32 = 1#1 ∧ IntOp.cmpi .slt (a0 (ix2 r (1 : Fin 2))) 500000#32 = 1#1) := by
  have h' := congrFun h ix0
  dsimp only [fn, fn_part1, fn_part2, Idealize.ShloMosaic.andi] at h'
  obtain ⟨h4, hD⟩ := IntOp.andi_eq_one.1 h'
  obtain ⟨h3, hC⟩ := IntOp.andi_eq_one.1 h4
  obtain ⟨h2, hB⟩ := IntOp.andi_eq_one.1 h3
  obtain ⟨_, hA⟩ := IntOp.andi_eq_one.1 h2
  have eA := Host.reduce_andi_all _ _ _ _ _ hA (ix1 r)
  have eB := Host.reduce_andi_all _ _ _ _ _ hB (ix1 r)
  have eC := Host.reduce_andi_all _ _ _ _ _ hC (ix1 r)
  have eD := Host.reduce_andi_all _ _ _ _ _ hD (ix1 r)
  rw [← col0_apply a0 r, ← col1_apply a0 r]
  exact ⟨⟨eA, eB⟩, eC, eD⟩

/-! ## The range facts -/

/-- A word with natural value below 1500000 (so below 2^31) is not negative as a signed word. -/
theorem slt_zero_eq_false {x : BitVec 32} (hx : x.toNat < 1500000) : x.slt 0#32 = false := by
  have hxi := BitVec.toInt_eq_toNat_cond x
  have hc0 : (0#32 : BitVec 32).toInt = 0 := by decide
  simp only [BitVec.slt, hc0, decide_eq_false_iff_not]
  split at hxi <;> omega

/-- Under the precondition every sample names a row of the tables. -/
theorem inRange_of_pre {F : FTy → Type} [FloatOps F] [Cert.Pre_finite_inputs.Facts]
    (a0 : IVec Cert.Pre_finite_inputs.S16384x2 32) (a1 : FVec F Cert.Pre_finite_inputs.S1500000x1 .f32)
    (a2 : FVec F Cert.Pre_finite_inputs.S1 .f32) (a3 : FVec F Cert.Pre_finite_inputs.S1500000x64 .f32)
    (h : Cert.Pre_finite_inputs.fn (F := F) a0 a1 a2 a3 = fun _ => 1#1) : Cert.Spec.InRange a0 := fun r => by
  obtain ⟨⟨hA, hB⟩, hC, hD⟩ := words_of_pre a0 a1 a2 a3 h r
  exact ⟨toNat_lt_of_sge_slt hA hB, toNat_add_lt_of_sge_slt hC hD⟩

/-- In range, the user row's word is not negative as a signed word. -/
theorem uRow_slt_zero {a0 : IVec Cert.Spec.SIn 32} (hin : Cert.Spec.InRange a0) (r : Fin 16384) :
    (a0 (ix2 r (0 : Fin 2))).slt 0#32 = false := slt_zero_eq_false (hin r).1

/-- In range, the item row's word (the second column plus 1000000) is not negative as a signed word. -/
theorem iRow_slt_zero {a0 : IVec Cert.Spec.SIn 32} (hin : Cert.Spec.InRange a0) (r : Fin 16384) :
    (a0 (ix2 r (1 : Fin 2)) + 1000000#32).slt 0#32 = false := slt_zero_eq_false (hin r).2

theorem uRow_nonneg {a0 : IVec Cert.Spec.SIn 32} (hin : Cert.Spec.InRange a0) (r : Fin 16384) :
    ¬ BitVec.slt (a0 (ix2 r (0 : Fin 2))) 0#32 := by rw [uRow_slt_zero hin r]; exact Bool.false_ne_true

theorem iRow_nonneg {a0 : IVec Cert.Spec.SIn 32} (hin : Cert.Spec.InRange a0) (r : Fin 16384) :
    ¬ BitVec.slt (a0 (ix2 r (1 : Fin 2)) + 1000000#32) 0#32 := by rw [iRow_slt_zero hin r]; exact Bool.false_ne_true

/-- The same two facts as the printed compare reads them: the bit of "row < 0" is 0. -/
theorem uRow_cmpi_slt_zero {a0 : IVec Cert.Spec.SIn 32} (hin : Cert.Spec.InRange a0) (r : Fin 16384) :
    IntOp.cmpi .slt (a0 (ix2 r (0 : Fin 2))) 0#32 = 0#1 := by
  show BitVec.ofBool ((a0 (ix2 r (0 : Fin 2))).slt 0#32) = 0#1
  rw [uRow_slt_zero hin r]; rfl

theorem iRow_cmpi_slt_zero {a0 : IVec Cert.Spec.SIn 32} (hin : Cert.Spec.InRange a0) (r : Fin 16384) :
    IntOp.cmpi .slt (a0 (ix2 r (1 : Fin 2)) + 1000000#32) 0#32 = 0#1 := by
  show BitVec.ofBool ((a0 (ix2 r (1 : Fin 2)) + 1000000#32).slt 0#32) = 0#1
  rw [iRow_slt_zero hin r]; rfl

end Cert.PreRange
-- ==== Proof.RefValue.lean ====
/-
  The reference program's result as one function of its inputs, index by index, at the extended reals.

  At sample `r` the reference gathers the bias table `W` at the user row and at the item row, adds the two and the
  bias `b[0]`, gathers the two rows of the factor table `V`, multiplies them column by column and sums the 64
  products from zero. Each gather reads its start index as a signed integer and clamps it into the table; before it
  the program adds the row count to a negative index. On an input whose rows are all in range (`Cert.Spec.InRange`)
  a row's word has a clear sign bit, so the normalisation and the clamp both leave it alone and the gathers read the
  rows `uRow` and `iRow` of the specification: the result is `Cert.Spec.G`.
-/
import proofs.«411096_j74337293959546_2_alg».proof.Proof.RefReadP
import proofs.«411096_j74337293959546_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## Words -/

/-- A word below 2^31 read as a signed integer is its natural value. -/
theorem toInt_toNat_of_lt (w : BitVec 32) (h : w.toNat < 2 ^ 31) : w.toInt.toNat = w.toNat := by
  have hm : w.msb = false := BitVec.msb_eq_false_iff_two_mul_lt.mpr (by omega)
  rw [BitVec.toInt_eq_msb_cond, hm]
  simp

/-- The index normalisation (add the row count to a negative index) leaves a word below the row count alone. -/
theorem normalise_of_lt (w : BitVec 32) (h : w.toNat < 1500000) :
    Scalar.select (IntOp.cmpi .slt w 0#32) (IntOp.addi w 1500000#32) w = w := by
  have hm : w.msb = false := BitVec.msb_eq_false_iff_two_mul_lt.mpr (by omega)
  have hc : IntOp.cmpi .slt w 0#32 = 0#1 := by
    unfold IntOp.cmpi
    have hlt : ¬ ((w.toNat : Int) < 0) := by omega
    simp [BitVec.slt, BitVec.toInt_eq_msb_cond, hm, hlt]
  rw [hc]
  exact select_zero _ _

/-- The clamped start of a word below the row count is the row it names. -/
theorem clamp_row (w : BitVec 32) (h : w.toNat < 1500000) :
    min w.toInt.toNat (1500000 - 1) = (Cert.Spec.row w.toNat).val := by
  rw [toInt_toNat_of_lt w (by omega), Cert.Spec.row_val_of_lt h]
  omega

/-! ## The two-column index array -/

theorem concat_col0 (a b : (⟨S16384x1, .i32⟩ : BufTy).Contents (Elt Ideal)) (r : Fin 16384) :
    concatenate S16384x2 1 [⟨S16384x1, a⟩, ⟨S16384x1, b⟩] concatenates_S16384x1_S16384x1_S16384x2_d1 (ix2 r (0 : Fin 2))
      = a (ix2 r (0 : Fin 1)) :=
  concatenate_pair_apply_left 1 a b concatenates_S16384x1_S16384x1_S16384x2_d1 (ix2 r (0 : Fin 2)) rfl (ix2 r (0 : Fin 1))
    (fun c => by match c with | ⟨0, _⟩ => rfl | ⟨1, _⟩ => rfl)

theorem concat_col1 (a b : (⟨S16384x1, .i32⟩ : BufTy).Contents (Elt Ideal)) (r : Fin 16384) :
    concatenate S16384x2 1 [⟨S16384x1, a⟩, ⟨S16384x1, b⟩] concatenates_S16384x1_S16384x1_S16384x2_d1 (ix2 r (1 : Fin 2))
      = b (ix2 r (0 : Fin 1)) :=
  concatenate_pair_apply_right 1 a b concatenates_S16384x1_S16384x1_S16384x2_d1 (ix2 r (1 : Fin 2)) rfl rfl (ix2 r (0 : Fin 1))
    (fun c hc => by match c with | ⟨0, _⟩ => rfl | ⟨1, _⟩ => exact absurd rfl hc) rfl

/-! ## The gathers -/

section Gathers
variable {α : Type}

/-- The bias table's gather, first operand axis: the clamped start read off column 0 of the index array. -/
theorem gatherW_axis0 (idx : IVec S16384x2 32) (r : Fin 16384) :
    (gather_S1500000x1_S16384x2_S16384_n_01_n_n_01_1_11.operandIdx (ix1 r) idx (0 : Fin 2)).val
      = min (idx (ix2 r (0 : Fin 2))).toInt.toNat (1500000 - 1) := by
  show gather_S1500000x1_S16384x2_S16384_n_01_n_n_01_1_11.start (ix1 r) idx 0
      + gather_S1500000x1_S16384x2_S16384_n_01_n_n_01_1_11.batchCoord (ix1 r) 0
      + gather_S1500000x1_S16384x2_S16384_n_01_n_n_01_1_11.offCoord (ix1 r) 0 = _
  rw [GatherDims.batchCoord_eq_zero _ _ _ List.not_mem_nil,
    GatherDims.offCoord_eq_zero _ _ _ (fun h => ((GatherDims.mem_sKept _ _).mp h).1 (List.mem_cons_self))]
  simp only [Nat.add_zero]
  unfold GatherDims.start
  rw [dif_pos (show (0 : Fin 2) ∈ gather_S1500000x1_S16384x2_S16384_n_01_n_n_01_1_11.startIndexMap from List.mem_cons_self)]
  have hsi : gather_S1500000x1_S16384x2_S16384_n_01_n_n_01_1_11.siIdx (ix1 r)
      ⟨List.idxOf (0 : Fin 2) gather_S1500000x1_S16384x2_S16384_n_01_n_n_01_1_11.startIndexMap,
        List.idxOf_lt_length_iff.2 List.mem_cons_self⟩ = ix2 r (0 : Fin 2) := by
    funext b; refine Fin.ext ?_
    match b with
    | ⟨0, _⟩ => rfl
    | ⟨1, _⟩ => rfl
  rw [hsi]
  rfl

/-- THE BIAS TABLE'S GATHER READ AT SAMPLE `r`: the table at the row column 0 of the index array names, read signed
    and clamped into the table (the second operand axis has extent one). -/
theorem gatherW_apply (x : S1500000x1.Idx → α) (idx : IVec S16384x2 32) (r : Fin 16384) :
    Host.gather gather_S1500000x1_S16384x2_S16384_n_01_n_n_01_1_11 x idx (ix1 r)
      = x (ix2 (⟨min (idx (ix2 r (0 : Fin 2))).toInt.toNat (1500000 - 1), by omega⟩ : Fin 1500000) (0 : Fin 1)) := by
  unfold Host.gather
  congr 1
  funext a
  refine Fin.ext ?_
  match a with
  | ⟨0, _⟩ => exact gatherW_axis0 idx r
  | ⟨1, _⟩ =>
    have h1 := (gather_S1500000x1_S16384x2_S16384_n_01_n_n_01_1_11.operandIdx (ix1 r) idx (1 : Fin 2)).isLt
    have h2 : S1500000x1.size (1 : Fin 2) = 1 := rfl
    show (gather_S1500000x1_S16384x2_S16384_n_01_n_n_01_1_11.operandIdx (ix1 r) idx (1 : Fin 2)).val = 0
    omega

/-- The factor table's gather, first operand axis: the clamped start read off the index column. -/
theorem gatherV_axis0 (idx : IVec S16384x1 32) (r : Fin 16384) (k : Fin 64) :
    (gather_S1500000x64_S16384x1_S16384x64_1_0_n_n_0_1_164.operandIdx (ix2 r k) idx (0 : Fin 2)).val
      = min (idx (ix2 r (0 : Fin 1))).toInt.toNat (1500000 - 1) := by
  show gather_S1500000x64_S16384x1_S16384x64_1_0_n_n_0_1_164.start (ix2 r k) idx 0
      + gather_S1500000x64_S16384x1_S16384x64_1_0_n_n_0_1_164.batchCoord (ix2 r k) 0
      + gather_S1500000x64_S16384x1_S16384x64_1_0_n_n_0_1_164.offCoord (ix2 r k) 0 = _
  rw [GatherDims.batchCoord_eq_zero _ _ _ List.not_mem_nil,
    GatherDims.offCoord_eq_zero _ _ _ (fun h => ((GatherDims.mem_sKept _ _).mp h).1 (List.mem_cons_self))]
  simp only [Nat.add_zero]
  unfold GatherDims.start
  rw [dif_pos (show (0 : Fin 2) ∈ gather_S1500000x64_S16384x1_S16384x64_1_0_n_n_0_1_164.startIndexMap from List.mem_cons_self)]
  have hsi : gather_S1500000x64_S16384x1_S16384x64_1_0_n_n_0_1_164.siIdx (ix2 r k)
      ⟨List.idxOf (0 : Fin 2) gather_S1500000x64_S16384x1_S16384x64_1_0_n_n_0_1_164.startIndexMap,
        List.idxOf_lt_length_iff.2 List.mem_cons_self⟩ = ix2 r (0 : Fin 1) := by
    funext b; refine Fin.ext ?_
    match b with
    | ⟨0, _⟩ => rfl
    | ⟨1, _⟩ => rfl
  rw [hsi]
  rfl

/-- The factor table's gather, second operand axis: the result's offset coordinate. -/
theorem gatherV_axis1 (idx : IVec S16384x1 32) (r : Fin 16384) (k : Fin 64) :
    (gather_S1500000x64_S16384x1_S16384x64_1_0_n_n_0_1_164.operandIdx (ix2 r k) idx (1 : Fin 2)).val = k.val := by
  show gather_S1500000x64_S16384x1_S16384x64_1_0_n_n_0_1_164.start (ix2 r k) idx 1
      + gather_S1500000x64_S16384x1_S16384x64_1_0_n_n_0_1_164.batchCoord (ix2 r k) 1
      + gather_S1500000x64_S16384x1_S16384x64_1_0_n_n_0_1_164.offCoord (ix2 r k) 1 = _
  rw [GatherDims.batchCoord_eq_zero _ _ _ List.not_mem_nil]
  unfold GatherDims.start
  rw [dif_neg (show (1 : Fin 2) ∉ gather_S1500000x64_S16384x1_S16384x64_1_0_n_n_0_1_164.startIndexMap from by decide)]
  unfold GatherDims.offCoord
  rw [dif_pos (show (1 : Fin 2) ∈ gather_S1500000x64_S16384x1_S16384x64_1_0_n_n_0_1_164.sKept from by decide)]
  simp only [Nat.zero_add, Nat.add_zero]
  rfl

/-- THE FACTOR TABLE'S GATHER READ AT `(r, k)`: column `k` of the row the index column names at `r`, read signed and
    clamped into the table. -/
theorem gatherV_apply (x : S1500000x64.Idx → α) (idx : IVec S16384x1 32) (r : Fin 16384) (k : Fin 64) :
    Host.gather gather_S1500000x64_S16384x1_S16384x64_1_0_n_n_0_1_164 x idx (ix2 r k)
      = x (ix2 (⟨min (idx (ix2 r (0 : Fin 1))).toInt.toNat (1500000 - 1), by omega⟩ : Fin 1500000) k) := by
  unfold Host.gather
  congr 1
  funext a
  refine Fin.ext ?_
  match a with
  | ⟨0, _⟩ => exact gatherV_axis0 idx r k
  | ⟨1, _⟩ => exact gatherV_axis1 idx r k

end Gathers

/-! ## The stages between the input and the gathers, read at sample `r` -/

section Stages
variable (x0 : (⟨S16384x2, .i32⟩ : BufTy).Contents (Elt Ideal))

/-- The first input column at `r`. -/
theorem v1_at (r : Fin 16384) : val_main_v1 (F := Ideal) x0 (ix1 r) = x0 (ix2 r (0 : Fin 2)) := by
  rw [val_main_v1_apply, val_main_v0_apply]
  exact congrArg x0 (funext fun a => Fin.ext (by match a with | ⟨0, _⟩ => exact Nat.div_one _ | ⟨1, _⟩ => rfl))

/-- The second input column plus 1000000 at `r`. -/
theorem v5_at (r : Fin 16384) : val_main_v5 (F := Ideal) x0 (ix1 r) = x0 (ix2 r (1 : Fin 2)) + 1000000#32 := by
  rw [val_main_v5_apply, val_main_v3_apply, val_main_v2_apply, val_main_v4_apply, val_main_c_apply]
  show x0 _ + 1000000#32 = _
  exact congrArg (· + 1000000#32) (congrArg x0 (funext fun a => Fin.ext (by match a with | ⟨0, _⟩ => exact Nat.div_one _ | ⟨1, _⟩ => rfl)))

/-- A column made of a vector reads the vector at the row. -/
theorem col_idx (r : Fin 16384) : idx_main_v13 (ix2 r (0 : Fin 1)) = ix1 r :=
  funext fun a => Fin.ext (by match a with | ⟨0, _⟩ => rfl)

/-- The user row's normalised index (bias gather) is the first input column where that names a table row. -/
theorem v10_at (r : Fin 16384) (h : Cert.Spec.uRow x0 r < 1500000) :
    val_main_v10 (F := Ideal) x0 (ix1 r) = x0 (ix2 r (0 : Fin 2)) := by
  rw [val_main_v10_apply, val_main_v7_apply, val_main_v9_apply, val_main_v6_apply, val_main_c_0_apply, val_main_v8_apply,
    val_main_c_1_apply, v1_at]
  exact normalise_of_lt _ h

/-- The user row's normalised index (factor gather) likewise. -/
theorem v36_at (r : Fin 16384) (h : Cert.Spec.uRow x0 r < 1500000) :
    val_main_v36 (F := Ideal) x0 (ix1 r) = x0 (ix2 r (0 : Fin 2)) := by
  rw [val_main_v36_apply, val_main_v33_apply, val_main_v35_apply, val_main_v32_apply, val_main_c_6_apply, val_main_v34_apply,
    val_main_c_7_apply, v1_at]
  exact normalise_of_lt _ h

/-- The item row's normalised index (bias gather) is the second input column plus 1000000 where that names a table row. -/
theorem v21_at (r : Fin 16384) (h : Cert.Spec.iRow x0 r < 1500000) :
    val_main_v21 (F := Ideal) x0 (ix1 r) = x0 (ix2 r (1 : Fin 2)) + 1000000#32 := by
  rw [val_main_v21_apply, val_main_v18_apply, val_main_v20_apply, val_main_v17_apply, val_main_c_3_apply, val_main_v19_apply,
    val_main_c_4_apply, v5_at]
  exact normalise_of_lt _ h

/-- The item row's normalised index (factor gather) likewise. -/
theorem v43_at (r : Fin 16384) (h : Cert.Spec.iRow x0 r < 1500000) :
    val_main_v43 (F := Ideal) x0 (ix1 r) = x0 (ix2 r (1 : Fin 2)) + 1000000#32 := by
  rw [val_main_v43_apply, val_main_v40_apply, val_main_v42_apply, val_main_v39_apply, val_main_c_8_apply, val_main_v41_apply,
    val_main_c_9_apply, v5_at]
  exact normalise_of_lt _ h

/-- The user's bias: the bias table at the user row. -/
theorem v16_at (x1 : (⟨S1500000x1, .f32⟩ : BufTy).Contents (Elt Ideal)) (r : Fin 16384) (h : Cert.Spec.uRow x0 r < 1500000) :
    val_main_v16 (F := Ideal) x0 x1 (ix1 r) = x1 (ix2 (Cert.Spec.row (Cert.Spec.uRow x0 r)) (0 : Fin 1)) := by
  unfold val_main_v16
  rw [gatherW_apply]
  refine congrArg x1 (congrArg (fun p : Fin 1500000 => ix2 p (0 : Fin 1)) (Fin.ext ?_))
  show min (val_main_v15 (F := Ideal) x0 (ix2 r (0 : Fin 2))).toInt.toNat (1500000 - 1) = _
  unfold val_main_v15
  rw [concat_col0, val_main_v13_apply, col_idx, v10_at x0 r h]
  exact clamp_row _ h

/-- The item's bias: the bias table at the item row. -/
theorem v27_at (x1 : (⟨S1500000x1, .f32⟩ : BufTy).Contents (Elt Ideal)) (r : Fin 16384) (h : Cert.Spec.iRow x0 r < 1500000) :
    val_main_v27 (F := Ideal) x0 x1 (ix1 r) = x1 (ix2 (Cert.Spec.row (Cert.Spec.iRow x0 r)) (0 : Fin 1)) := by
  unfold val_main_v27
  rw [gatherW_apply]
  refine congrArg x1 (congrArg (fun p : Fin 1500000 => ix2 p (0 : Fin 1)) (Fin.ext ?_))
  show min (val_main_v26 (F := Ideal) x0 (ix2 r (0 : Fin 2))).toInt.toNat (1500000 - 1) = _
  unfold val_main_v26
  rw [concat_col0, val_main_v24_apply, show idx_main_v24 (ix2 r (0 : Fin 1)) = ix1 r from col_idx r, v21_at x0 r h]
  exact clamp_row _ h

/-- The user's factors: row `uRow` of the factor table. -/
theorem v38_at (x3 : (⟨S1500000x64, .f32⟩ : BufTy).Contents (Elt Ideal)) (r : Fin 16384) (k : Fin 64)
    (h : Cert.Spec.uRow x0 r < 1500000) :
    val_main_v38 (F := Ideal) x0 x3 (ix2 r k) = x3 (ix2 (Cert.Spec.row (Cert.Spec.uRow x0 r)) k) := by
  unfold val_main_v38
  rw [gatherV_apply]
  refine congrArg x3 (congrArg (fun p : Fin 1500000 => ix2 p k) (Fin.ext ?_))
  show min (val_main_v37 (F := Ideal) x0 (ix2 r (0 : Fin 1))).toInt.toNat (1500000 - 1) = _
  rw [val_main_v37_apply, show idx_main_v37 (ix2 r (0 : Fin 1)) = ix1 r from col_idx r, v36_at x0 r h]
  exact clamp_row _ h

/-- The item's factors: row `iRow` of the factor table. -/
theorem v45_at (x3 : (⟨S1500000x64, .f32⟩ : BufTy).Contents (Elt Ideal)) (r : Fin 16384) (k : Fin 64)
    (h : Cert.Spec.iRow x0 r < 1500000) :
    val_main_v45 (F := Ideal) x0 x3 (ix2 r k) = x3 (ix2 (Cert.Spec.row (Cert.Spec.iRow x0 r)) k) := by
  unfold val_main_v45
  rw [gatherV_apply]
  refine congrArg x3 (congrArg (fun p : Fin 1500000 => ix2 p k) (Fin.ext ?_))
  show min (val_main_v44 (F := Ideal) x0 (ix2 r (0 : Fin 1))).toInt.toNat (1500000 - 1) = _
  rw [val_main_v44_apply, show idx_main_v44 (ix2 r (0 : Fin 1)) = ix1 r from col_idx r, v43_at x0 r h]
  exact clamp_row _ h

end Stages

/-- The one-element bias vector as a scalar. -/
theorem v29_at (x2 : (⟨S1, .f32⟩ : BufTy).Contents (Elt Ideal)) (i : S_.Idx) :
    val_main_v29 (F := Ideal) x2 i = x2 (ix1 (0 : Fin 1)) := by
  unfold val_main_v29
  exact shapeCast_apply x2 shapeCasts_S1_S_ i (ix1 (0 : Fin 1)) (by
    rw [Shape.rowMajor_val_one]
    have := (S_.rowMajor i).isLt
    have hn : S_.numel = 1 := rfl
    show 0 = _
    omega)

/-! ## The reference's result -/

theorem ref_value (x0 : (⟨S16384x2, .i32⟩ : BufTy).Contents (Elt Ideal)) (x1 : (⟨S1500000x1, .f32⟩ : BufTy).Contents (Elt Ideal))
    (x2 : (⟨S1, .f32⟩ : BufTy).Contents (Elt Ideal)) (x3 : (⟨S1500000x64, .f32⟩ : BufTy).Contents (Elt Ideal))
    (h : Cert.Spec.InRange x0) :
    val_main_v49 (F := Ideal) x0 x1 x2 x3 = Cert.Spec.G x0 x1 x2 x3 := by
  funext i
  obtain ⟨r, q, rfl⟩ : ∃ (r : Fin 16384) (q : Fin 1), i = ix2 r q := ⟨i 0, i 1, eq_ix2 i⟩
  obtain rfl : q = 0 := Subsingleton.elim _ _
  have hi : idx_main_v49 (ix2 r (0 : Fin 1)) = ix1 r :=
    funext fun a => Fin.ext (by match a with | ⟨0, _⟩ => show r.val * 1 + 0 = r.val; omega)
  have hk : ∀ k : Fin 64, idx_main_v47 (ix1 r) k = ix2 r k := fun k =>
    funext fun a => Fin.ext (by match a with | ⟨0, _⟩ => rfl | ⟨1, _⟩ => rfl)
  rw [val_main_v49_apply, hi, val_main_v48_apply, val_main_v31_apply, val_main_v28_apply, val_main_v30_apply, val_main_v47_apply,
    v16_at x0 x1 r (h r).1, v27_at x0 x1 r (h r).2, v29_at, val_main_cst_apply]
  have hs : ∑ k : Fin 64, val_main_v46 (F := Ideal) x0 x3 (idx_main_v47 (ix1 r) k)
      = ∑ k : Fin 64, x3 (ix2 (Cert.Spec.row (Cert.Spec.uRow x0 r)) k) * x3 (ix2 (Cert.Spec.row (Cert.Spec.iRow x0 r)) k) :=
    Finset.sum_congr rfl fun k _ => by
      rw [hk k, val_main_v46_apply, v38_at x0 x3 r k (h r).1, v45_at x0 x3 r k (h r).2]
      rfl
  rw [hs]
  simp only [Ideal.addf_def, Ideal.ofBits_def, Ideal.ofBits_zero_f32, zero_add]
  rfl

end Cert.ReferenceIdeal.RefValue

end
-- ==== Proof.lean ====
/-
  The certificate of the row-gather kernel against its reference.

  Both programs read, for each of the 16384 samples, a user row `u` (the first input column) and an item row `it` (the
  second column plus 1000000) of the tables `W` (1500000 × 1) and `V` (1500000 × 64), and return
  `(W[u] + W[it] + b) + Σ_k V[u,k] · V[it,k]` (the function `Cert.Spec.G`).  The kernel does it with one grid point per
  sample, its four table-indexed windows fetching the rows; the reference with four gathers.  Under the precondition
  every row index lies inside the tables, which is what the kernel's windows need to stay inside their arrays
  (`ok_of_inRange`) and what makes the reference's index normalisation and clamping the identity (`ref_value`).
  At the extended reals the two results are the same term, so no algebraic law — and no finiteness — is used.

  The three frames: each kernel program by its run as host operations, the region, a host operation (`Hand.frame`, at
  the word level and at the extended reals from one text); the reference by its run with the result dropped.  The
  idealization rewrote no operation, so `preserves` is trivial.
-/
import proofs.«411096_j74337293959546_2_alg».proof.Defs
import proofs.«411096_j74337293959546_2_alg».proof.Proof.KRun
import proofs.«411096_j74337293959546_2_alg».proof.Proof.KIRun
import proofs.«411096_j74337293959546_2_alg».proof.Proof.KEntry
import proofs.«411096_j74337293959546_2_alg».proof.Proof.KIEntry
import proofs.«411096_j74337293959546_2_alg».proof.Proof.KIValue
import proofs.«411096_j74337293959546_2_alg».proof.Proof.PreRange
import proofs.«411096_j74337293959546_2_alg».proof.Proof.RefValue
import proofs.«411096_j74337293959546_2_alg».proof.Proof.Gen.Pre_finite_inputs
import Idealize.ShloMosaic.Adequacy
import Idealize.ShloMosaic.Init

noncomputable section

namespace Cert.Proof

open Idealize.ShloMosaic Idealize.SL.Sem

/-- Under the precondition the word-level kernel's table-indexed blocks lie inside their arrays. -/
theorem ok_K (m : (ℓ : Loc Cert.Kernel.nD Cert.Kernel.τ Cert.Kernel.sig) → Buf (Elt Bits) ℓ) (h : Cert.Pre_Kernel m) :
    Cert.Kernel.Hand.Ok m :=
  Cert.Kernel.Hand.ok_of_inRange m (Cert.PreRange.inRange_of_pre _ _ _ _ (h 0))

/-- The same of the idealized kernel. -/
theorem ok_KI (m : (ℓ : Loc Cert.KernelIdeal.nD Cert.KernelIdeal.τ Cert.KernelIdeal.sig) → Buf (Elt Ideal) ℓ) (h : Cert.Pre_KernelIdeal m) :
    Cert.KernelIdeal.Hand.Ok m :=
  Cert.KernelIdeal.Hand.ok_of_inRange m (Cert.PreRange.inRange_of_pre _ _ _ _ (h 0))

theorem frame_K : Cert.frame_Kernel := fun m g h => Cert.Kernel.Hand.frame m g (ok_K m h)

theorem frame_KI : Cert.frame_KernelIdeal := fun m g h => Cert.KernelIdeal.Hand.frame m g (ok_KI m h)

/-- The reference's frame is its run with the result dropped. -/
theorem frame_RI : Cert.frame_ReferenceIdeal := fun m g _ =>
  (θ_run Cert.ReferenceIdeal.defs _ _).mono (fun _ h c => (h c).2) (Cert.ReferenceIdeal.ValueP.run (F := Ideal) m g)

/-- At the extended reals both runs end with the result at `Cert.Spec.G` of the four arguments: the kernel's by the blocks
    its grid points store, the reference's by its gathers read at an index. -/
theorem algebraic : Cert.algebraic_KernelIdeal_ReferenceIdeal := by
  intro m g m' g' hpre hagree
  have hO := ok_KI m hpre
  refine ⟨fun c => Cert.Spec.G (Cert.KernelIdeal.Hand.arrIn m c) (Cert.KernelIdeal.Hand.arrW m c) (Cert.KernelIdeal.Hand.arrB m c) (Cert.KernelIdeal.Hand.arrV m c), ?_, ?_⟩
  · exact (θ_run Cert.KernelIdeal.defs _ _).mono
      (fun _ h c => ⟨(h c).1.trans (Cert.KernelIdeal.Hand.kernel_value m hO (Cert.PreRange.inRange_of_pre _ _ _ _ (hpre 0)) c), (h c).2⟩)
      (Cert.KernelIdeal.Hand.run_result m g hO)
  · refine (θ_run Cert.ReferenceIdeal.defs _ _).mono (fun _ h c => ⟨?_, (h c).2⟩) (Cert.ReferenceIdeal.ValueP.run (F := Ideal) m' g')
    rw [(h c).1, Cert.ReferenceIdeal.ReadP.val_main_v49_eq, (hagree c).1, (hagree c).2.1, (hagree c).2.2.1, (hagree c).2.2.2]
    exact Cert.ReferenceIdeal.RefValue.ref_value _ _ _ _ (Cert.PreRange.inRange_of_pre _ _ _ _ (hpre c))

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
